-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S2000000x3 : Shape := ⟨2, ![2000000, 3]⟩
abbrev S500000x10 : Shape := ⟨2, ![500000, 10]⟩
abbrev S2000000x10 : Shape := ⟨2, ![2000000, 10]⟩
abbrev S_ : Shape := ⟨0, ![]⟩
abbrev S500000x1 : Shape := ⟨2, ![500000, 1]⟩
abbrev S500000 : Shape := ⟨1, ![500000]⟩
abbrev S2000000x1 : Shape := ⟨2, ![2000000, 1]⟩
abbrev S2000000 : Shape := ⟨1, ![2000000]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S2000000x3 : S_.BroadcastsInDim S2000000x3 (![] : Fin 0 → Fin S2000000x3.rank)
  reducesTo_S2000000x3_S_d0_1 : S2000000x3.ReducesTo [0, 1] S_
  slices_S500000x10_S500000x1_0_9 : S500000x10.Slices ![0, 9] S500000x1
  shapeCasts_S500000x1_S500000 : S500000x1.ShapeCasts S500000
  bcast_S_S500000 : S_.BroadcastsInDim S500000 (![] : Fin 0 → Fin S500000.rank)
  reducesTo_S500000_S_d0 : S500000.ReducesTo [0] S_
  slices_S2000000x10_S2000000x1_0_9 : S2000000x10.Slices ![0, 9] S2000000x1
  shapeCasts_S2000000x1_S2000000 : S2000000x1.ShapeCasts S2000000
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg4 : IVec S500000x10 32) (main_arg5 : IVec S2000000x10 32) (main_v13 : IVec S_ 1) (main_v16 : IVec S2000000x3 1) : IVec S_ 1 :=
  let main_c_5 : IVec S_ 1 := constantI S_ 1 1#1
  let main_v17 : IVec S_ 1 := (fun x v => Host.reduce IntOp.andi x v reducesTo_S2000000x3_S_d0_1 h_S_) main_v16 main_c_5
  let main_v18 : IVec S_ 1 := andi main_v13 main_v17
  let main_v19 : IVec S500000x1 32 := (extractStridedSlice S500000x1 ![0, 9] · slices_S500000x10_S500000x1_0_9) main_arg4
  let main_v20 : IVec S500000 32 := shapeCast S500000 main_v19 shapeCasts_S500000x1_S500000
  let main_c_6 : IVec S_ 32 := constantI S_ 32 1#32
  let main_v21 : IVec S500000 32 := broadcastInDim S500000 ![] bcast_S_S500000 main_c_6
  let main_v22 : IVec S500000 1 := cmpi .sge main_v20 main_v21
  let main_c_7 : IVec S_ 1 := constantI S_ 1 1#1
  let main_v23 : IVec S_ 1 := (fun x v => Host.reduce IntOp.andi x v reducesTo_S500000_S_d0 h_S_) main_v22 main_c_7
  let main_v24 : IVec S_ 1 := andi main_v18 main_v23
  let main_v25 : IVec S2000000x1 32 := (extractStridedSlice S2000000x1 ![0, 9] · slices_S2000000x10_S2000000x1_0_9) main_arg5
  let main_v26 : IVec S2000000 32 := shapeCast S2000000 main_v25 shapeCasts_S2000000x1_S2000000
  let main_c_8 : IVec S_ 32 := constantI S_ 32 1#32
  let main_v27 : IVec S2000000 32 := broadcastInDim S2000000 ![] bcast_S_S2000000 main_c_8
  let main_v28 : IVec S2000000 1 := cmpi .sge main_v26 main_v27
  let main_c_9 : IVec S_ 1 := constantI S_ 1 1#1
  let main_v29 : IVec S_ 1 := (fun x v => Host.reduce IntOp.andi x v reducesTo_S2000000_S_d0 h_S_) main_v28 main_c_9
  let main_v30 : IVec S_ 1 := andi main_v24 main_v29
  main_v30

def fn {F : FTy → Type} [FloatOps F] (main_arg0 : FVec F S500000x3 .f32) (main_arg1 : FVec F S500000x3 .f32) (main_arg2 : FVec F S2000000x3 .f32) (main_arg3 : FVec F S2000000x3 .f32) (main_arg4 : IVec S500000x10 32) (main_arg5 : IVec S2000000x10 32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S500000x3 .f32 := Host.absf main_arg1
  let main_cst_0 : FVec F S_ .f32 := constant S_ .f32 0x7F800000#32
  let main_v5 : FVec F S500000x3 .f32 := broadcastInDim S500000x3 ![] bcast_S_S500000x3 main_cst_0
  let main_v6 : IVec S500000x3 1 := cmpf .olt main_v4 main_v5
  let main_c_1 : IVec S_ 1 := constantI S_ 1 1#1
  let main_v7 : IVec S_ 1 := (fun x v => Host.reduce IntOp.andi x v reducesTo_S500000x3_S_d0_1 h_S_) main_v6 main_c_1
  let main_v8 : IVec S_ 1 := andi main_v3 main_v7
  let main_v9 : FVec F S2000000x3 .f32 := Host.absf main_arg2
  let main_cst_2 : FVec F S_ .f32 := constant S_ .f32 0x7F800000#32
  let main_v10 : FVec F S2000000x3 .f32 := broadcastInDim S2000000x3 ![] bcast_S_S2000000x3 main_cst_2
  let main_v11 : IVec S2000000x3 1 := cmpf .olt main_v9 main_v10
  let main_c_3 : IVec S_ 1 := constantI S_ 1 1#1
  let main_v12 : IVec S_ 1 := (fun x v => Host.reduce IntOp.andi x v reducesTo_S2000000x3_S_d0_1 h_S_) main_v11 main_c_3
  let main_v13 : IVec S_ 1 := andi main_v8 main_v12
  let main_v14 : FVec F S2000000x3 .f32 := Host.absf main_arg3
  let main_cst_4 : FVec F S_ .f32 := constant S_ .f32 0x7F800000#32
  let main_v15 : FVec F S2000000x3 .f32 := broadcastInDim S2000000x3 ![] bcast_S_S2000000x3 main_cst_4
  let main_v16 : IVec S2000000x3 1 := cmpf .olt main_v14 main_v15
  fn_part1 (F := F) main_arg4 main_arg5 main_v13 main_v16
-- ==== Kernel.lean ====
abbrev S500000x3 : Shape := ⟨2, ![500000, 3]⟩
abbrev S2000000x3 : Shape := ⟨2, ![2000000, 3]⟩
abbrev S500000x10 : Shape := ⟨2, ![500000, 10]⟩
abbrev S2000000x10 : Shape := ⟨2, ![2000000, 10]⟩
abbrev S500000x8 : Shape := ⟨2, ![500000, 8]⟩
abbrev S_ : Shape := ⟨0, ![]⟩
abbrev S500000x8x1 : Shape := ⟨3, ![500000, 8, 1]⟩
abbrev S500000x8x3 : Shape := ⟨3, ![500000, 8, 3]⟩
abbrev S500000x1 : Shape := ⟨2, ![500000, 1]⟩
abbrev S500000 : Shape := ⟨1, ![500000]⟩
abbrev S3x500000 : Shape := ⟨2, ![3, 500000]⟩
abbrev S6x500000 : Shape := ⟨2, ![6, 500000]⟩
abbrev S1x500000 : Shape := ⟨2, ![1, 500000]⟩
abbrev S6x1760 : Shape := ⟨2, ![6, 1760]⟩
abbrev S6x501760 : Shape := ⟨2, ![6, 501760]⟩
abbrev S1x1760 : Shape := ⟨2, ![1, 1760]⟩
abbrev S1x501760 : Shape := ⟨2, ![1, 501760]⟩
abbrev S2x8x128 : Shape := ⟨3, ![2, 8, 128]⟩
abbrev S6x1024 : Shape := ⟨2, ![6, 1024]⟩
abbrev S1x1024 : Shape := ⟨2, ![1, 1024]⟩
abbrev S1x8x128 : Shape := ⟨3, ![1, 8, 128]⟩
abbrev S1x1 : Shape := ⟨2, ![1, 1]⟩
abbrev S3x1024 : Shape := ⟨2, ![3, 1024]⟩
abbrev S1024 : Shape := ⟨1, ![1024]⟩
abbrev S1 : Shape := ⟨1, ![1]⟩
abbrev S8x128 : Shape := ⟨2, ![8, 128]⟩
abbrev S2x1x1 : Shape := ⟨3, ![2, 1, 1]⟩
abbrev S2 : Shape := ⟨1, ![2]⟩
abbrev S2000000x8 : Shape := ⟨2, ![2000000, 8]⟩
abbrev S2000000x8x1 : Shape := ⟨3, ![2000000, 8, 1]⟩
abbrev S2000000x8x3 : Shape := ⟨3, ![2000000, 8, 3]⟩
abbrev S2000000x1 : Shape := ⟨2, ![2000000, 1]⟩
abbrev S2000000 : Shape := ⟨1, ![2000000]⟩
abbrev S3x2000000 : Shape := ⟨2, ![3, 2000000]⟩
abbrev S6x2000000 : Shape := ⟨2, ![6, 2000000]⟩
abbrev S1x2000000 : Shape := ⟨2, ![1, 2000000]⟩
abbrev S6x896 : Shape := ⟨2, ![6, 896]⟩
abbrev S6x2000896 : Shape := ⟨2, ![6, 2000896]⟩
abbrev S1x896 : Shape := ⟨2, ![1, 896]⟩
abbrev S1x2000896 : Shape := ⟨2, ![1, 2000896]⟩

abbrev nBuf : Space → Nat
  | .hbm => 143
  | .vmem => 18
  | .smem => 0
  | _ => 0

abbrev hbmTy0_0 (i : Nat) : BufTy := match i % 128 with
  | 0 => ⟨S500000x3, .f32⟩
  | 1 => ⟨S500000x3, .f32⟩
  | 2 => ⟨S2000000x3, .f32⟩
  | 3 => ⟨S2000000x3, .f32⟩
  | 4 => ⟨S500000x10, .i32⟩
  | 5 => ⟨S2000000x10, .i32⟩
  | 6 => ⟨S500000x8, .i32⟩
  | 7 => ⟨S_, .i32⟩
  | 8 => ⟨S500000x8, .i32⟩
  | 9 => ⟨S500000x8, .i1⟩
  | 10 => ⟨S_, .i32⟩
  | 11 => ⟨S_, .i32⟩
  | 12 => ⟨S500000x8, .i32⟩
  | 13 => ⟨S500000x8, .i32⟩
  | 14 => ⟨S_, .i32⟩
  | 15 => ⟨S500000x8, .i32⟩
  | 16 => ⟨S500000x8, .i1⟩
  | 17 => ⟨S_, .i32⟩
  | 18 => ⟨S500000x8, .i32⟩
  | 19 => ⟨S500000x8, .i32⟩
  | 20 => ⟨S500000x8, .i32⟩
  | 21 => ⟨S500000x8x1, .i32⟩
  | 22 => ⟨S500000x8x3, .f32⟩
  | 23 => ⟨S500000x8x1, .i1⟩
  | 24 => ⟨S_, .f32⟩
  | 25 => ⟨S500000x8x3, .i1⟩
  | 26 => ⟨S500000x8x3, .f32⟩
  | 27 => ⟨S500000x8x3, .f32⟩
  | 28 => ⟨S_, .f32⟩
  | 29 => ⟨S500000x3, .f32⟩
  | 30 => ⟨S_, .i32⟩
  | 31 => ⟨S500000x8, .i32⟩
  | 32 => ⟨S500000x8, .i1⟩
  | 33 => ⟨S_, .i32⟩
  | 34 => ⟨S500000x8, .i32⟩
  | 35 => ⟨S500000x8, .i32⟩
  | 36 => ⟨S500000x8, .i32⟩
  | 37 => ⟨S500000x8x1, .i32⟩
  | 38 => ⟨S500000x8x3, .f32⟩
  | 39 => ⟨S500000x8x1, .i1⟩
  | 40 => ⟨S_, .f32⟩
  | 41 => ⟨S500000x8x3, .i1⟩
  | 42 => ⟨S500000x8x3, .f32⟩
  | 43 => ⟨S500000x8x3, .f32⟩
  | 44 => ⟨S_, .f32⟩
  | 45 => ⟨S500000x3, .f32⟩
  | 46 => ⟨S500000x1, .i32⟩
  | 47 => ⟨S500000, .i32⟩
  | 48 => ⟨S500000, .f32⟩
  | 49 => ⟨S3x500000, .f32⟩
  | 50 => ⟨S3x500000, .f32⟩
  | 51 => ⟨S6x500000, .f32⟩
  | 52 => ⟨S3x500000, .f32⟩
  | 53 => ⟨S3x500000, .f32⟩
  | 54 => ⟨S6x500000, .f32⟩
  | 55 => ⟨S1x500000, .f32⟩
  | 56 => ⟨S_, .f32⟩
  | 57 => ⟨S6x1760, .f32⟩
  | 58 => ⟨S6x501760, .f32⟩
  | 59 => ⟨S_, .f32⟩
  | 60 => ⟨S6x1760, .f32⟩
  | 61 => ⟨S6x501760, .f32⟩
  | 62 => ⟨S_, .f32⟩
  | 63 => ⟨S1x1760, .f32⟩
  | 64 => ⟨S1x501760, .f32⟩
  | 65 => ⟨S2x8x128, .f32⟩
  | 66 => ⟨S2x1x1, .f32⟩
  | 67 => ⟨S2, .f32⟩
  | 68 => ⟨S_, .f32⟩
  | 69 => ⟨S_, .f32⟩
  | 70 => ⟨S_, .f32⟩
  | 71 => ⟨S_, .f32⟩
  | 72 => ⟨S2000000x8, .i32⟩
  | 73 => ⟨S_, .i32⟩
  | 74 => ⟨S2000000x8, .i32⟩
  | 75 => ⟨S2000000x8, .i1⟩
  | 76 => ⟨S_, .i32⟩
  | 77 => ⟨S_, .i32⟩
  | 78 => ⟨S2000000x8, .i32⟩
  | 79 => ⟨S2000000x8, .i32⟩
  | 80 => ⟨S_, .i32⟩
  | 81 => ⟨S2000000x8, .i32⟩
  | 82 => ⟨S2000000x8, .i1⟩
  | 83 => ⟨S_, .i32⟩
  | 84 => ⟨S2000000x8, .i32⟩
  | 85 => ⟨S2000000x8, .i32⟩
  | 86 => ⟨S2000000x8, .i32⟩
  | 87 => ⟨S2000000x8x1, .i32⟩
  | 88 => ⟨S2000000x8x3, .f32⟩
  | 89 => ⟨S2000000x8x1, .i1⟩
  | 90 => ⟨S_, .f32⟩
  | 91 => ⟨S2000000x8x3, .i1⟩
  | 92 => ⟨S2000000x8x3, .f32⟩
  | 93 => ⟨S2000000x8x3, .f32⟩
  | 94 => ⟨S_, .f32⟩
  | 95 => ⟨S2000000x3, .f32⟩
  | 96 => ⟨S_, .i32⟩
  | 97 => ⟨S2000000x8, .i32⟩
  | 98 => ⟨S2000000x8, .i1⟩
  | 99 => ⟨S_, .i32⟩
  | 100 => ⟨S2000000x8, .i32⟩
  | 101 => ⟨S2000000x8, .i32⟩
  | 102 => ⟨S2000000x8, .i32⟩
  | 103 => ⟨S2000000x8x1, .i32⟩
  | 104 => ⟨S2000000x8x3, .f32⟩
  | 105 => ⟨S2000000x8x1, .i1⟩
  | 106 => ⟨S_, .f32⟩
  | 107 => ⟨S2000000x8x3, .i1⟩
  | 108 => ⟨S2000000x8x3, .f32⟩
  | 109 => ⟨S2000000x8x3, .f32⟩
  | 110 => ⟨S_, .f32⟩
  | 111 => ⟨S2000000x3, .f32⟩
  | 112 => ⟨S2000000x1, .i32⟩
  | 113 => ⟨S2000000, .i32⟩
  | 114 => ⟨S2000000, .f32⟩
  | 115 => ⟨S3x2000000, .f32⟩
  | 116 => ⟨S3x2000000, .f32⟩
  | 117 => ⟨S6x2000000, .f32⟩
  | 118 => ⟨S3x2000000, .f32⟩
  | 119 => ⟨S3x2000000, .f32⟩
  | 120 => ⟨S6x2000000, .f32⟩
  | 121 => ⟨S1x2000000, .f32⟩
  | 122 => ⟨S_, .f32⟩
  | 123 => ⟨S6x896, .f32⟩
  | 124 => ⟨S6x2000896, .f32⟩
  | 125 => ⟨S_, .f32⟩
  | 126 => ⟨S6x896, .f32⟩
  | 127 => ⟨S6x2000896, .f32⟩
  | _ => ⟨S500000x3, .f32⟩

abbrev hbmTy0_1 (i : Nat) : BufTy := match i % 128 with
  | 0 => ⟨S_, .f32⟩
  | 1 => ⟨S1x896, .f32⟩
  | 2 => ⟨S1x2000896, .f32⟩
  | 3 => ⟨S2x8x128, .f32⟩
  | 4 => ⟨S2x1x1, .f32⟩
  | 5 => ⟨S2, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S500000x3, .f32⟩

abbrev hbmTy (i : Nat) : BufTy := match i / 128 with
  | 0 => hbmTy0_0 i
  | 1 => hbmTy0_1 i
  | _ => ⟨S500000x3, .f32⟩

abbrev bufTy : (tb : Table) → Fin (tcTables nBuf tb) → BufTy
  | .hbm, ⟨i, _⟩ => hbmTy i
  | .local _ .vmem, ⟨0, _⟩ => ⟨S6x1024, .f32⟩
  | .local _ .vmem, ⟨1, _⟩ => ⟨S6x1024, .f32⟩
  | .local _ .vmem, ⟨2, _⟩ => ⟨S6x1024, .f32⟩
  | .local _ .vmem, ⟨3, _⟩ => ⟨S6x1024, .f32⟩
  | .local _ .vmem, ⟨4, _⟩ => ⟨S1x1024, .f32⟩
  | .local _ .vmem, ⟨5, _⟩ => ⟨S1x1024, .f32⟩
  | .local _ .vmem, ⟨6, _⟩ => ⟨S1x8x128, .f32⟩
  | .local _ .vmem, ⟨7, _⟩ => ⟨S1x8x128, .f32⟩
  | .local _ .vmem, ⟨8, _⟩ => ⟨S1x1, .f32⟩
  | .local _ .vmem, ⟨9, _⟩ => ⟨S6x1024, .f32⟩
  | .local _ .vmem, ⟨10, _⟩ => ⟨S6x1024, .f32⟩
  | .local _ .vmem, ⟨11, _⟩ => ⟨S6x1024, .f32⟩
  | .local _ .vmem, ⟨12, _⟩ => ⟨S6x1024, .f32⟩
  | .local _ .vmem, ⟨13, _⟩ => ⟨S1x1024, .f32⟩
  | .local _ .vmem, ⟨14, _⟩ => ⟨S1x1024, .f32⟩
  | .local _ .vmem, ⟨15, _⟩ => ⟨S1x8x128, .f32⟩
  | .local _ .vmem, ⟨16, _⟩ => ⟨S1x8x128, .f32⟩
  | .local _ .vmem, ⟨17, _⟩ => ⟨S1x1, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_c_13 : Ref sig .tc := ⟨.hbm, 73, rfl⟩
abbrev main_v46 : Ref sig .tc := ⟨.hbm, 74, rfl⟩
abbrev main_v47 : Ref sig .tc := ⟨.hbm, 75, rfl⟩
abbrev main_c_14 : Ref sig .tc := ⟨.hbm, 76, rfl⟩
abbrev main_call3_v0 : Ref sig .tc := ⟨.hbm, 77, rfl⟩
abbrev main_call3_v1 : Ref sig .tc := ⟨.hbm, 78, rfl⟩
abbrev main_v48 : Ref sig .tc := ⟨.hbm, 79, rfl⟩
abbrev main_c_15 : Ref sig .tc := ⟨.hbm, 80, rfl⟩
abbrev main_v49 : Ref sig .tc := ⟨.hbm, 81, rfl⟩
abbrev main_v50 : Ref sig .tc := ⟨.hbm, 82, rfl⟩
abbrev main_c_16 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_17 : Ref sig .tc := ⟨.hbm, 90, rfl⟩
abbrev main_call4_v0 : Ref sig .tc := ⟨.hbm, 91, rfl⟩
abbrev main_call4_v1 : Ref sig .tc := ⟨.hbm, 92, rfl⟩
abbrev main_v57 : Ref sig .tc := ⟨.hbm, 93, rfl⟩
abbrev main_cst_18 : Ref sig .tc := ⟨.hbm, 94, rfl⟩
abbrev main_v58 : Ref sig .tc := ⟨.hbm, 95, rfl⟩
abbrev main_c_19 : Ref sig .tc := ⟨.hbm, 96, rfl⟩
abbrev main_v59 : Ref sig .tc := ⟨.hbm, 97, rfl⟩
abbrev main_v60 : Ref sig .tc := ⟨.hbm, 98, rfl⟩
abbrev main_c_20 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_21 : Ref sig .tc := ⟨.hbm, 106, rfl⟩
abbrev main_call5_v0 : Ref sig .tc := ⟨.hbm, 107, rfl⟩
abbrev main_call5_v1 : Ref sig .tc := ⟨.hbm, 108, rfl⟩
abbrev main_v67 : Ref sig .tc := ⟨.hbm, 109, rfl⟩
abbrev main_cst_22 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_23 : Ref sig .tc := ⟨.hbm, 122, rfl⟩
abbrev main_v79 : Ref sig .tc := ⟨.hbm, 123, rfl⟩
abbrev main_v80 : Ref sig .tc := ⟨.hbm, 124, rfl⟩
abbrev main_cst_24 : Ref sig .tc := ⟨.hbm, 125, rfl⟩
abbrev main_v81 : Ref sig .tc := ⟨.hbm, 126, rfl⟩
abbrev main_v82 : Ref sig .tc := ⟨.hbm, 127, rfl⟩
abbrev main_cst_25 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_26 : Ref sig .tc := ⟨.hbm, 134, rfl⟩
abbrev main_v88 : Ref sig .tc := ⟨.hbm, 135, rfl⟩
abbrev main_cst_27 : Ref sig .tc := ⟨.hbm, 136, rfl⟩
abbrev main_v89 : Ref sig .tc := ⟨.hbm, 137, rfl⟩
abbrev main_cst_28 : Ref sig .tc := ⟨.hbm, 138, rfl⟩
abbrev main_v90 : Ref sig .tc := ⟨.hbm, 139, rfl⟩
abbrev main_cst_29 : Ref sig .tc := ⟨.hbm, 140, rfl⟩
abbrev main_v91 : Ref sig .tc := ⟨.hbm, 141, rfl⟩
abbrev main_v92 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 245], ![false, false]⟩

def k0_cond2 (i : grid0.Coords) : BitVec 1 :=
  let arg1 : BitVec 32 := BitVec.ofNat 32 (i 1).val
  let c244_i32 : BitVec 32 := 244#32
  let v31 : BitVec 1 := Scalar.cmpi .eq arg1 c244_i32
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 977], ![false, false]⟩

def k1_cond2 (i : grid1.Coords) : BitVec 1 :=
  let arg1 : BitVec 32 := BitVec.ofNat 32 (i 1).val
  let c976_i32 : BitVec 32 := 976#32
  let v31 : BitVec 1 := Scalar.cmpi .eq arg1 c976_i32
  let v32 : BitVec 32 := Scalar.extui v31
  let c0_i32_13 : BitVec 32 := 0#32
  let v33 : BitVec 1 := Scalar.cmpi .ne v32 c0_i32_13
  v33

def cc1_transform_0 (i : grid1.Coords) : Fin 2 → Nat :=
  let arg0 : BitVec 32 := BitVec.ofNat 32 (i 0).val
  let arg1 : BitVec 32 := BitVec.ofNat 32 (i 1).val
  let c977_i32 : BitVec 32 := 977#32
  let v0 : BitVec 32 := Scalar.muli arg0 c977_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c977_i32 : BitVec 32 := 977#32
  let v0 : BitVec 32 := Scalar.muli arg0 c977_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c977_i32 : BitVec 32 := 977#32
  let v0 : BitVec 32 := Scalar.muli arg0 c977_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S6x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S6x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S500000x10_S500000x8_0_0 : S500000x10.Slices ![0, 0] S500000x8
  bcast_S_S500000x8 : S_.BroadcastsInDim S500000x8 (![] : Fin 0 → Fin S500000x8.rank)
  bcast_S500000x8_S500000x8x1_0_1 : S500000x8.BroadcastsInDim S500000x8x1 (![0, 1] : Fin 2 → Fin S500000x8x1.rank)
  bcast_S500000x8x1_S500000x8x3_0_1_2 : S500000x8x1.BroadcastsInDim S500000x8x3 (![0, 1, 2] : Fin 3 → Fin S500000x8x3.rank)
  bcast_S_S500000x8x3 : S_.BroadcastsInDim S500000x8x3 (![] : Fin 0 → Fin S500000x8x3.rank)
  reducesTo_S500000x8x3_S500000x3_d1 : S500000x8x3.ReducesTo [1] S500000x3
  h_S_ : 0 < S_.numel
  slices_S500000x10_S500000x1_0_9 : S500000x10.Slices ![0, 9] S500000x1
  shapeCasts_S500000x1_S500000 : S500000x1.ShapeCasts S500000
  transposes_S500000x3_S3x500000_1_0 : S500000x3.Transposes [1, 0] S3x500000
  concatenates_S3x500000_S3x500000_S6x500000_d0 : Shape.Concatenates [S3x500000, S3x500000] S6x500000 0
  bcast_S500000_S1x500000_1 : S500000.BroadcastsInDim S1x500000 (![1] : Fin 1 → Fin S1x500000.rank)
  bcast_S_S6x1760 : S_.BroadcastsInDim S6x1760 (![] : Fin 0 → Fin S6x1760.rank)
  concatenates_S6x500000_S6x1760_S6x501760_d1 : Shape.Concatenates [S6x500000, S6x1760] S6x501760 1
  bcast_S_S1x1760 : S_.BroadcastsInDim S1x1760 (![] : Fin 0 → Fin S1x1760.rank)
  concatenates_S1x500000_S1x1760_S1x501760_d1 : Shape.Concatenates [S1x500000, S1x1760] S1x501760 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S6x1024_S6x1024_0_0 : ∀ a, (![0, 0] : Fin 2 → Nat) a + S6x1024.size a ≤ S6x1024.size a
  h_S6x1024 : 0 < S6x1024.numel
  shapeCasts_S6x1024_S6x1024 : S6x1024.ShapeCasts S6x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S6x1024 : S1x1024.Broadcasts S6x1024
  slices_S6x1024_o0_0_S3x1024 : S6x1024.Slices ![0, 0] S3x1024
  slices_S6x1024_o3_0_S3x1024 : S6x1024.Slices ![3, 0] S3x1024
  reduces_S3x1024_S1024 : S3x1024.Reduces [0] S1024
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  slices_S2000000x10_S2000000x8_0_0 : S2000000x10.Slices ![0, 0] S2000000x8
  bcast_S_S2000000x8 : S_.BroadcastsInDim S2000000x8 (![] : Fin 0 → Fin S2000000x8.rank)
  bcast_S2000000x8_S2000000x8x1_0_1 : S2000000x8.BroadcastsInDim S2000000x8x1 (![0, 1] : Fin 2 → Fin S2000000x8x1.rank)
  bcast_S2000000x8x1_S2000000x8x3_0_1_2 : S2000000x8x1.BroadcastsInDim S2000000x8x3 (![0, 1, 2] : Fin 3 → Fin S2000000x8x3.rank)
  bcast_S_S2000000x8x3 : S_.BroadcastsInDim S2000000x8x3 (![] : Fin 0 → Fin S2000000x8x3.rank)
  reducesTo_S2000000x8x3_S2000000x3_d1 : S2000000x8x3.ReducesTo [1] S2000000x3
  slices_S2000000x10_S2000000x1_0_9 : S2000000x10.Slices ![0, 9] S2000000x1
  shapeCasts_S2000000x1_S2000000 : S2000000x1.ShapeCasts S2000000
  transposes_S2000000x3_S3x2000000_1_0 : S2000000x3.Transposes [1, 0] S3x2000000
  concatenates_S3x2000000_S3x2000000_S6x2000000_d0 : Shape.Concatenates [S3x2000000, S3x2000000] S6x2000000 0
  bcast_S2000000_S1x2000000_1 : S2000000.BroadcastsInDim S1x2000000 (![1] : Fin 1 → Fin S1x2000000.rank)
  bcast_S_S6x896 : S_.BroadcastsInDim S6x896 (![] : Fin 0 → Fin S6x896.rank)
  concatenates_S6x2000000_S6x896_S6x2000896_d1 : Shape.Concatenates [S6x2000000, S6x896] S6x2000896 1
  bcast_S_S1x896 : S_.BroadcastsInDim S1x896 (![] : Fin 0 → Fin S1x896.rank)
  concatenates_S1x2000000_S1x896_S1x2000896_d1 : Shape.Concatenates [S1x2000000, S1x896] S1x2000896 1
  gather_S500000x3_S500000x8x1_S500000x8x3_2_0_n_n_0_2_13_wf : GatherDims.WF S500000x3 S500000x8x1 S500000x8x3 [2] [0] [] [0] [] 2 ![1, 3]
  gather_S2000000x3_S2000000x8x1_S2000000x8x3_2_0_n_n_0_2_13_wf : GatherDims.WF S2000000x3 S2000000x8x1 S2000000x8x3 [2] [0] [] [0] [] 2 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x1024.size a ≤ S6x501760.size a
  hwx0_0 : ∀ i : grid0.Coords, EltTy.bits .f32 = 32 ∨ (Rect.block (s := S6x501760) S6x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x1024.size a ≤ S6x501760.size a
  hwx0_1 : ∀ i : grid0.Coords, EltTy.bits .f32 = 32 ∨ (Rect.block (s := S6x501760) S6x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x501760.size a
  hwx0_2 : ∀ i : grid0.Coords, EltTy.bits .f32 = 32 ∨ (Rect.block (s := S1x501760) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6x1024.size a ≤ S6x2000896.size a
  hwx1_0 : ∀ i : grid1.Coords, EltTy.bits .f32 = 32 ∨ (Rect.block (s := S6x2000896) S6x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6x1024.size a ≤ S6x2000896.size a
  hwx1_1 : ∀ i : grid1.Coords, EltTy.bits .f32 = 32 ∨ (Rect.block (s := S6x2000896) S6x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2000896.size a
  hwx1_2 : ∀ i : grid1.Coords, EltTy.bits .f32 = 32 ∨ (Rect.block (s := S1x2000896) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x128.size a ≤ S2x8x128.size a
  hwx1_3 : ∀ i : grid1.Coords, EltTy.bits .f32 = 32 ∨ (Rect.block (s := S2x8x128) S1x8x128.size (cc1_transform_3 i) (hinb1_3 i)).WholeWords (EltTy.packing .f32)

variable [Facts₀]

def gather_S500000x3_S500000x8x1_S500000x8x3_2_0_n_n_0_2_13 : GatherDims S500000x3 S500000x8x1 S500000x8x3 where
  offsetDims := [2]
  collapsedSliceDims := [0]
  operandBatchingDims := []
  startIndicesBatchingDims := []
  startIndexMap := [0]
  indexVectorDim := 2
  sliceSizes := ![1, 3]
  wf := gather_S500000x3_S500000x8x1_S500000x8x3_2_0_n_n_0_2_13_wf
def gather_S2000000x3_S2000000x8x1_S2000000x8x3_2_0_n_n_0_2_13 : GatherDims S2000000x3 S2000000x8x1 S2000000x8x3 where
  offsetDims := [2]
  collapsedSliceDims := [0]
  operandBatchingDims := []
  startIndicesBatchingDims := []
  startIndexMap := [0]
  indexVectorDim := 2
  sliceSizes := ![1, 3]
  wf := gather_S2000000x3_S2000000x8x1_S2000000x8x3_2_0_n_n_0_2_13_wf

abbrev win0_0 : Pipeline.Window sig grid0 :=
  Pipeline.Window.ofSpec (Memref.whole main_v35) S6x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S6x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v80) S6x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v82) S6x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v84) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v85) S1x8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S500000x3 : Shape := ⟨2, ![500000, 3]⟩
abbrev S2000000x3 : Shape := ⟨2, ![2000000, 3]⟩
abbrev S500000x10 : Shape := ⟨2, ![500000, 10]⟩
abbrev S2000000x10 : Shape := ⟨2, ![2000000, 10]⟩
abbrev S500000x8 : Shape := ⟨2, ![500000, 8]⟩
abbrev S_ : Shape := ⟨0, ![]⟩
abbrev S500000x8x1 : Shape := ⟨3, ![500000, 8, 1]⟩
abbrev S500000x8x3 : Shape := ⟨3, ![500000, 8, 3]⟩
abbrev S500000x1 : Shape := ⟨2, ![500000, 1]⟩
abbrev S500000 : Shape := ⟨1, ![500000]⟩
abbrev S2000000x8 : Shape := ⟨2, ![2000000, 8]⟩
abbrev S2000000x8x1 : Shape := ⟨3, ![2000000, 8, 1]⟩
abbrev S2000000x8x3 : Shape := ⟨3, ![2000000, 8, 3]⟩
abbrev S2000000x1 : Shape := ⟨2, ![2000000, 1]⟩
abbrev S2000000 : Shape := ⟨1, ![2000000]⟩

abbrev nBuf : Space → Nat
  | .hbm => 151
  | .vmem => 0
  | .smem => 0
  | _ => 0

abbrev hbmTy0_0 (i : Nat) : BufTy := match i % 128 with
  | 0 => ⟨S500000x3, .f32⟩
  | 1 => ⟨S500000x3, .f32⟩
  | 2 => ⟨S2000000x3, .f32⟩
  | 3 => ⟨S2000000x3, .f32⟩
  | 4 => ⟨S500000x10, .i32⟩
  | 5 => ⟨S2000000x10, .i32⟩
  | 6 => ⟨S500000x8, .i32⟩
  | 7 => ⟨S_, .i32⟩
  | 8 => ⟨S500000x8, .i32⟩
  | 9 => ⟨S500000x8, .i1⟩
  | 10 => ⟨S_, .i32⟩
  | 11 => ⟨S_, .i32⟩
  | 12 => ⟨S500000x8, .i32⟩
  | 13 => ⟨S500000x8, .i32⟩
  | 14 => ⟨S_, .i32⟩
  | 15 => ⟨S500000x8, .i32⟩
  | 16 => ⟨S500000x8, .i1⟩
  | 17 => ⟨S_, .i32⟩
  | 18 => ⟨S500000x8, .i32⟩
  | 19 => ⟨S500000x8, .i32⟩
  | 20 => ⟨S500000x8, .i32⟩
  | 21 => ⟨S500000x8x1, .i32⟩
  | 22 => ⟨S500000x8x3, .f32⟩
  | 23 => ⟨S500000x8x1, .i1⟩
  | 24 => ⟨S_, .f32⟩
  | 25 => ⟨S500000x8x3, .i1⟩
  | 26 => ⟨S500000x8x3, .f32⟩
  | 27 => ⟨S500000x8x3, .f32⟩
  | 28 => ⟨S_, .f32⟩
  | 29 => ⟨S500000x3, .f32⟩
  | 30 => ⟨S500000x1, .i32⟩
  | 31 => ⟨S500000, .i32⟩
  | 32 => ⟨S500000, .f32⟩
  | 33 => ⟨S500000x1, .f32⟩
  | 34 => ⟨S500000x3, .f32⟩
  | 35 => ⟨S500000x3, .f32⟩
  | 36 => ⟨S500000x3, .f32⟩
  | 37 => ⟨S500000x8, .i32⟩
  | 38 => ⟨S_, .i32⟩
  | 39 => ⟨S500000x8, .i32⟩
  | 40 => ⟨S500000x8, .i1⟩
  | 41 => ⟨S_, .i32⟩
  | 42 => ⟨S_, .i32⟩
  | 43 => ⟨S500000x8, .i32⟩
  | 44 => ⟨S500000x8, .i32⟩
  | 45 => ⟨S_, .i32⟩
  | 46 => ⟨S500000x8, .i32⟩
  | 47 => ⟨S500000x8, .i1⟩
  | 48 => ⟨S_, .i32⟩
  | 49 => ⟨S500000x8, .i32⟩
  | 50 => ⟨S500000x8, .i32⟩
  | 51 => ⟨S500000x8, .i32⟩
  | 52 => ⟨S500000x8x1, .i32⟩
  | 53 => ⟨S500000x8x3, .f32⟩
  | 54 => ⟨S500000x8x1, .i1⟩
  | 55 => ⟨S_, .f32⟩
  | 56 => ⟨S500000x8x3, .i1⟩
  | 57 => ⟨S500000x8x3, .f32⟩
  | 58 => ⟨S500000x8x3, .f32⟩
  | 59 => ⟨S_, .f32⟩
  | 60 => ⟨S500000x3, .f32⟩
  | 61 => ⟨S500000x1, .i32⟩
  | 62 => ⟨S500000, .i32⟩
  | 63 => ⟨S500000, .f32⟩
  | 64 => ⟨S500000x1, .f32⟩
  | 65 => ⟨S500000x3, .f32⟩
  | 66 => ⟨S500000x3, .f32⟩
  | 67 => ⟨S500000x3, .f32⟩
  | 68 => ⟨S500000x3, .f32⟩
  | 69 => ⟨S500000x3, .f32⟩
  | 70 => ⟨S_, .f32⟩
  | 71 => ⟨S500000, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S2000000x8, .i32⟩
  | 79 => ⟨S_, .i32⟩
  | 80 => ⟨S2000000x8, .i32⟩
  | 81 => ⟨S2000000x8, .i1⟩
  | 82 => ⟨S_, .i32⟩
  | 83 => ⟨S_, .i32⟩
  | 84 => ⟨S2000000x8, .i32⟩
  | 85 => ⟨S2000000x8, .i32⟩
  | 86 => ⟨S_, .i32⟩
  | 87 => ⟨S2000000x8, .i32⟩
  | 88 => ⟨S2000000x8, .i1⟩
  | 89 => ⟨S_, .i32⟩
  | 90 => ⟨S2000000x8, .i32⟩
  | 91 => ⟨S2000000x8, .i32⟩
  | 92 => ⟨S2000000x8, .i32⟩
  | 93 => ⟨S2000000x8x1, .i32⟩
  | 94 => ⟨S2000000x8x3, .f32⟩
  | 95 => ⟨S2000000x8x1, .i1⟩
  | 96 => ⟨S_, .f32⟩
  | 97 => ⟨S2000000x8x3, .i1⟩
  | 98 => ⟨S2000000x8x3, .f32⟩
  | 99 => ⟨S2000000x8x3, .f32⟩
  | 100 => ⟨S_, .f32⟩
  | 101 => ⟨S2000000x3, .f32⟩
  | 102 => ⟨S2000000x1, .i32⟩
  | 103 => ⟨S2000000, .i32⟩
  | 104 => ⟨S2000000, .f32⟩
  | 105 => ⟨S2000000x1, .f32⟩
  | 106 => ⟨S2000000x3, .f32⟩
  | 107 => ⟨S2000000x3, .f32⟩
  | 108 => ⟨S2000000x3, .f32⟩
  | 109 => ⟨S2000000x8, .i32⟩
  | 110 => ⟨S_, .i32⟩
  | 111 => ⟨S2000000x8, .i32⟩
  | 112 => ⟨S2000000x8, .i1⟩
  | 113 => ⟨S_, .i32⟩
  | 114 => ⟨S_, .i32⟩
  | 115 => ⟨S2000000x8, .i32⟩
  | 116 => ⟨S2000000x8, .i32⟩
  | 117 => ⟨S_, .i32⟩
  | 118 => ⟨S2000000x8, .i32⟩
  | 119 => ⟨S2000000x8, .i1⟩
  | 120 => ⟨S_, .i32⟩
  | 121 => ⟨S2000000x8, .i32⟩
  | 122 => ⟨S2000000x8, .i32⟩
  | 123 => ⟨S2000000x8, .i32⟩
  | 124 => ⟨S2000000x8x1, .i32⟩
  | 125 => ⟨S2000000x8x3, .f32⟩
  | 126 => ⟨S2000000x8x1, .i1⟩
  | 127 => ⟨S_, .f32⟩
  | _ => ⟨S500000x3, .f32⟩

abbrev hbmTy0_1 (i : Nat) : BufTy := match i % 128 with
  | 0 => ⟨S2000000x8x3, .i1⟩
  | 1 => ⟨S2000000x8x3, .f32⟩
  | 2 => ⟨S2000000x8x3, .f32⟩
  | 3 => ⟨S_, .f32⟩
  | 4 => ⟨S2000000x3, .f32⟩
  | 5 => ⟨S2000000x1, .i32⟩
  | 6 => ⟨S2000000, .i32⟩
  | 7 => ⟨S2000000, .f32⟩
  | 8 => ⟨S2000000x1, .f32⟩
  | 9 => ⟨S2000000x3, .f32⟩
  | 10 => ⟨S2000000x3, .f32⟩
  | 11 => ⟨S2000000x3, .f32⟩
  | 12 => ⟨S2000000x3, .f32⟩
  | 13 => ⟨S2000000x3, .f32⟩
  | 14 => ⟨S_, .f32⟩
  | 15 => ⟨S2000000, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | _ => ⟨S500000x3, .f32⟩

abbrev hbmTy (i : Nat) : BufTy := match i / 128 with
  | 0 => hbmTy0_0 i
  | 1 => hbmTy0_1 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_call2_v0 : Ref sig .tc := ⟨.hbm, 42, rfl⟩
abbrev main_call2_v1 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_call3_v0 : Ref sig .tc := ⟨.hbm, 56, rfl⟩
abbrev main_call3_v1 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_c_14 : Ref sig .tc := ⟨.hbm, 79, rfl⟩
abbrev main_v49 : Ref sig .tc := ⟨.hbm, 80, rfl⟩
abbrev main_v50 : Ref sig .tc := ⟨.hbm, 81, rfl⟩
abbrev main_c_15 : Ref sig .tc := ⟨.hbm, 82, rfl⟩
abbrev main_call4_v0 : Ref sig .tc := ⟨.hbm, 83, rfl⟩
abbrev main_call4_v1 : Ref sig .tc := ⟨.hbm, 84, rfl⟩
abbrev main_v51 : Ref sig .tc := ⟨.hbm, 85, rfl⟩
abbrev main_c_16 : Ref sig .tc := ⟨.hbm, 86, rfl⟩
abbrev main_v52 : Ref sig .tc := ⟨.hbm, 87, rfl⟩
abbrev main_v53 : Ref sig .tc := ⟨.hbm, 88, rfl⟩
abbrev main_c_17 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_18 : Ref sig .tc := ⟨.hbm, 96, rfl⟩
abbrev main_call5_v0 : Ref sig .tc := ⟨.hbm, 97, rfl⟩
abbrev main_call5_v1 : Ref sig .tc := ⟨.hbm, 98, rfl⟩
abbrev main_v60 : Ref sig .tc := ⟨.hbm, 99, rfl⟩
abbrev main_cst_19 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_20 : Ref sig .tc := ⟨.hbm, 110, rfl⟩
abbrev main_v70 : Ref sig .tc := ⟨.hbm, 111, rfl⟩
abbrev main_v71 : Ref sig .tc := ⟨.hbm, 112, rfl⟩
abbrev main_c_21 : Ref sig .tc := ⟨.hbm, 113, rfl⟩
abbrev main_call6_v0 : Ref sig .tc := ⟨.hbm, 114, rfl⟩
abbrev main_call6_v1 : Ref sig .tc := ⟨.hbm, 115, rfl⟩
abbrev main_v72 : Ref sig .tc := ⟨.hbm, 116, rfl⟩
abbrev main_c_22 : Ref sig .tc := ⟨.hbm, 117, rfl⟩
abbrev main_v73 : Ref sig .tc := ⟨.hbm, 118, rfl⟩
abbrev main_v74 : Ref sig .tc := ⟨.hbm, 119, rfl⟩
abbrev main_c_23 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_24 : Ref sig .tc := ⟨.hbm, 127, rfl⟩
abbrev main_call7_v0 : Ref sig .tc := ⟨.hbm, 128, rfl⟩
abbrev main_call7_v1 : Ref sig .tc := ⟨.hbm, 129, rfl⟩
abbrev main_v81 : Ref sig .tc := ⟨.hbm, 130, rfl⟩
abbrev main_cst_25 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_26 : Ref sig .tc := ⟨.hbm, 142, rfl⟩
abbrev main_v92 : Ref sig .tc := ⟨.hbm, 143, rfl⟩
abbrev main_cst_27 : Ref sig .tc := ⟨.hbm, 144, rfl⟩
abbrev main_v93 : Ref sig .tc := ⟨.hbm, 145, rfl⟩
abbrev main_cst_28 : Ref sig .tc := ⟨.hbm, 146, rfl⟩
abbrev main_v94 : Ref sig .tc := ⟨.hbm, 147, rfl⟩
abbrev main_cst_29 : Ref sig .tc := ⟨.hbm, 148, rfl⟩
abbrev main_v95 : Ref sig .tc := ⟨.hbm, 149, rfl⟩
abbrev main_v96 : Ref sig .tc := ⟨.hbm, 150, rfl⟩

abbrev nD : Nat := 1
abbrev τ : Topo := Topo.v7x

variable {F : FTy → Type} [FloatOps F]

class Facts₀ : Prop where
  slices_S500000x10_S500000x8_0_0 : S500000x10.Slices ![0, 0] S500000x8
  bcast_S_S500000x8 : S_.BroadcastsInDim S500000x8 (![] : Fin 0 → Fin S500000x8.rank)
  bcast_S500000x8_S500000x8x1_0_1 : S500000x8.BroadcastsInDim S500000x8x1 (![0, 1] : Fin 2 → Fin S500000x8x1.rank)
  bcast_S500000x8x1_S500000x8x3_0_1_2 : S500000x8x1.BroadcastsInDim S500000x8x3 (![0, 1, 2] : Fin 3 → Fin S500000x8x3.rank)
  bcast_S_S500000x8x3 : S_.BroadcastsInDim S500000x8x3 (![] : Fin 0 → Fin S500000x8x3.rank)
  reducesTo_S500000x8x3_S500000x3_d1 : S500000x8x3.ReducesTo [1] S500000x3
  h_S_ : 0 < S_.numel
  slices_S500000x10_S500000x1_0_9 : S500000x10.Slices ![0, 9] S500000x1
  shapeCasts_S500000x1_S500000 : S500000x1.ShapeCasts S500000
  bcast_S500000_S500000x1_0 : S500000.BroadcastsInDim S500000x1 (![0] : Fin 1 → Fin S500000x1.rank)
  bcast_S500000x1_S500000x3_0_1 : S500000x1.BroadcastsInDim S500000x3 (![0, 1] : Fin 2 → Fin S500000x3.rank)
  reducesTo_S500000x3_S500000_d1 : S500000x3.ReducesTo [1] S500000
  reducesTo_S500000_S_d0 : S500000.ReducesTo [0] S_
  slices_S2000000x10_S2000000x8_0_0 : S2000000x10.Slices ![0, 0] S2000000x8
  bcast_S_S2000000x8 : S_.BroadcastsInDim S2000000x8 (![] : Fin 0 → Fin S2000000x8.rank)
  bcast_S2000000x8_S2000000x8x1_0_1 : S2000000x8.BroadcastsInDim S2000000x8x1 (![0, 1] : Fin 2 → Fin S2000000x8x1.rank)
  bcast_S2000000x8x1_S2000000x8x3_0_1_2 : S2000000x8x1.BroadcastsInDim S2000000x8x3 (![0, 1, 2] : Fin 3 → Fin S2000000x8x3.rank)
  bcast_S_S2000000x8x3 : S_.BroadcastsInDim S2000000x8x3 (![] : Fin 0 → Fin S2000000x8x3.rank)
  reducesTo_S2000000x8x3_S2000000x3_d1 : S2000000x8x3.ReducesTo [1] S2000000x3
  slices_S2000000x10_S2000000x1_0_9 : S2000000x10.Slices ![0, 9] S2000000x1
  shapeCasts_S2000000x1_S2000000 : S2000000x1.ShapeCasts S2000000
  bcast_S2000000_S2000000x1_0 : S2000000.BroadcastsInDim S2000000x1 (![0] : Fin 1 → Fin S2000000x1.rank)
  bcast_S2000000x1_S2000000x3_0_1 : S2000000x1.BroadcastsInDim S2000000x3 (![0, 1] : Fin 2 → Fin S2000000x3.rank)
  reducesTo_S2000000x3_S2000000_d1 : S2000000x3.ReducesTo [1] S2000000
  reducesTo_S2000000_S_d0 : S2000000.ReducesTo [0] S_
  gather_S500000x3_S500000x8x1_S500000x8x3_2_0_n_n_0_2_13_wf : GatherDims.WF S500000x3 S500000x8x1 S500000x8x3 [2] [0] [] [0] [] 2 ![1, 3]
  gather_S2000000x3_S2000000x8x1_S2000000x8x3_2_0_n_n_0_2_13_wf : GatherDims.WF S2000000x3 S2000000x8x1 S2000000x8x3 [2] [0] [] [0] [] 2 ![1, 3]

variable [Facts₀]

def gather_S500000x3_S500000x8x1_S500000x8x3_2_0_n_n_0_2_13 : GatherDims S500000x3 S500000x8x1 S500000x8x3 where
  offsetDims := [2]
  collapsedSliceDims := [0]
  operandBatchingDims := []
  startIndicesBatchingDims := []
  startIndexMap := [0]
  indexVectorDim := 2
  sliceSizes := ![1, 3]
  wf := gather_S500000x3_S500000x8x1_S500000x8x3_2_0_n_n_0_2_13_wf
def gather_S2000000x3_S2000000x8x1_S2000000x8x3_2_0_n_n_0_2_13 : GatherDims S2000000x3 S2000000x8x1 S2000000x8x3 where
  offsetDims := [2]
  collapsedSliceDims := [0]
  operandBatchingDims := []
  startIndicesBatchingDims := []
  startIndexMap := [0]
  indexVectorDim := 2
  sliceSizes := ![1, 3]
  wf := gather_S2000000x3_S2000000x8x1_S2000000x8x3_2_0_n_n_0_2_13_wf

class Facts : Prop extends Facts₀ where

variable [Facts]
-- ==== Proof.KbReadBack.lean ====
/-
  Reading a buffer back after whole-block stores, for the block shapes the two launches' bodies use.

  The bodies load and store only through rectangles that are the whole block at zero offsets. After a list of
  stores whose LAST one is such a rectangle the buffer reads as that store's value, whatever came before; a load
  through such a rectangle that follows reads the same value; and a load of a buffer nothing has stored into reads
  its contents. These facts hold for any view of the shape, so both launches and both instances use them.
-/
import proofs.«428723_j14027363188886_4_alg».proof.Proof.Gen.Kernel.Skeleton
import proofs.«428723_j14027363188886_4_alg».proof.Proof.Gen.Kernel.Launch
import proofs.«428723_j14027363188886_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Lap

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles the body loads and stores through sit at zero offsets. -/
theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

section ReadBack

variable {sp : Space}

set_option maxHeartbeats 2000000 in
/-- After stores the last of which fills the whole 1×1 buffer, the buffer reads as that store's value. -/
theorem read_writes_acc (v : View sig .tc sp S1x1 .f32) (f : v.ty.Contents (Elt F)) (w : Vec F S1x1 .f32)
    (L : List (View.Piece (Elt F) S1x1 .f32)) :
    v.read (Elt F) (v.writes (Elt F) f (⟨Rect.unit ![0, 0] S1x1.size inb_S1x1_S1x1_0_0, w⟩ :: L)) = w := by
  rw [View.read_writes_eq_canon _ _ _ (fun y => ⟨(⟨Rect.unit ![0, 0] S1x1.size inb_S1x1_S1x1_0_0, w⟩ : View.Piece (Elt F) S1x1 .f32), List.mem_cons_self, View.mem_set_unit_zero (S := S1x1) zero2 inb_S1x1_S1x1_0_0 y⟩),
    View.canon_cons_unit_zero (S := S1x1) zero2]

set_option maxHeartbeats 2000000 in
/-- A load of the whole 1×1 buffer after such stores reads that store's value. -/
theorem readCov_acc (v : View sig .tc sp S1x1 .f32) (w : Vec F S1x1 .f32) (L : List (View.Piece (Elt F) S1x1 .f32)) :
    v.readCov (⟨Rect.unit ![0, 0] S1x1.size inb_S1x1_S1x1_0_0, w⟩ :: L) (Rect.unit ![0, 0] S1x1.size inb_S1x1_S1x1_0_0).toLoadRect = w := by
  rw [View.readCov_eq_canon_ld _ _ _ (fun y => ⟨(⟨Rect.unit ![0, 0] S1x1.size inb_S1x1_S1x1_0_0, w⟩ : View.Piece (Elt F) S1x1 .f32), List.mem_cons_self, View.mem_set_unit_zero (S := S1x1) zero2 inb_S1x1_S1x1_0_0 y⟩),
    View.canon_cons_unit_zero (S := S1x1) zero2, View.ld_unit_zero (S := S1x1) zero2]

set_option maxHeartbeats 2000000 in
/-- After a store that fills the whole output block, the buffer reads as its value. -/
theorem read_writes_out (v : View sig .tc sp S1x8x128 .f32) (f : v.ty.Contents (Elt F)) (w : Vec F S1x8x128 .f32)
    (L : List (View.Piece (Elt F) S1x8x128 .f32)) :
    v.read (Elt F) (v.writes (Elt F) f (⟨Rect.unit ![0, 0, 0] S1x8x128.size inb_S1x8x128_S1x8x128_0_0_0, w⟩ :: L)) = w := by
  rw [View.read_writes_eq_canon _ _ _ (fun y => ⟨(⟨Rect.unit ![0, 0, 0] S1x8x128.size inb_S1x8x128_S1x8x128_0_0_0, w⟩ : View.Piece (Elt F) S1x8x128 .f32), List.mem_cons_self, View.mem_set_unit_zero (S := S1x8x128) zero3 inb_S1x8x128_S1x8x128_0_0_0 y⟩),
    View.canon_cons_unit_zero (S := S1x8x128) zero3]

/-- A load of a whole buffer reads its contents. -/
theorem readAt_acc (v : View sig .tc sp S1x1 .f32) (f : v.ty.Contents (Elt F)) :
    v.readAt (Elt F) (Rect.unit ![0, 0] S1x1.size inb_S1x1_S1x1_0_0).toLoadRect f = v.read (Elt F) f := by
  rw [View.readAt_eq_ld, View.ld_unit_zero (S := S1x1) zero2]
theorem readAt_in6 (v : View sig .tc sp S6x1024 .f32) (f : v.ty.Contents (Elt F)) :
    v.readAt (Elt F) (Rect.unit ![0, 0] S6x1024.size inb_S6x1024_S6x1024_0_0).toLoadRect f = v.read (Elt F) f := by
  rw [View.readAt_eq_ld, View.ld_unit_zero (S := S6x1024) zero2]
theorem readAt_in1 (v : View sig .tc sp S1x1024 .f32) (f : v.ty.Contents (Elt F)) :
    v.readAt (Elt F) (Rect.unit ![0, 0] S1x1024.size inb_S1x1024_S1x1024_0_0).toLoadRect f = v.read (Elt F) f := by
  rw [View.readAt_eq_ld, View.ld_unit_zero (S := S1x1024) zero2]

/-! The same facts with the blocks' extents written out, as the run prints them. -/

theorem read_writes_acc' (v : View sig .tc sp S1x1 .f32) (f : v.ty.Contents (Elt F)) (w : Vec F S1x1 .f32)
    (L : List (View.Piece (Elt F) S1x1 .f32)) :
    v.read (Elt F) (v.writes (Elt F) f (⟨Rect.unit ![0, 0] ![1, 1] inb_S1x1_S1x1_0_0, w⟩ :: L)) = w :=
  read_writes_acc v f w L
theorem readCov_acc' (v : View sig .tc sp S1x1 .f32) (w : Vec F S1x1 .f32) (L : List (View.Piece (Elt F) S1x1 .f32)) :
    v.readCov (⟨Rect.unit ![0, 0] ![1, 1] inb_S1x1_S1x1_0_0, w⟩ :: L) (Rect.unit ![0, 0] ![1, 1] inb_S1x1_S1x1_0_0).toLoadRect = w :=
  readCov_acc v w L
theorem read_writes_out' (v : View sig .tc sp S1x8x128 .f32) (f : v.ty.Contents (Elt F)) (w : Vec F S1x8x128 .f32)
    (L : List (View.Piece (Elt F) S1x8x128 .f32)) :
    v.read (Elt F) (v.writes (Elt F) f (⟨Rect.unit ![0, 0, 0] ![1, 8, 128] inb_S1x8x128_S1x8x128_0_0_0, w⟩ :: L)) = w :=
  read_writes_out v f w L
theorem readAt_acc' (v : View sig .tc sp S1x1 .f32) (f : v.ty.Contents (Elt F)) :
    v.readAt (Elt F) (Rect.unit ![0, 0] ![1, 1] inb_S1x1_S1x1_0_0).toLoadRect f = v.read (Elt F) f := readAt_acc v f
theorem readAt_in6' (v : View sig .tc sp S6x1024 .f32) (f : v.ty.Contents (Elt F)) :
    v.readAt (Elt F) (Rect.unit ![0, 0] ![6, 1024] inb_S6x1024_S6x1024_0_0).toLoadRect f = v.read (Elt F) f := readAt_in6 v f
theorem readAt_in1' (v : View sig .tc sp S1x1024 .f32) (f : v.ty.Contents (Elt F)) :
    v.readAt (Elt F) (Rect.unit ![0, 0] ![1, 1024] inb_S1x1024_S1x1024_0_0).toLoadRect f = v.read (Elt F) f := readAt_in1 v f

end ReadBack

end Cert.Kernel.Lap

end
-- ==== Proof.KbBody0.lean ====
/-
  The body of the first launch, run once at a symbolic grid point.

  The body keeps a 1×1 accumulator in a scratch buffer. At the first tile of a group (second grid coordinate zero)
  it stores zero there; at every tile it adds the tile's sum of squared Laplacian differences — the stored value
  is one pure term of the three input blocks and of what the accumulator held (the zero just stored, at a first
  tile); at the last tile of a group it broadcasts the accumulator over the output block, and at the other tiles it
  leaves the output buffer as it found it. `accNext0` and `outNext0` say this with the two conditions as `if`s,
  and `body0` is the triple: from the five buffers owned at their contents the body returns with the inputs
  untouched, the accumulator at `accNext0` and the output buffer at `outNext0`.
-/
import proofs.«428723_j14027363188886_4_alg».proof.Proof.KbReadBack
import proofs.«428723_j14027363188886_4_alg».proof.Proof.Gen.Kernel.Skeleton
import proofs.«428723_j14027363188886_4_alg».proof.Proof.Gen.Kernel.Launch
import proofs.«428723_j14027363188886_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Lap

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body resets the accumulator exactly when the second grid coordinate is zero: a group's first tile. -/
abbrev isFirst0 (i : grid0.Coords) : Prop :=
  (Scalar.cmpi .ne (Scalar.extui (Scalar.cmpi .eq (BitVec.ofNat 32 (i 1).val) 0#32)) 0#32) = 1#1
/-- It writes the output block exactly at a group's last tile. -/
abbrev isLast0 (i : grid0.Coords) : Prop := k0_cond2 i = 1#1

/-- What the accumulator holds after the body at point `i`, from the three input blocks and what it held. -/
def accNext0 (i : grid0.Coords) (x0 x1 : Vec F S6x1024 .f32) (x2 : Vec F S1x1024 .f32) (a : Vec F S1x1 .f32) : Vec F S1x1 .f32 :=
  k0_pay2 x0 x1 x2 (if isFirst0 i then (k0_pay1 (F := F) : Vec F S1x1 .f32) else a)

/-- What the output buffer holds after the body at point `i`: the accumulator spread over the block at a last
    tile, what it held otherwise. -/
def outNext0 (i : grid0.Coords) (x0 x1 : Vec F S6x1024 .f32) (x2 : Vec F S1x1024 .f32) (a : Vec F S1x1 .f32)
    (xo : Vec F S1x8x128 .f32) : Vec F S1x8x128 .f32 :=
  if isLast0 i then (k0_pay3 (accNext0 i x0 x1 x2 a) : Vec F S1x8x128 .f32) else xo

theorem accNext0_first {i : grid0.Coords} (h : isFirst0 i) (x0 x1 : Vec F S6x1024 .f32) (x2 : Vec F S1x1024 .f32) (a : Vec F S1x1 .f32) :
    accNext0 i x0 x1 x2 a = k0_pay2 x0 x1 x2 (k0_pay1 (F := F)) := by unfold accNext0; rw [if_pos h]
theorem accNext0_later {i : grid0.Coords} (h : ¬ isFirst0 i) (x0 x1 : Vec F S6x1024 .f32) (x2 : Vec F S1x1024 .f32) (a : Vec F S1x1 .f32) :
    accNext0 i x0 x1 x2 a = k0_pay2 x0 x1 x2 a := by unfold accNext0; rw [if_neg h]
theorem outNext0_last {i : grid0.Coords} (h : isLast0 i) (x0 x1 : Vec F S6x1024 .f32) (x2 : Vec F S1x1024 .f32) (a : Vec F S1x1 .f32)
    (xo : Vec F S1x8x128 .f32) : outNext0 i x0 x1 x2 a xo = k0_pay3 (accNext0 i x0 x1 x2 a) := by unfold outNext0; rw [if_pos h]
theorem outNext0_idle {i : grid0.Coords} (h : ¬ isLast0 i) (x0 x1 : Vec F S6x1024 .f32) (x2 : Vec F S1x1024 .f32) (a : Vec F S1x1 .f32)
    (xo : Vec F S1x8x128 .f32) : outNext0 i x0 x1 x2 a xo = xo := by unfold outNext0; rw [if_neg h]

set_option maxHeartbeats 4000000 in
/-- THE BODY'S TRIPLE at any grid point: the inputs come back as they were, the accumulator at `accNext0`, the
    output buffer at `outNext0`. The four combinations of the two conditions are run one by one; in each, what a
    buffer holds after its stores is read back as the last whole-block store's value, and a load that follows a
    whole-block store reads that store's value. -/
theorem body0 (c : Dev nD) (E : Set ℕ) (i : grid0.Coords)
    (arg2 : Memref sig .tc .vmem S6x1024 .f32) (harg2 : arg2.IsWhole) (arg3 : Memref sig .tc .vmem S6x1024 .f32) (harg3 : arg3.IsWhole)
    (arg4 : Memref sig .tc .vmem S1x1024 .f32) (harg4 : arg4.IsWhole) (arg5 : Memref sig .tc .vmem S1x8x128 .f32) (harg5 : arg5.IsWhole)
    (arg6 : Memref sig .tc .vmem S1x1 .f32) (harg6 : arg6.IsWhole)
    (x0 x1 : Vec F S6x1024 .f32) (x2 : Vec F S1x1024 .f32) (xo : Vec F S1x8x128 .f32) (a : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (outNext0 i x0 x1 x2 a xo) ∗ owns (c : Thread nD τ) arg6 fullShare (accNext0 i x0 x1 x2 a)) -∗ K ⟨⟩))
      ⊢ wp frame (wpE (defs₀ (F := F)) Variants.none c none) E (cc0__lap_kernel i arg2 harg2 arg3 harg3 arg4 harg4 arg5 harg5 arg6 harg6) K := by
  simp only [cc0__lap_kernel_eq_skeleton]; unfold cc0__lap_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2; subst hfo; subst hfs
  by_cases hF : isFirst0 i <;> by_cases hL : isLast0 i
  all_goals
    sl_exec (disch := first | exact hF | exact hL)
    sl_step
    iapply Hk
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [HO]
    · iexists _; isplitr
      swap; · iexact HO
      ipureintro
      sl_unfold_words
      first
        | (rw [outNext0_idle hL])
        | (rw [outNext0_last hL]
           first
             | (rw [accNext0_first hF])
             | (rw [accNext0_later hF])
           simp only [read_writes_out, read_writes_acc, readCov_acc, readAt_acc, readAt_in6, readAt_in1,
             read_writes_out', read_writes_acc', readCov_acc', readAt_acc', readAt_in6', readAt_in1'])
    iexists _; isplitr
    swap; · iexact HS
    ipureintro
    sl_unfold_words
    first
      | (rw [accNext0_first hF])
      | (rw [accNext0_later hF])
    simp only [read_writes_acc, readCov_acc, readAt_acc, readAt_in6, readAt_in1,
      read_writes_acc', readCov_acc', readAt_acc', readAt_in6', readAt_in1']

end Cert.Kernel.Lap

end
-- ==== Proof.KbAcc0.lean ====
/-
  What the first launch's accumulator holds after each tile, as a recursion on the tile number.

  The grid is two groups of 245 tiles, numbered 0 … 489 in row-major order, so tile `n` is the first of its group
  when `n % 245 = 0` and the last when `n % 245 = 244` (both decided over the grid from the body's own scalar
  chains). `blk0 V c w n` is window `w`'s block at tile `n` read off its array as the launch finds it (`V`), and
  `acc0 V c n` is the accumulator after tile `n`: the tile's stored value over the three input blocks and over the
  zero just stored (first tile of a group) or what the tile before left.
-/
import proofs.«428723_j14027363188886_4_alg».proof.Proof.KbBody0
import proofs.«428723_j14027363188886_4_alg».proof.Proof.Gen.Kernel.Skeleton
import proofs.«428723_j14027363188886_4_alg».proof.Proof.Gen.Kernel.Launch
import proofs.«428723_j14027363188886_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Lap

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

/-- The launch resets at a group's first tile: decided over the 490 points. -/
theorem isFirst0_iff : ∀ t : Fin cfg0.N, isFirst0 (grid0.coords t) ↔ t.val % 245 = 0 :=
  (by decide +kernel : ∀ t : Fin grid0.N, isFirst0 (grid0.coords t) ↔ t.val % 245 = 0)
/-- It writes the output at a group's last tile: decided over the 490 points. -/
theorem isLast0_iff : ∀ t : Fin cfg0.N, isLast0 (grid0.coords t) ↔ t.val % 245 = 244 :=
  (by decide +kernel : ∀ t : Fin grid0.N, isLast0 (grid0.coords t) ↔ t.val % 245 = 244)

variable (V : (c : Dev nD) → (b : Ref sig .tc) → Buf (Elt F) ((c : Thread nD τ).loc b))

/-- Window `w`'s block at tile `t`, read off its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at tile `t` at their literal types: neighbour sums, self coordinates, counts. -/
abbrev nbrBlk0 (c : Dev nD) (t : Fin cfg0.N) : Vec F S6x1024 .f32 := blk0 V c 0 t
abbrev crdBlk0 (c : Dev nD) (t : Fin cfg0.N) : Vec F S6x1024 .f32 := blk0 V c 1 t
abbrev cntBlk0 (c : Dev nD) (t : Fin cfg0.N) : Vec F S1x1024 .f32 := blk0 V c 2 t

/-- The accumulator after tile `n`. -/
def acc0 (c : Dev nD) : (n : ℕ) → n < cfg0.N → Vec F S1x1 .f32
  | 0, h => k0_pay2 (nbrBlk0 V c ⟨0, h⟩) (crdBlk0 V c ⟨0, h⟩) (cntBlk0 V c ⟨0, h⟩) (k0_pay1 (F := F))
  | n + 1, h => k0_pay2 (nbrBlk0 V c ⟨n + 1, h⟩) (crdBlk0 V c ⟨n + 1, h⟩) (cntBlk0 V c ⟨n + 1, h⟩)
      (if (n + 1) % 245 = 0 then (k0_pay1 (F := F) : Vec F S1x1 .f32) else acc0 c n (Nat.lt_of_succ_lt h))

/-- The recursion is the body's own step: the accumulator after tile `t` is `accNext0` at the tile's grid point of
    the tile's blocks and of ANY contents `a` that are the previous tile's accumulator when `t` is not the first
    tile of the run. -/
theorem acc0_step (c : Dev nD) (t : Fin cfg0.N) (a : Vec F S1x1 .f32)
    (ha : t.val ≠ 0 → a = acc0 V c (t.val - 1) (Nat.lt_of_le_of_lt (Nat.sub_le _ _) t.isLt)) :
    accNext0 (grid0.coords t) (nbrBlk0 V c t) (crdBlk0 V c t) (cntBlk0 V c t) a = acc0 V c t.val t.isLt := by
  obtain ⟨n, hn⟩ := t
  by_cases hF : isFirst0 (grid0.coords ⟨n, hn⟩)
  · rw [accNext0_first hF]
    have hm : n % 245 = 0 := (isFirst0_iff ⟨n, hn⟩).mp hF
    cases n with
    | zero => rfl
    | succ k => show _ = acc0 V c (k + 1) hn; rw [acc0, if_pos hm]
  · rw [accNext0_later hF]
    have hm : ¬ n % 245 = 0 := fun h => hF ((isFirst0_iff ⟨n, hn⟩).mpr h)
    cases n with
    | zero => exact absurd rfl hm
    | succ k =>
      show _ = acc0 V c (k + 1) hn
      rw [acc0, if_neg hm, ha (Nat.succ_ne_zero k)]
      rfl

end Cert.Kernel.Lap

end
-- ==== Proof.KbDat0.lean ====
/-
  The first launch's proof data, its invariant, and the body obligation at every tile.

  The invariant before tile `n` holds the launch's accumulator scratch at SOME contents `d`, known to be what tile
  `n − 1` left (`acc0`) once a tile has run, beside the core's other scoped buffers and its generator register,
  which the body does not touch. Before the first tile that is the pipeline's class invariant with the scratch
  singled out (`Phi0_zero`), and after the last tile it gives the class invariant back (`Phi0_out`).
  After a tile the three input windows hold their blocks as fetched and the output window, at a group's last tile,
  the accumulator spread over the block; at the other tiles the output window is idle and its buffer goes back as
  it came.
-/
import proofs.«428723_j14027363188886_4_alg».proof.Proof.KbAcc0
import proofs.«428723_j14027363188886_4_alg».proof.Proof.Gen.Kernel.Skeleton
import proofs.«428723_j14027363188886_4_alg».proof.Proof.Gen.Kernel.Launch
import proofs.«428723_j14027363188886_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Lap

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator's scratch buffer, whole. -/
abbrev scr0 : Memref sig .tc .vmem S1x1 .f32 := Memref.whole cc0_scratch0

/-- The core's scoped buffers that are neither this launch's staging buffers nor its scratch, each whole at some
    contents: the other launch's staging buffers and scratch. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant of the launch gives the accumulator's scratch, singled out, beside the rest … -/
theorem PhiA0_fwd (c : Dev nD) :
    (Pipeline.ΦA spec0 c : sProp 𝕄)
      ⊢ iprop(((∃ f : Buf (Elt F) ((c : Thread nD τ).loc cc0_scratch0), ((c : Thread nD τ).loc cc0_scratch0) ↦{fullShare} f) ∗ others0 (F := F) c) ∗ ∃ r, prngReg c r) := by
  unfold Pipeline.ΦA others0; rw [scopedRest0_eq]
/-- … and is made of them again. -/
theorem PhiA0_bwd (c : Dev nD) :
    iprop(((∃ f : Buf (Elt F) ((c : Thread nD τ).loc cc0_scratch0), ((c : Thread nD τ).loc cc0_scratch0) ↦{fullShare} f) ∗ others0 (F := F) c) ∗ ∃ r, prngReg c r)
      ⊢ (Pipeline.ΦA spec0 c : sProp 𝕄) := by
  unfold others0 Pipeline.ΦA; rw [scopedRest0_eq]

/-- THE INVARIANT before tile `n`: the scratch at contents that are the previous tile's accumulator once a tile
    has run; the rest untouched. -/
def Phi0 (c : Dev nD) (n : ℕ) (hn : n ≤ cfg0.N) : sProp 𝕄 :=
  iprop(((∃ d : Vec F S1x1 .f32, ⌜∀ h : n ≠ 0, d = acc0 V c (n - 1) (by omega)⌝ ∗ owns (c : Thread nD τ) scr0 fullShare d) ∗ others0 (F := F) c) ∗ ∃ r, prngReg c r)

/-- Before the first tile the invariant is the class invariant. -/
theorem Phi0_zero (c : Dev nD) : (Pipeline.ΦA spec0 c : sProp 𝕄) ⊢ Phi0 V c 0 (Nat.zero_le _) := by
  refine (PhiA0_fwd c).trans ?_
  unfold Phi0 scr0; simp only [owns_whole]
  iintro ⟨⟨⟨%f, Hs⟩, Ho⟩, Hp⟩
  isplitr [Hp]
  swap; · iexact Hp
  isplitr [Ho]
  swap; · iexact Ho
  iexists f; isplitr
  · ipureintro; exact fun h => absurd rfl h
  · iexact Hs

/-- At any tile count it gives the class invariant back. -/
theorem Phi0_out (c : Dev nD) (n : ℕ) (hn : n ≤ cfg0.N) : Phi0 V c n hn ⊢ (Pipeline.ΦA spec0 c : sProp 𝕄) := by
  refine BIBase.Entails.trans ?_ (PhiA0_bwd c)
  unfold Phi0 scr0; simp only [owns_whole]
  iintro ⟨⟨⟨%d, -, Hs⟩, Ho⟩, Hp⟩
  isplitr [Hp]
  swap; · iexact Hp
  isplitr [Ho]
  swap; · iexact Ho
  iexists d; iexact Hs

/-- THE PROOF DATA of the launch on core `c`: the arrays as the launch finds them; after a tile the inputs at
    their blocks and the output at the accumulator spread over its block; the invariant `Phi0`; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => (k0_pay3 (acc0 V c t.val t.isLt) : Vec F S1x8x128 .f32)
  Φ t := Phi0 V c t.val (Nat.le_of_lt_succ t.isLt)
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = (k0_pay3 (acc0 V c t.val t.isLt) : Vec F S1x8x128 .f32) := by dsimp only [dat0]

/-- An input window, fetched at every tile and uncut, is handed to the body at its block. -/
theorem dat0_before0 (c : Dev nD) (t : Fin cfg0.N) (d) : (dat0 V c).before 0 t d = blk0 V c 0 t :=
  ((dat0 V c).before_fetched 0 t (fetch0_0 t) d).trans (by unfold Dat.fetched Dat.blockOf blk0; rw [dat0_A]; rfl)
theorem dat0_before1 (c : Dev nD) (t : Fin cfg0.N) (d) : (dat0 V c).before 1 t d = blk0 V c 1 t :=
  ((dat0 V c).before_fetched 1 t (fetch0_1 t) d).trans (by unfold Dat.fetched Dat.blockOf blk0; rw [dat0_A]; rfl)
theorem dat0_before2 (c : Dev nD) (t : Fin cfg0.N) (d) : (dat0 V c).before 2 t d = blk0 V c 2 t :=
  ((dat0 V c).before_fetched 2 t (fetch0_2 t) d).trans (by unfold Dat.fetched Dat.blockOf blk0; rw [dat0_A]; rfl)

/-- The output window is idle exactly where the body does not write it: everywhere but a group's last tile. -/
theorem idle0_out_last (t : Fin cfg0.N) (h : isLast0 (grid0.coords t)) : idle0 3 (grid0.coords t) = false := by
  show (!(k0_cond2 (grid0.coords t) == 1#1)) = false
  rw [show k0_cond2 (grid0.coords t) = 1#1 from h]; rfl
theorem idle0_out_idle (t : Fin cfg0.N) (h : ¬ isLast0 (grid0.coords t)) : idle0 3 (grid0.coords t) = true := by
  show (!(k0_cond2 (grid0.coords t) == 1#1)) = true
  rw [Bool.not_eq_true', beq_eq_false_iff_ne]; exact h

/-- What the obligation says of the output window's buffer after the body: the library's case table, written
    out — idle and not written back: as it was handed over; otherwise: at `after`. -/
def outLeaves0 (c : Dev nD) (t : Fin cfg0.N) : sProp 𝕄 :=
  match cfg0.idle 3 (grid0.coords t) with
  | true =>
    match (cfg0.win 3).flush t with
    | false => iprop(∃ d, owns (c : Thread nD τ) (st0_3 t) fullShare ((dat0 V c).before 3 t d))
    | true => owns (c : Thread nD τ) (st0_3 t) fullShare ((dat0 V c).after 3 t)
  | false => owns (c : Thread nD τ) (st0_3 t) fullShare ((dat0 V c).after 3 t)

theorem outLeaves0_last (c : Dev nD) (t : Fin cfg0.N) (h : isLast0 (grid0.coords t)) :
    outLeaves0 V c t = owns (c : Thread nD τ) (st0_3 t) fullShare ((dat0 V c).after 3 t) := by
  have hi : idle0 3 (grid0.coords t) = false := idle0_out_last t h
  unfold outLeaves0
  split
  next heq => rw [show cfg0.idle 3 (grid0.coords t) = false from hi] at heq; exact absurd heq (by decide)
  next heq => rfl

theorem outLeaves0_idle (c : Dev nD) (t : Fin cfg0.N) (h : ¬ isLast0 (grid0.coords t)) :
    outLeaves0 V c t = iprop(∃ d, owns (c : Thread nD τ) (st0_3 t) fullShare ((dat0 V c).before 3 t d)) := by
  have hi : idle0 3 (grid0.coords t) = true := idle0_out_idle t h
  have hf : (win0 3).flush t = false := by
    rw [Bool.eq_false_iff]; intro hfl
    exact h ((isLast0_iff t).mpr ((flush0_3 t).mp hfl))
  unfold outLeaves0
  split
  next heq =>
    split
    next hfl => rfl
    next hfl => rw [show (cfg0.win 3).flush t = false from hf] at hfl; exact absurd hfl (by decide)
  next heq => rw [show cfg0.idle 3 (grid0.coords t) = true from hi] at heq; exact absurd heq (by decide)

set_option maxHeartbeats 1000000 in
/-- THE BODY AT A TILE. The invariant hands the body the accumulator at what the tile before left (at anything,
    at the very first tile); the inputs are at their blocks; the body's triple applies; the accumulator comes back at
    `accNext0`, which is `acc0` at this tile by the recursion's own equation, and the output window comes back at the
    accumulator spread over the block at a group's last tile, untouched otherwise. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ outLeaves0 V c t)) := by
  simp only [dat0_before0, dat0_before1, dat0_before2, dat0_after0, dat0_after1, dat0_after2]
  rw [show (dat0 V c).Φ t.castSucc = Phi0 V c t.val (Nat.le_of_lt t.isLt) from rfl,
    show (dat0 V c).Φ t.succ = Phi0 V c (t.val + 1) t.isLt from rfl,
    show (dat0 V c).owesAt () t.succ = (dat0 V c).owesAt () t.castSucc from rfl]
  unfold Phi0 bodyAt0
  iintro ⟨⟨⟨⟨%a, %ha, Hs⟩, Ho⟩, Hp⟩, Howe, ⟨%d0, H0⟩, ⟨%d1, H1⟩, ⟨%d2, H2⟩, ⟨%d3, H3⟩⟩
  iapply (body0 c Set.univ (grid0.coords t) _ _ _ _ _ _ _ _ _ _ (nbrBlk0 V c t) (crdBlk0 V c t) (cntBlk0 V c t)
    ((dat0 V c).before 3 t d3) a _)
  isplitl [H0]; · iexact H0
  isplitl [H1]; · iexact H1
  isplitl [H2]; · iexact H2
  isplitl [H3]; · iexact H3
  isplitl [Hs]; · iexact Hs
  iintro ⟨H0, H1, H2, H3, Hs⟩
  have hstep := acc0_step V c t a (fun h => ha h)
  isplitl [Hs Ho Hp]
  · isplitr [Hp]
    swap; · iexact Hp
    isplitr [Ho]
    swap; · iexact Ho
    iexists _; isplitr
    swap; · iexact Hs
    ipureintro
    exact fun _ => hstep
  isplitl [Howe]; · iexact Howe
  isplitl [H0]; · iexact H0
  isplitl [H1]; · iexact H1
  isplitl [H2]; · iexact H2
  by_cases hL : isLast0 (grid0.coords t)
  · rw [outLeaves0_last V c t hL, dat0_after3, ← hstep, ← outNext0_last hL]
    iexact H3
  · rw [outLeaves0_idle V c t hL]
    iexists d3
    rw [outNext0_idle hL]
    iexact H3

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Cert.Kernel.Lap

end
-- ==== Proof.KbBody1.lean ====
/-
  The body of the second launch, run once at a symbolic grid point.

  The body keeps a 1×1 accumulator in a scratch buffer. At the first tile of a group (second grid coordinate zero)
  it stores zero there; at every tile it adds the tile's sum of squared Laplacian differences — the stored value
  is one pure term of the three input blocks and of what the accumulator held (the zero just stored, at a first
  tile); at the last tile of a group it broadcasts the accumulator over the output block, and at the other tiles it
  leaves the output buffer as it found it. `accNext1` and `outNext1` say this with the two conditions as `if`s,
  and `body1` is the triple: from the five buffers owned at their contents the body returns with the inputs
  untouched, the accumulator at `accNext1` and the output buffer at `outNext1`.
-/
import proofs.«428723_j14027363188886_4_alg».proof.Proof.KbReadBack
import proofs.«428723_j14027363188886_4_alg».proof.Proof.Gen.Kernel.Skeleton
import proofs.«428723_j14027363188886_4_alg».proof.Proof.Gen.Kernel.Launch
import proofs.«428723_j14027363188886_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Lap

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body resets the accumulator exactly when the second grid coordinate is zero: a group's first tile. -/
abbrev isFirst1 (i : grid1.Coords) : Prop :=
  (Scalar.cmpi .ne (Scalar.extui (Scalar.cmpi .eq (BitVec.ofNat 32 (i 1).val) 0#32)) 0#32) = 1#1
/-- It writes the output block exactly at a group's last tile. -/
abbrev isLast1 (i : grid1.Coords) : Prop := k1_cond2 i = 1#1

/-- What the accumulator holds after the body at point `i`, from the three input blocks and what it held. -/
def accNext1 (i : grid1.Coords) (x0 x1 : Vec F S6x1024 .f32) (x2 : Vec F S1x1024 .f32) (a : Vec F S1x1 .f32) : Vec F S1x1 .f32 :=
  k1_pay2 x0 x1 x2 (if isFirst1 i then (k1_pay1 (F := F) : Vec F S1x1 .f32) else a)

/-- What the output buffer holds after the body at point `i`: the accumulator spread over the block at a last
    tile, what it held otherwise. -/
def outNext1 (i : grid1.Coords) (x0 x1 : Vec F S6x1024 .f32) (x2 : Vec F S1x1024 .f32) (a : Vec F S1x1 .f32)
    (xo : Vec F S1x8x128 .f32) : Vec F S1x8x128 .f32 :=
  if isLast1 i then (k1_pay3 (accNext1 i x0 x1 x2 a) : Vec F S1x8x128 .f32) else xo

theorem accNext1_first {i : grid1.Coords} (h : isFirst1 i) (x0 x1 : Vec F S6x1024 .f32) (x2 : Vec F S1x1024 .f32) (a : Vec F S1x1 .f32) :
    accNext1 i x0 x1 x2 a = k1_pay2 x0 x1 x2 (k1_pay1 (F := F)) := by unfold accNext1; rw [if_pos h]
theorem accNext1_later {i : grid1.Coords} (h : ¬ isFirst1 i) (x0 x1 : Vec F S6x1024 .f32) (x2 : Vec F S1x1024 .f32) (a : Vec F S1x1 .f32) :
    accNext1 i x0 x1 x2 a = k1_pay2 x0 x1 x2 a := by unfold accNext1; rw [if_neg h]
theorem outNext1_last {i : grid1.Coords} (h : isLast1 i) (x0 x1 : Vec F S6x1024 .f32) (x2 : Vec F S1x1024 .f32) (a : Vec F S1x1 .f32)
    (xo : Vec F S1x8x128 .f32) : outNext1 i x0 x1 x2 a xo = k1_pay3 (accNext1 i x0 x1 x2 a) := by unfold outNext1; rw [if_pos h]
theorem outNext1_idle {i : grid1.Coords} (h : ¬ isLast1 i) (x0 x1 : Vec F S6x1024 .f32) (x2 : Vec F S1x1024 .f32) (a : Vec F S1x1 .f32)
    (xo : Vec F S1x8x128 .f32) : outNext1 i x0 x1 x2 a xo = xo := by unfold outNext1; rw [if_neg h]

set_option maxHeartbeats 4000000 in
/-- THE BODY'S TRIPLE at any grid point: the inputs come back as they were, the accumulator at `accNext1`, the
    output buffer at `outNext1`. The four combinations of the two conditions are run one by one; in each, what a
    buffer holds after its stores is read back as the last whole-block store's value, and a load that follows a
    whole-block store reads that store's value. -/
theorem body1 (c : Dev nD) (E : Set ℕ) (i : grid1.Coords)
    (arg2 : Memref sig .tc .vmem S6x1024 .f32) (harg2 : arg2.IsWhole) (arg3 : Memref sig .tc .vmem S6x1024 .f32) (harg3 : arg3.IsWhole)
    (arg4 : Memref sig .tc .vmem S1x1024 .f32) (harg4 : arg4.IsWhole) (arg5 : Memref sig .tc .vmem S1x8x128 .f32) (harg5 : arg5.IsWhole)
    (arg6 : Memref sig .tc .vmem S1x1 .f32) (harg6 : arg6.IsWhole)
    (x0 x1 : Vec F S6x1024 .f32) (x2 : Vec F S1x1024 .f32) (xo : Vec F S1x8x128 .f32) (a : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (outNext1 i x0 x1 x2 a xo) ∗ owns (c : Thread nD τ) arg6 fullShare (accNext1 i x0 x1 x2 a)) -∗ K ⟨⟩))
      ⊢ wp frame (wpE (defs₀ (F := F)) Variants.none c none) E (cc1__lap_kernel i arg2 harg2 arg3 harg3 arg4 harg4 arg5 harg5 arg6 harg6) K := by
  simp only [cc1__lap_kernel_eq_skeleton]; unfold cc1__lap_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2; subst hfo; subst hfs
  by_cases hF : isFirst1 i <;> by_cases hL : isLast1 i
  all_goals
    sl_exec (disch := first | exact hF | exact hL)
    sl_step
    iapply Hk
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [HO]
    · iexists _; isplitr
      swap; · iexact HO
      ipureintro
      sl_unfold_words
      first
        | (rw [outNext1_idle hL])
        | (rw [outNext1_last hL]
           first
             | (rw [accNext1_first hF])
             | (rw [accNext1_later hF])
           simp only [read_writes_out, read_writes_acc, readCov_acc, readAt_acc, readAt_in6, readAt_in1,
             read_writes_out', read_writes_acc', readCov_acc', readAt_acc', readAt_in6', readAt_in1'])
    iexists _; isplitr
    swap; · iexact HS
    ipureintro
    sl_unfold_words
    first
      | (rw [accNext1_first hF])
      | (rw [accNext1_later hF])
    simp only [read_writes_acc, readCov_acc, readAt_acc, readAt_in6, readAt_in1,
      read_writes_acc', readCov_acc', readAt_acc', readAt_in6', readAt_in1']

end Cert.Kernel.Lap

end
-- ==== Proof.KbAcc1.lean ====
/-
  What the second launch's accumulator holds after each tile, as a recursion on the tile number.

  The grid is two groups of 977 tiles, numbered 0 … 1953 in row-major order, so tile `n` is the first of its group
  when `n % 977 = 0` and the last when `n % 977 = 976` (both decided over the grid from the body's own scalar
  chains). `blk1 V c w n` is window `w`'s block at tile `n` read off its array as the launch finds it (`V`), and
  `acc1 V c n` is the accumulator after tile `n`: the tile's stored value over the three input blocks and over the
  zero just stored (first tile of a group) or what the tile before left.
-/
import proofs.«428723_j14027363188886_4_alg».proof.Proof.KbBody1
import proofs.«428723_j14027363188886_4_alg».proof.Proof.Gen.Kernel.Skeleton
import proofs.«428723_j14027363188886_4_alg».proof.Proof.Gen.Kernel.Launch
import proofs.«428723_j14027363188886_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Lap

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

/-- The launch resets at a group's first tile: decided over the 1954 points. -/
theorem isFirst1_iff : ∀ t : Fin cfg1.N, isFirst1 (grid1.coords t) ↔ t.val % 977 = 0 :=
  (by decide +kernel : ∀ t : Fin grid1.N, isFirst1 (grid1.coords t) ↔ t.val % 977 = 0)
/-- It writes the output at a group's last tile: decided over the 1954 points. -/
theorem isLast1_iff : ∀ t : Fin cfg1.N, isLast1 (grid1.coords t) ↔ t.val % 977 = 976 :=
  (by decide +kernel : ∀ t : Fin grid1.N, isLast1 (grid1.coords t) ↔ t.val % 977 = 976)

variable (V : (c : Dev nD) → (b : Ref sig .tc) → Buf (Elt F) ((c : Thread nD τ).loc b))

/-- Window `w`'s block at tile `t`, read off its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at tile `t` at their literal types: neighbour sums, self coordinates, counts. -/
abbrev nbrBlk1 (c : Dev nD) (t : Fin cfg1.N) : Vec F S6x1024 .f32 := blk1 V c 0 t
abbrev crdBlk1 (c : Dev nD) (t : Fin cfg1.N) : Vec F S6x1024 .f32 := blk1 V c 1 t
abbrev cntBlk1 (c : Dev nD) (t : Fin cfg1.N) : Vec F S1x1024 .f32 := blk1 V c 2 t

/-- The accumulator after tile `n`. -/
def acc1 (c : Dev nD) : (n : ℕ) → n < cfg1.N → Vec F S1x1 .f32
  | 0, h => k1_pay2 (nbrBlk1 V c ⟨0, h⟩) (crdBlk1 V c ⟨0, h⟩) (cntBlk1 V c ⟨0, h⟩) (k1_pay1 (F := F))
  | n + 1, h => k1_pay2 (nbrBlk1 V c ⟨n + 1, h⟩) (crdBlk1 V c ⟨n + 1, h⟩) (cntBlk1 V c ⟨n + 1, h⟩)
      (if (n + 1) % 977 = 0 then (k1_pay1 (F := F) : Vec F S1x1 .f32) else acc1 c n (Nat.lt_of_succ_lt h))

/-- The recursion is the body's own step: the accumulator after tile `t` is `accNext1` at the tile's grid point of
    the tile's blocks and of ANY contents `a` that are the previous tile's accumulator when `t` is not the first
    tile of the run. -/
theorem acc1_step (c : Dev nD) (t : Fin cfg1.N) (a : Vec F S1x1 .f32)
    (ha : t.val ≠ 0 → a = acc1 V c (t.val - 1) (Nat.lt_of_le_of_lt (Nat.sub_le _ _) t.isLt)) :
    accNext1 (grid1.coords t) (nbrBlk1 V c t) (crdBlk1 V c t) (cntBlk1 V c t) a = acc1 V c t.val t.isLt := by
  obtain ⟨n, hn⟩ := t
  by_cases hF : isFirst1 (grid1.coords ⟨n, hn⟩)
  · rw [accNext1_first hF]
    have hm : n % 977 = 0 := (isFirst1_iff ⟨n, hn⟩).mp hF
    cases n with
    | zero => rfl
    | succ k => show _ = acc1 V c (k + 1) hn; rw [acc1, if_pos hm]
  · rw [accNext1_later hF]
    have hm : ¬ n % 977 = 0 := fun h => hF ((isFirst1_iff ⟨n, hn⟩).mpr h)
    cases n with
    | zero => exact absurd rfl hm
    | succ k =>
      show _ = acc1 V c (k + 1) hn
      rw [acc1, if_neg hm, ha (Nat.succ_ne_zero k)]
      rfl

end Cert.Kernel.Lap

end
-- ==== Proof.KbDat1.lean ====
/-
  The second launch's proof data, its invariant, and the body obligation at every tile.

  The invariant before tile `n` holds the launch's accumulator scratch at SOME contents `d`, known to be what tile
  `n − 1` left (`acc1`) once a tile has run, beside the core's other scoped buffers and its generator register,
  which the body does not touch. Before the first tile that is the pipeline's class invariant with the scratch
  singled out (`Phi1_zero`), and after the last tile it gives the class invariant back (`Phi1_out`).
  After a tile the three input windows hold their blocks as fetched and the output window, at a group's last tile,
  the accumulator spread over the block; at the other tiles the output window is idle and its buffer goes back as
  it came.
-/
import proofs.«428723_j14027363188886_4_alg».proof.Proof.KbAcc1
import proofs.«428723_j14027363188886_4_alg».proof.Proof.Gen.Kernel.Skeleton
import proofs.«428723_j14027363188886_4_alg».proof.Proof.Gen.Kernel.Launch
import proofs.«428723_j14027363188886_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Lap

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator's scratch buffer, whole. -/
abbrev scr1 : Memref sig .tc .vmem S1x1 .f32 := Memref.whole cc1_scratch0

/-- The core's scoped buffers that are neither this launch's staging buffers nor its scratch, each whole at some
    contents: the other launch's staging buffers and scratch. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant of the launch gives the accumulator's scratch, singled out, beside the rest … -/
theorem PhiA1_fwd (c : Dev nD) :
    (Pipeline.ΦA spec1 c : sProp 𝕄)
      ⊢ iprop(((∃ f : Buf (Elt F) ((c : Thread nD τ).loc cc1_scratch0), ((c : Thread nD τ).loc cc1_scratch0) ↦{fullShare} f) ∗ others1 (F := F) c) ∗ ∃ r, prngReg c r) := by
  unfold Pipeline.ΦA others1; rw [scopedRest1_eq]
  iintro ⟨⟨H1, H2, H3, H4, H5, H6, H7, H8, H9, HS⟩, Hp⟩
  isplitr [Hp]
  swap; · iexact Hp
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
/-- … and is made of them again. -/
theorem PhiA1_bwd (c : Dev nD) :
    iprop(((∃ f : Buf (Elt F) ((c : Thread nD τ).loc cc1_scratch0), ((c : Thread nD τ).loc cc1_scratch0) ↦{fullShare} f) ∗ others1 (F := F) c) ∗ ∃ r, prngReg c r)
      ⊢ (Pipeline.ΦA spec1 c : sProp 𝕄) := by
  unfold others1 Pipeline.ΦA; rw [scopedRest1_eq]
  iintro ⟨⟨HS, H1, H2, H3, H4, H5, H6, H7, H8, H9⟩, Hp⟩
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HS

/-- THE INVARIANT before tile `n`: the scratch at contents that are the previous tile's accumulator once a tile
    has run; the rest untouched. -/
def Phi1 (c : Dev nD) (n : ℕ) (hn : n ≤ cfg1.N) : sProp 𝕄 :=
  iprop(((∃ d : Vec F S1x1 .f32, ⌜∀ h : n ≠ 0, d = acc1 V c (n - 1) (by omega)⌝ ∗ owns (c : Thread nD τ) scr1 fullShare d) ∗ others1 (F := F) c) ∗ ∃ r, prngReg c r)

/-- Before the first tile the invariant is the class invariant. -/
theorem Phi1_zero (c : Dev nD) : (Pipeline.ΦA spec1 c : sProp 𝕄) ⊢ Phi1 V c 0 (Nat.zero_le _) := by
  refine (PhiA1_fwd c).trans ?_
  unfold Phi1 scr1; simp only [owns_whole]
  iintro ⟨⟨⟨%f, Hs⟩, Ho⟩, Hp⟩
  isplitr [Hp]
  swap; · iexact Hp
  isplitr [Ho]
  swap; · iexact Ho
  iexists f; isplitr
  · ipureintro; exact fun h => absurd rfl h
  · iexact Hs

/-- At any tile count it gives the class invariant back. -/
theorem Phi1_out (c : Dev nD) (n : ℕ) (hn : n ≤ cfg1.N) : Phi1 V c n hn ⊢ (Pipeline.ΦA spec1 c : sProp 𝕄) := by
  refine BIBase.Entails.trans ?_ (PhiA1_bwd c)
  unfold Phi1 scr1; simp only [owns_whole]
  iintro ⟨⟨⟨%d, -, Hs⟩, Ho⟩, Hp⟩
  isplitr [Hp]
  swap; · iexact Hp
  isplitr [Ho]
  swap; · iexact Ho
  iexists d; iexact Hs

/-- THE PROOF DATA of the launch on core `c`: the arrays as the launch finds them; after a tile the inputs at
    their blocks and the output at the accumulator spread over its block; the invariant `Phi1`; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (k1_pay3 (acc1 V c t.val t.isLt) : Vec F S1x8x128 .f32)
  Φ t := Phi1 V c t.val (Nat.le_of_lt_succ t.isLt)
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = (k1_pay3 (acc1 V c t.val t.isLt) : Vec F S1x8x128 .f32) := by dsimp only [dat1]

/-- An input window, fetched at every tile and uncut, is handed to the body at its block. -/
theorem dat1_before0 (c : Dev nD) (t : Fin cfg1.N) (d) : (dat1 V c).before 0 t d = blk1 V c 0 t :=
  ((dat1 V c).before_fetched 0 t (fetch1_0 t) d).trans (by unfold Dat.fetched Dat.blockOf blk1; rw [dat1_A]; rfl)
theorem dat1_before1 (c : Dev nD) (t : Fin cfg1.N) (d) : (dat1 V c).before 1 t d = blk1 V c 1 t :=
  ((dat1 V c).before_fetched 1 t (fetch1_1 t) d).trans (by unfold Dat.fetched Dat.blockOf blk1; rw [dat1_A]; rfl)
theorem dat1_before2 (c : Dev nD) (t : Fin cfg1.N) (d) : (dat1 V c).before 2 t d = blk1 V c 2 t :=
  ((dat1 V c).before_fetched 2 t (fetch1_2 t) d).trans (by unfold Dat.fetched Dat.blockOf blk1; rw [dat1_A]; rfl)

/-- The output window is idle exactly where the body does not write it: everywhere but a group's last tile. -/
theorem idle1_out_last (t : Fin cfg1.N) (h : isLast1 (grid1.coords t)) : idle1 3 (grid1.coords t) = false := by
  show (!(k1_cond2 (grid1.coords t) == 1#1)) = false
  rw [show k1_cond2 (grid1.coords t) = 1#1 from h]; rfl
theorem idle1_out_idle (t : Fin cfg1.N) (h : ¬ isLast1 (grid1.coords t)) : idle1 3 (grid1.coords t) = true := by
  show (!(k1_cond2 (grid1.coords t) == 1#1)) = true
  rw [Bool.not_eq_true', beq_eq_false_iff_ne]; exact h

/-- What the obligation says of the output window's buffer after the body: the library's case table, written
    out — idle and not written back: as it was handed over; otherwise: at `after`. -/
def outLeaves1 (c : Dev nD) (t : Fin cfg1.N) : sProp 𝕄 :=
  match cfg1.idle 3 (grid1.coords t) with
  | true =>
    match (cfg1.win 3).flush t with
    | false => iprop(∃ d, owns (c : Thread nD τ) (st1_3 t) fullShare ((dat1 V c).before 3 t d))
    | true => owns (c : Thread nD τ) (st1_3 t) fullShare ((dat1 V c).after 3 t)
  | false => owns (c : Thread nD τ) (st1_3 t) fullShare ((dat1 V c).after 3 t)

theorem outLeaves1_last (c : Dev nD) (t : Fin cfg1.N) (h : isLast1 (grid1.coords t)) :
    outLeaves1 V c t = owns (c : Thread nD τ) (st1_3 t) fullShare ((dat1 V c).after 3 t) := by
  have hi : idle1 3 (grid1.coords t) = false := idle1_out_last t h
  unfold outLeaves1
  split
  next heq => rw [show cfg1.idle 3 (grid1.coords t) = false from hi] at heq; exact absurd heq (by decide)
  next heq => rfl

theorem outLeaves1_idle (c : Dev nD) (t : Fin cfg1.N) (h : ¬ isLast1 (grid1.coords t)) :
    outLeaves1 V c t = iprop(∃ d, owns (c : Thread nD τ) (st1_3 t) fullShare ((dat1 V c).before 3 t d)) := by
  have hi : idle1 3 (grid1.coords t) = true := idle1_out_idle t h
  have hf : (win1 3).flush t = false := by
    rw [Bool.eq_false_iff]; intro hfl
    exact h ((isLast1_iff t).mpr ((flush1_3 t).mp hfl))
  unfold outLeaves1
  split
  next heq =>
    split
    next hfl => rfl
    next hfl => rw [show (cfg1.win 3).flush t = false from hf] at hfl; exact absurd hfl (by decide)
  next heq => rw [show cfg1.idle 3 (grid1.coords t) = true from hi] at heq; exact absurd heq (by decide)

set_option maxHeartbeats 1000000 in
/-- THE BODY AT A TILE. The invariant hands the body the accumulator at what the tile before left (at anything,
    at the very first tile); the inputs are at their blocks; the body's triple applies; the accumulator comes back at
    `accNext1`, which is `acc1` at this tile by the recursion's own equation, and the output window comes back at the
    accumulator spread over the block at a group's last tile, untouched otherwise. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ outLeaves1 V c t)) := by
  simp only [dat1_before0, dat1_before1, dat1_before2, dat1_after0, dat1_after1, dat1_after2]
  rw [show (dat1 V c).Φ t.castSucc = Phi1 V c t.val (Nat.le_of_lt t.isLt) from rfl,
    show (dat1 V c).Φ t.succ = Phi1 V c (t.val + 1) t.isLt from rfl,
    show (dat1 V c).owesAt () t.succ = (dat1 V c).owesAt () t.castSucc from rfl]
  unfold Phi1 bodyAt1
  iintro ⟨⟨⟨⟨%a, %ha, Hs⟩, Ho⟩, Hp⟩, Howe, ⟨%d0, H0⟩, ⟨%d1, H1⟩, ⟨%d2, H2⟩, ⟨%d3, H3⟩⟩
  iapply (body1 c Set.univ (grid1.coords t) _ _ _ _ _ _ _ _ _ _ (nbrBlk1 V c t) (crdBlk1 V c t) (cntBlk1 V c t)
    ((dat1 V c).before 3 t d3) a _)
  isplitl [H0]; · iexact H0
  isplitl [H1]; · iexact H1
  isplitl [H2]; · iexact H2
  isplitl [H3]; · iexact H3
  isplitl [Hs]; · iexact Hs
  iintro ⟨H0, H1, H2, H3, Hs⟩
  have hstep := acc1_step V c t a (fun h => ha h)
  isplitl [Hs Ho Hp]
  · isplitr [Hp]
    swap; · iexact Hp
    isplitr [Ho]
    swap; · iexact Ho
    iexists _; isplitr
    swap; · iexact Hs
    ipureintro
    exact fun _ => hstep
  isplitl [Howe]; · iexact Howe
  isplitl [H0]; · iexact H0
  isplitl [H1]; · iexact H1
  isplitl [H2]; · iexact H2
  by_cases hL : isLast1 (grid1.coords t)
  · rw [outLeaves1_last V c t hL, dat1_after3, ← hstep, ← outNext1_last hL]
    iexact H3
  · rw [outLeaves1_idle V c t hL]
    iexists d3
    rw [outNext1_idle hL]
    iexact H3

/-- The library's body obligation, at every tile. -/
theorem body_obligation1 (c : Dev nD) : BodyObligation (dat1 (F := F) V c) (defs₀ (F := F)) Variants.none () Set.univ := fun t => by
  rw [bigSep_W1, bigSep_W1]
  exact sound_body1 V c t

end Cert.Kernel.Lap

end
-- ==== Proof.KbVals.lean ====
/-
  The two launches' entry contents, named: what core `c`'s buffers hold when the first launch is entered (after the
  seven host stretches before it) and when the second is (after the first launch's result and seven more stretches),
  read at the TensorCore's references.
-/
import proofs.«428723_j14027363188886_4_alg».proof.Proof.Gen.Kernel.Regions

noncomputable section

namespace Cert.Kernel.Lap

open Cert.Kernel Cert.Kernel.Gen Idealize.ShloMosaic Idealize.ShloMosaic.TcCoe Idealize.SL.Sem

variable {F : FTy → Type} [FloatOps F]

/-- Core `c`'s buffers when the first launch is entered. -/
abbrev VR7 (m : (ℓ : Loc nD τ sig) → Buf (Elt F) ℓ) : (c : Dev nD) → (b : Ref sig .tc) → Buf (Elt F) ((c : Thread nD τ).loc b) :=
  fun c b => V7 m c b
/-- Core `c`'s buffers when the second launch is entered, the first launch's result being `outs 8 main_v40`. -/
abbrev VR15 (m : (ℓ : Loc nD τ sig) → Buf (Elt F) ℓ) (outs : Outs (F := F)) : (c : Dev nD) → (b : Ref sig .tc) → Buf (Elt F) ((c : Thread nD τ).loc b) :=
  fun c b => V15 m outs c b

end Cert.Kernel.Lap

end
-- ==== Proof.KiReadBack.lean ====
/-
  Reading a buffer back after whole-block stores, for the block shapes the two launches' bodies use.

  The bodies load and store only through rectangles that are the whole block at zero offsets. After a list of
  stores whose LAST one is such a rectangle the buffer reads as that store's value, whatever came before; a load
  through such a rectangle that follows reads the same value; and a load of a buffer nothing has stored into reads
  its contents. These facts hold for any view of the shape, so both launches and both instances use them.
-/
import proofs.«428723_j14027363188886_4_alg».proof.Proof.Gen.KernelIdeal.Skeleton
import proofs.«428723_j14027363188886_4_alg».proof.Proof.Gen.KernelIdeal.Launch
import proofs.«428723_j14027363188886_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Lap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles the body loads and stores through sit at zero offsets. -/
theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

section ReadBack

variable {sp : Space}

set_option maxHeartbeats 2000000 in
/-- After stores the last of which fills the whole 1×1 buffer, the buffer reads as that store's value. -/
theorem read_writes_acc (v : View sig .tc sp S1x1 .f32) (f : v.ty.Contents (Elt F)) (w : Vec F S1x1 .f32)
    (L : List (View.Piece (Elt F) S1x1 .f32)) :
    v.read (Elt F) (v.writes (Elt F) f (⟨Rect.unit ![0, 0] S1x1.size inb_S1x1_S1x1_0_0, w⟩ :: L)) = w := by
  rw [View.read_writes_eq_canon _ _ _ (fun y => ⟨(⟨Rect.unit ![0, 0] S1x1.size inb_S1x1_S1x1_0_0, w⟩ : View.Piece (Elt F) S1x1 .f32), List.mem_cons_self, View.mem_set_unit_zero (S := S1x1) zero2 inb_S1x1_S1x1_0_0 y⟩),
    View.canon_cons_unit_zero (S := S1x1) zero2]

set_option maxHeartbeats 2000000 in
/-- A load of the whole 1×1 buffer after such stores reads that store's value. -/
theorem readCov_acc (v : View sig .tc sp S1x1 .f32) (w : Vec F S1x1 .f32) (L : List (View.Piece (Elt F) S1x1 .f32)) :
    v.readCov (⟨Rect.unit ![0, 0] S1x1.size inb_S1x1_S1x1_0_0, w⟩ :: L) (Rect.unit ![0, 0] S1x1.size inb_S1x1_S1x1_0_0).toLoadRect = w := by
  rw [View.readCov_eq_canon_ld _ _ _ (fun y => ⟨(⟨Rect.unit ![0, 0] S1x1.size inb_S1x1_S1x1_0_0, w⟩ : View.Piece (Elt F) S1x1 .f32), List.mem_cons_self, View.mem_set_unit_zero (S := S1x1) zero2 inb_S1x1_S1x1_0_0 y⟩),
    View.canon_cons_unit_zero (S := S1x1) zero2, View.ld_unit_zero (S := S1x1) zero2]

set_option maxHeartbeats 2000000 in
/-- After a store that fills the whole output block, the buffer reads as its value. -/
theorem read_writes_out (v : View sig .tc sp S1x8x128 .f32) (f : v.ty.Contents (Elt F)) (w : Vec F S1x8x128 .f32)
    (L : List (View.Piece (Elt F) S1x8x128 .f32)) :
    v.read (Elt F) (v.writes (Elt F) f (⟨Rect.unit ![0, 0, 0] S1x8x128.size inb_S1x8x128_S1x8x128_0_0_0, w⟩ :: L)) = w := by
  rw [View.read_writes_eq_canon _ _ _ (fun y => ⟨(⟨Rect.unit ![0, 0, 0] S1x8x128.size inb_S1x8x128_S1x8x128_0_0_0, w⟩ : View.Piece (Elt F) S1x8x128 .f32), List.mem_cons_self, View.mem_set_unit_zero (S := S1x8x128) zero3 inb_S1x8x128_S1x8x128_0_0_0 y⟩),
    View.canon_cons_unit_zero (S := S1x8x128) zero3]

/-- A load of a whole buffer reads its contents. -/
theorem readAt_acc (v : View sig .tc sp S1x1 .f32) (f : v.ty.Contents (Elt F)) :
    v.readAt (Elt F) (Rect.unit ![0, 0] S1x1.size inb_S1x1_S1x1_0_0).toLoadRect f = v.read (Elt F) f := by
  rw [View.readAt_eq_ld, View.ld_unit_zero (S := S1x1) zero2]
theorem readAt_in6 (v : View sig .tc sp S6x1024 .f32) (f : v.ty.Contents (Elt F)) :
    v.readAt (Elt F) (Rect.unit ![0, 0] S6x1024.size inb_S6x1024_S6x1024_0_0).toLoadRect f = v.read (Elt F) f := by
  rw [View.readAt_eq_ld, View.ld_unit_zero (S := S6x1024) zero2]
theorem readAt_in1 (v : View sig .tc sp S1x1024 .f32) (f : v.ty.Contents (Elt F)) :
    v.readAt (Elt F) (Rect.unit ![0, 0] S1x1024.size inb_S1x1024_S1x1024_0_0).toLoadRect f = v.read (Elt F) f := by
  rw [View.readAt_eq_ld, View.ld_unit_zero (S := S1x1024) zero2]

/-! The same facts with the blocks' extents written out, as the run prints them. -/

theorem read_writes_acc' (v : View sig .tc sp S1x1 .f32) (f : v.ty.Contents (Elt F)) (w : Vec F S1x1 .f32)
    (L : List (View.Piece (Elt F) S1x1 .f32)) :
    v.read (Elt F) (v.writes (Elt F) f (⟨Rect.unit ![0, 0] ![1, 1] inb_S1x1_S1x1_0_0, w⟩ :: L)) = w :=
  read_writes_acc v f w L
theorem readCov_acc' (v : View sig .tc sp S1x1 .f32) (w : Vec F S1x1 .f32) (L : List (View.Piece (Elt F) S1x1 .f32)) :
    v.readCov (⟨Rect.unit ![0, 0] ![1, 1] inb_S1x1_S1x1_0_0, w⟩ :: L) (Rect.unit ![0, 0] ![1, 1] inb_S1x1_S1x1_0_0).toLoadRect = w :=
  readCov_acc v w L
theorem read_writes_out' (v : View sig .tc sp S1x8x128 .f32) (f : v.ty.Contents (Elt F)) (w : Vec F S1x8x128 .f32)
    (L : List (View.Piece (Elt F) S1x8x128 .f32)) :
    v.read (Elt F) (v.writes (Elt F) f (⟨Rect.unit ![0, 0, 0] ![1, 8, 128] inb_S1x8x128_S1x8x128_0_0_0, w⟩ :: L)) = w :=
  read_writes_out v f w L
theorem readAt_acc' (v : View sig .tc sp S1x1 .f32) (f : v.ty.Contents (Elt F)) :
    v.readAt (Elt F) (Rect.unit ![0, 0] ![1, 1] inb_S1x1_S1x1_0_0).toLoadRect f = v.read (Elt F) f := readAt_acc v f
theorem readAt_in6' (v : View sig .tc sp S6x1024 .f32) (f : v.ty.Contents (Elt F)) :
    v.readAt (Elt F) (Rect.unit ![0, 0] ![6, 1024] inb_S6x1024_S6x1024_0_0).toLoadRect f = v.read (Elt F) f := readAt_in6 v f
theorem readAt_in1' (v : View sig .tc sp S1x1024 .f32) (f : v.ty.Contents (Elt F)) :
    v.readAt (Elt F) (Rect.unit ![0, 0] ![1, 1024] inb_S1x1024_S1x1024_0_0).toLoadRect f = v.read (Elt F) f := readAt_in1 v f

end ReadBack

end Cert.KernelIdeal.Lap

end
-- ==== Proof.KiBody0.lean ====
/-
  The body of the first launch, run once at a symbolic grid point.

  The body keeps a 1×1 accumulator in a scratch buffer. At the first tile of a group (second grid coordinate zero)
  it stores zero there; at every tile it adds the tile's sum of squared Laplacian differences — the stored value
  is one pure term of the three input blocks and of what the accumulator held (the zero just stored, at a first
  tile); at the last tile of a group it broadcasts the accumulator over the output block, and at the other tiles it
  leaves the output buffer as it found it. `accNext0` and `outNext0` say this with the two conditions as `if`s,
  and `body0` is the triple: from the five buffers owned at their contents the body returns with the inputs
  untouched, the accumulator at `accNext0` and the output buffer at `outNext0`.
-/
import proofs.«428723_j14027363188886_4_alg».proof.Proof.KiReadBack
import proofs.«428723_j14027363188886_4_alg».proof.Proof.Gen.KernelIdeal.Skeleton
import proofs.«428723_j14027363188886_4_alg».proof.Proof.Gen.KernelIdeal.Launch
import proofs.«428723_j14027363188886_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Lap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body resets the accumulator exactly when the second grid coordinate is zero: a group's first tile. -/
abbrev isFirst0 (i : grid0.Coords) : Prop :=
  (Scalar.cmpi .ne (Scalar.extui (Scalar.cmpi .eq (BitVec.ofNat 32 (i 1).val) 0#32)) 0#32) = 1#1
/-- It writes the output block exactly at a group's last tile. -/
abbrev isLast0 (i : grid0.Coords) : Prop := k0_cond2 i = 1#1

/-- What the accumulator holds after the body at point `i`, from the three input blocks and what it held. -/
def accNext0 (i : grid0.Coords) (x0 x1 : Vec F S6x1024 .f32) (x2 : Vec F S1x1024 .f32) (a : Vec F S1x1 .f32) : Vec F S1x1 .f32 :=
  k0_pay2 x0 x1 x2 (if isFirst0 i then (k0_pay1 (F := F) : Vec F S1x1 .f32) else a)

/-- What the output buffer holds after the body at point `i`: the accumulator spread over the block at a last
    tile, what it held otherwise. -/
def outNext0 (i : grid0.Coords) (x0 x1 : Vec F S6x1024 .f32) (x2 : Vec F S1x1024 .f32) (a : Vec F S1x1 .f32)
    (xo : Vec F S1x8x128 .f32) : Vec F S1x8x128 .f32 :=
  if isLast0 i then (k0_pay3 (accNext0 i x0 x1 x2 a) : Vec F S1x8x128 .f32) else xo

theorem accNext0_first {i : grid0.Coords} (h : isFirst0 i) (x0 x1 : Vec F S6x1024 .f32) (x2 : Vec F S1x1024 .f32) (a : Vec F S1x1 .f32) :
    accNext0 i x0 x1 x2 a = k0_pay2 x0 x1 x2 (k0_pay1 (F := F)) := by unfold accNext0; rw [if_pos h]
theorem accNext0_later {i : grid0.Coords} (h : ¬ isFirst0 i) (x0 x1 : Vec F S6x1024 .f32) (x2 : Vec F S1x1024 .f32) (a : Vec F S1x1 .f32) :
    accNext0 i x0 x1 x2 a = k0_pay2 x0 x1 x2 a := by unfold accNext0; rw [if_neg h]
theorem outNext0_last {i : grid0.Coords} (h : isLast0 i) (x0 x1 : Vec F S6x1024 .f32) (x2 : Vec F S1x1024 .f32) (a : Vec F S1x1 .f32)
    (xo : Vec F S1x8x128 .f32) : outNext0 i x0 x1 x2 a xo = k0_pay3 (accNext0 i x0 x1 x2 a) := by unfold outNext0; rw [if_pos h]
theorem outNext0_idle {i : grid0.Coords} (h : ¬ isLast0 i) (x0 x1 : Vec F S6x1024 .f32) (x2 : Vec F S1x1024 .f32) (a : Vec F S1x1 .f32)
    (xo : Vec F S1x8x128 .f32) : outNext0 i x0 x1 x2 a xo = xo := by unfold outNext0; rw [if_neg h]

set_option maxHeartbeats 4000000 in
/-- THE BODY'S TRIPLE at any grid point: the inputs come back as they were, the accumulator at `accNext0`, the
    output buffer at `outNext0`. The four combinations of the two conditions are run one by one; in each, what a
    buffer holds after its stores is read back as the last whole-block store's value, and a load that follows a
    whole-block store reads that store's value. -/
theorem body0 (c : Dev nD) (E : Set ℕ) (i : grid0.Coords)
    (arg2 : Memref sig .tc .vmem S6x1024 .f32) (harg2 : arg2.IsWhole) (arg3 : Memref sig .tc .vmem S6x1024 .f32) (harg3 : arg3.IsWhole)
    (arg4 : Memref sig .tc .vmem S1x1024 .f32) (harg4 : arg4.IsWhole) (arg5 : Memref sig .tc .vmem S1x8x128 .f32) (harg5 : arg5.IsWhole)
    (arg6 : Memref sig .tc .vmem S1x1 .f32) (harg6 : arg6.IsWhole)
    (x0 x1 : Vec F S6x1024 .f32) (x2 : Vec F S1x1024 .f32) (xo : Vec F S1x8x128 .f32) (a : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (outNext0 i x0 x1 x2 a xo) ∗ owns (c : Thread nD τ) arg6 fullShare (accNext0 i x0 x1 x2 a)) -∗ K ⟨⟩))
      ⊢ wp frame (wpE (defs₀ (F := F)) Variants.none c none) E (cc0__lap_kernel i arg2 harg2 arg3 harg3 arg4 harg4 arg5 harg5 arg6 harg6) K := by
  simp only [cc0__lap_kernel_eq_skeleton]; unfold cc0__lap_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2; subst hfo; subst hfs
  by_cases hF : isFirst0 i <;> by_cases hL : isLast0 i
  all_goals
    sl_exec (disch := first | exact hF | exact hL)
    sl_step
    iapply Hk
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [HO]
    · iexists _; isplitr
      swap; · iexact HO
      ipureintro
      sl_unfold_words
      first
        | (rw [outNext0_idle hL])
        | (rw [outNext0_last hL]
           first
             | (rw [accNext0_first hF])
             | (rw [accNext0_later hF])
           simp only [read_writes_out, read_writes_acc, readCov_acc, readAt_acc, readAt_in6, readAt_in1,
             read_writes_out', read_writes_acc', readCov_acc', readAt_acc', readAt_in6', readAt_in1'])
    iexists _; isplitr
    swap; · iexact HS
    ipureintro
    sl_unfold_words
    first
      | (rw [accNext0_first hF])
      | (rw [accNext0_later hF])
    simp only [read_writes_acc, readCov_acc, readAt_acc, readAt_in6, readAt_in1,
      read_writes_acc', readCov_acc', readAt_acc', readAt_in6', readAt_in1']

end Cert.KernelIdeal.Lap

end
-- ==== Proof.KiAcc0.lean ====
/-
  What the first launch's accumulator holds after each tile, as a recursion on the tile number.

  The grid is two groups of 245 tiles, numbered 0 … 489 in row-major order, so tile `n` is the first of its group
  when `n % 245 = 0` and the last when `n % 245 = 244` (both decided over the grid from the body's own scalar
  chains). `blk0 V c w n` is window `w`'s block at tile `n` read off its array as the launch finds it (`V`), and
  `acc0 V c n` is the accumulator after tile `n`: the tile's stored value over the three input blocks and over the
  zero just stored (first tile of a group) or what the tile before left.
-/
import proofs.«428723_j14027363188886_4_alg».proof.Proof.KiBody0
import proofs.«428723_j14027363188886_4_alg».proof.Proof.Gen.KernelIdeal.Skeleton
import proofs.«428723_j14027363188886_4_alg».proof.Proof.Gen.KernelIdeal.Launch
import proofs.«428723_j14027363188886_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Lap

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

/-- The launch resets at a group's first tile: decided over the 490 points. -/
theorem isFirst0_iff : ∀ t : Fin cfg0.N, isFirst0 (grid0.coords t) ↔ t.val % 245 = 0 :=
  (by decide +kernel : ∀ t : Fin grid0.N, isFirst0 (grid0.coords t) ↔ t.val % 245 = 0)
/-- It writes the output at a group's last tile: decided over the 490 points. -/
theorem isLast0_iff : ∀ t : Fin cfg0.N, isLast0 (grid0.coords t) ↔ t.val % 245 = 244 :=
  (by decide +kernel : ∀ t : Fin grid0.N, isLast0 (grid0.coords t) ↔ t.val % 245 = 244)

variable (V : (c : Dev nD) → (b : Ref sig .tc) → Buf (Elt F) ((c : Thread nD τ).loc b))

/-- Window `w`'s block at tile `t`, read off its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at tile `t` at their literal types: neighbour sums, self coordinates, counts. -/
abbrev nbrBlk0 (c : Dev nD) (t : Fin cfg0.N) : Vec F S6x1024 .f32 := blk0 V c 0 t
abbrev crdBlk0 (c : Dev nD) (t : Fin cfg0.N) : Vec F S6x1024 .f32 := blk0 V c 1 t
abbrev cntBlk0 (c : Dev nD) (t : Fin cfg0.N) : Vec F S1x1024 .f32 := blk0 V c 2 t

/-- The accumulator after tile `n`. -/
def acc0 (c : Dev nD) : (n : ℕ) → n < cfg0.N → Vec F S1x1 .f32
  | 0, h => k0_pay2 (nbrBlk0 V c ⟨0, h⟩) (crdBlk0 V c ⟨0, h⟩) (cntBlk0 V c ⟨0, h⟩) (k0_pay1 (F := F))
  | n + 1, h => k0_pay2 (nbrBlk0 V c ⟨n + 1, h⟩) (crdBlk0 V c ⟨n + 1, h⟩) (cntBlk0 V c ⟨n + 1, h⟩)
      (if (n + 1) % 245 = 0 then (k0_pay1 (F := F) : Vec F S1x1 .f32) else acc0 c n (Nat.lt_of_succ_lt h))

/-- The recursion is the body's own step: the accumulator after tile `t` is `accNext0` at the tile's grid point of
    the tile's blocks and of ANY contents `a` that are the previous tile's accumulator when `t` is not the first
    tile of the run. -/
theorem acc0_step (c : Dev nD) (t : Fin cfg0.N) (a : Vec F S1x1 .f32)
    (ha : t.val ≠ 0 → a = acc0 V c (t.val - 1) (Nat.lt_of_le_of_lt (Nat.sub_le _ _) t.isLt)) :
    accNext0 (grid0.coords t) (nbrBlk0 V c t) (crdBlk0 V c t) (cntBlk0 V c t) a = acc0 V c t.val t.isLt := by
  obtain ⟨n, hn⟩ := t
  by_cases hF : isFirst0 (grid0.coords ⟨n, hn⟩)
  · rw [accNext0_first hF]
    have hm : n % 245 = 0 := (isFirst0_iff ⟨n, hn⟩).mp hF
    cases n with
    | zero => rfl
    | succ k => show _ = acc0 V c (k + 1) hn; rw [acc0, if_pos hm]
  · rw [accNext0_later hF]
    have hm : ¬ n % 245 = 0 := fun h => hF ((isFirst0_iff ⟨n, hn⟩).mpr h)
    cases n with
    | zero => exact absurd rfl hm
    | succ k =>
      show _ = acc0 V c (k + 1) hn
      rw [acc0, if_neg hm, ha (Nat.succ_ne_zero k)]
      rfl

end Cert.KernelIdeal.Lap

end
-- ==== Proof.KiDat0.lean ====
/-
  The first launch's proof data, its invariant, and the body obligation at every tile.

  The invariant before tile `n` holds the launch's accumulator scratch at SOME contents `d`, known to be what tile
  `n − 1` left (`acc0`) once a tile has run, beside the core's other scoped buffers and its generator register,
  which the body does not touch. Before the first tile that is the pipeline's class invariant with the scratch
  singled out (`Phi0_zero`), and after the last tile it gives the class invariant back (`Phi0_out`).
  After a tile the three input windows hold their blocks as fetched and the output window, at a group's last tile,
  the accumulator spread over the block; at the other tiles the output window is idle and its buffer goes back as
  it came.
-/
import proofs.«428723_j14027363188886_4_alg».proof.Proof.KiAcc0
import proofs.«428723_j14027363188886_4_alg».proof.Proof.Gen.KernelIdeal.Skeleton
import proofs.«428723_j14027363188886_4_alg».proof.Proof.Gen.KernelIdeal.Launch
import proofs.«428723_j14027363188886_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Lap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator's scratch buffer, whole. -/
abbrev scr0 : Memref sig .tc .vmem S1x1 .f32 := Memref.whole cc0_scratch0

/-- The core's scoped buffers that are neither this launch's staging buffers nor its scratch, each whole at some
    contents: the other launch's staging buffers and scratch. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant of the launch gives the accumulator's scratch, singled out, beside the rest … -/
theorem PhiA0_fwd (c : Dev nD) :
    (Pipeline.ΦA spec0 c : sProp 𝕄)
      ⊢ iprop(((∃ f : Buf (Elt F) ((c : Thread nD τ).loc cc0_scratch0), ((c : Thread nD τ).loc cc0_scratch0) ↦{fullShare} f) ∗ others0 (F := F) c) ∗ ∃ r, prngReg c r) := by
  unfold Pipeline.ΦA others0; rw [scopedRest0_eq]
/-- … and is made of them again. -/
theorem PhiA0_bwd (c : Dev nD) :
    iprop(((∃ f : Buf (Elt F) ((c : Thread nD τ).loc cc0_scratch0), ((c : Thread nD τ).loc cc0_scratch0) ↦{fullShare} f) ∗ others0 (F := F) c) ∗ ∃ r, prngReg c r)
      ⊢ (Pipeline.ΦA spec0 c : sProp 𝕄) := by
  unfold others0 Pipeline.ΦA; rw [scopedRest0_eq]

/-- THE INVARIANT before tile `n`: the scratch at contents that are the previous tile's accumulator once a tile
    has run; the rest untouched. -/
def Phi0 (c : Dev nD) (n : ℕ) (hn : n ≤ cfg0.N) : sProp 𝕄 :=
  iprop(((∃ d : Vec F S1x1 .f32, ⌜∀ h : n ≠ 0, d = acc0 V c (n - 1) (by omega)⌝ ∗ owns (c : Thread nD τ) scr0 fullShare d) ∗ others0 (F := F) c) ∗ ∃ r, prngReg c r)

/-- Before the first tile the invariant is the class invariant. -/
theorem Phi0_zero (c : Dev nD) : (Pipeline.ΦA spec0 c : sProp 𝕄) ⊢ Phi0 V c 0 (Nat.zero_le _) := by
  refine (PhiA0_fwd c).trans ?_
  unfold Phi0 scr0; simp only [owns_whole]
  iintro ⟨⟨⟨%f, Hs⟩, Ho⟩, Hp⟩
  isplitr [Hp]
  swap; · iexact Hp
  isplitr [Ho]
  swap; · iexact Ho
  iexists f; isplitr
  · ipureintro; exact fun h => absurd rfl h
  · iexact Hs

/-- At any tile count it gives the class invariant back. -/
theorem Phi0_out (c : Dev nD) (n : ℕ) (hn : n ≤ cfg0.N) : Phi0 V c n hn ⊢ (Pipeline.ΦA spec0 c : sProp 𝕄) := by
  refine BIBase.Entails.trans ?_ (PhiA0_bwd c)
  unfold Phi0 scr0; simp only [owns_whole]
  iintro ⟨⟨⟨%d, -, Hs⟩, Ho⟩, Hp⟩
  isplitr [Hp]
  swap; · iexact Hp
  isplitr [Ho]
  swap; · iexact Ho
  iexists d; iexact Hs

/-- THE PROOF DATA of the launch on core `c`: the arrays as the launch finds them; after a tile the inputs at
    their blocks and the output at the accumulator spread over its block; the invariant `Phi0`; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => (k0_pay3 (acc0 V c t.val t.isLt) : Vec F S1x8x128 .f32)
  Φ t := Phi0 V c t.val (Nat.le_of_lt_succ t.isLt)
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = (k0_pay3 (acc0 V c t.val t.isLt) : Vec F S1x8x128 .f32) := by dsimp only [dat0]

/-- An input window, fetched at every tile and uncut, is handed to the body at its block. -/
theorem dat0_before0 (c : Dev nD) (t : Fin cfg0.N) (d) : (dat0 V c).before 0 t d = blk0 V c 0 t :=
  ((dat0 V c).before_fetched 0 t (fetch0_0 t) d).trans (by unfold Dat.fetched Dat.blockOf blk0; rw [dat0_A]; rfl)
theorem dat0_before1 (c : Dev nD) (t : Fin cfg0.N) (d) : (dat0 V c).before 1 t d = blk0 V c 1 t :=
  ((dat0 V c).before_fetched 1 t (fetch0_1 t) d).trans (by unfold Dat.fetched Dat.blockOf blk0; rw [dat0_A]; rfl)
theorem dat0_before2 (c : Dev nD) (t : Fin cfg0.N) (d) : (dat0 V c).before 2 t d = blk0 V c 2 t :=
  ((dat0 V c).before_fetched 2 t (fetch0_2 t) d).trans (by unfold Dat.fetched Dat.blockOf blk0; rw [dat0_A]; rfl)

/-- The output window is idle exactly where the body does not write it: everywhere but a group's last tile. -/
theorem idle0_out_last (t : Fin cfg0.N) (h : isLast0 (grid0.coords t)) : idle0 3 (grid0.coords t) = false := by
  show (!(k0_cond2 (grid0.coords t) == 1#1)) = false
  rw [show k0_cond2 (grid0.coords t) = 1#1 from h]; rfl
theorem idle0_out_idle (t : Fin cfg0.N) (h : ¬ isLast0 (grid0.coords t)) : idle0 3 (grid0.coords t) = true := by
  show (!(k0_cond2 (grid0.coords t) == 1#1)) = true
  rw [Bool.not_eq_true', beq_eq_false_iff_ne]; exact h

/-- What the obligation says of the output window's buffer after the body: the library's case table, written
    out — idle and not written back: as it was handed over; otherwise: at `after`. -/
def outLeaves0 (c : Dev nD) (t : Fin cfg0.N) : sProp 𝕄 :=
  match cfg0.idle 3 (grid0.coords t) with
  | true =>
    match (cfg0.win 3).flush t with
    | false => iprop(∃ d, owns (c : Thread nD τ) (st0_3 t) fullShare ((dat0 V c).before 3 t d))
    | true => owns (c : Thread nD τ) (st0_3 t) fullShare ((dat0 V c).after 3 t)
  | false => owns (c : Thread nD τ) (st0_3 t) fullShare ((dat0 V c).after 3 t)

theorem outLeaves0_last (c : Dev nD) (t : Fin cfg0.N) (h : isLast0 (grid0.coords t)) :
    outLeaves0 V c t = owns (c : Thread nD τ) (st0_3 t) fullShare ((dat0 V c).after 3 t) := by
  have hi : idle0 3 (grid0.coords t) = false := idle0_out_last t h
  unfold outLeaves0
  split
  next heq => rw [show cfg0.idle 3 (grid0.coords t) = false from hi] at heq; exact absurd heq (by decide)
  next heq => rfl

theorem outLeaves0_idle (c : Dev nD) (t : Fin cfg0.N) (h : ¬ isLast0 (grid0.coords t)) :
    outLeaves0 V c t = iprop(∃ d, owns (c : Thread nD τ) (st0_3 t) fullShare ((dat0 V c).before 3 t d)) := by
  have hi : idle0 3 (grid0.coords t) = true := idle0_out_idle t h
  have hf : (win0 3).flush t = false := by
    rw [Bool.eq_false_iff]; intro hfl
    exact h ((isLast0_iff t).mpr ((flush0_3 t).mp hfl))
  unfold outLeaves0
  split
  next heq =>
    split
    next hfl => rfl
    next hfl => rw [show (cfg0.win 3).flush t = false from hf] at hfl; exact absurd hfl (by decide)
  next heq => rw [show cfg0.idle 3 (grid0.coords t) = true from hi] at heq; exact absurd heq (by decide)

set_option maxHeartbeats 1000000 in
/-- THE BODY AT A TILE. The invariant hands the body the accumulator at what the tile before left (at anything,
    at the very first tile); the inputs are at their blocks; the body's triple applies; the accumulator comes back at
    `accNext0`, which is `acc0` at this tile by the recursion's own equation, and the output window comes back at the
    accumulator spread over the block at a group's last tile, untouched otherwise. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ outLeaves0 V c t)) := by
  simp only [dat0_before0, dat0_before1, dat0_before2, dat0_after0, dat0_after1, dat0_after2]
  rw [show (dat0 V c).Φ t.castSucc = Phi0 V c t.val (Nat.le_of_lt t.isLt) from rfl,
    show (dat0 V c).Φ t.succ = Phi0 V c (t.val + 1) t.isLt from rfl,
    show (dat0 V c).owesAt () t.succ = (dat0 V c).owesAt () t.castSucc from rfl]
  unfold Phi0 bodyAt0
  iintro ⟨⟨⟨⟨%a, %ha, Hs⟩, Ho⟩, Hp⟩, Howe, ⟨%d0, H0⟩, ⟨%d1, H1⟩, ⟨%d2, H2⟩, ⟨%d3, H3⟩⟩
  iapply (body0 c Set.univ (grid0.coords t) _ _ _ _ _ _ _ _ _ _ (nbrBlk0 V c t) (crdBlk0 V c t) (cntBlk0 V c t)
    ((dat0 V c).before 3 t d3) a _)
  isplitl [H0]; · iexact H0
  isplitl [H1]; · iexact H1
  isplitl [H2]; · iexact H2
  isplitl [H3]; · iexact H3
  isplitl [Hs]; · iexact Hs
  iintro ⟨H0, H1, H2, H3, Hs⟩
  have hstep := acc0_step V c t a (fun h => ha h)
  isplitl [Hs Ho Hp]
  · isplitr [Hp]
    swap; · iexact Hp
    isplitr [Ho]
    swap; · iexact Ho
    iexists _; isplitr
    swap; · iexact Hs
    ipureintro
    exact fun _ => hstep
  isplitl [Howe]; · iexact Howe
  isplitl [H0]; · iexact H0
  isplitl [H1]; · iexact H1
  isplitl [H2]; · iexact H2
  by_cases hL : isLast0 (grid0.coords t)
  · rw [outLeaves0_last V c t hL, dat0_after3, ← hstep, ← outNext0_last hL]
    iexact H3
  · rw [outLeaves0_idle V c t hL]
    iexists d3
    rw [outNext0_idle hL]
    iexact H3

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Lap

end
-- ==== Proof.KiBody1.lean ====
/-
  The body of the second launch, run once at a symbolic grid point.

  The body keeps a 1×1 accumulator in a scratch buffer. At the first tile of a group (second grid coordinate zero)
  it stores zero there; at every tile it adds the tile's sum of squared Laplacian differences — the stored value
  is one pure term of the three input blocks and of what the accumulator held (the zero just stored, at a first
  tile); at the last tile of a group it broadcasts the accumulator over the output block, and at the other tiles it
  leaves the output buffer as it found it. `accNext1` and `outNext1` say this with the two conditions as `if`s,
  and `body1` is the triple: from the five buffers owned at their contents the body returns with the inputs
  untouched, the accumulator at `accNext1` and the output buffer at `outNext1`.
-/
import proofs.«428723_j14027363188886_4_alg».proof.Proof.KiReadBack
import proofs.«428723_j14027363188886_4_alg».proof.Proof.Gen.KernelIdeal.Skeleton
import proofs.«428723_j14027363188886_4_alg».proof.Proof.Gen.KernelIdeal.Launch
import proofs.«428723_j14027363188886_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Lap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body resets the accumulator exactly when the second grid coordinate is zero: a group's first tile. -/
abbrev isFirst1 (i : grid1.Coords) : Prop :=
  (Scalar.cmpi .ne (Scalar.extui (Scalar.cmpi .eq (BitVec.ofNat 32 (i 1).val) 0#32)) 0#32) = 1#1
/-- It writes the output block exactly at a group's last tile. -/
abbrev isLast1 (i : grid1.Coords) : Prop := k1_cond2 i = 1#1

/-- What the accumulator holds after the body at point `i`, from the three input blocks and what it held. -/
def accNext1 (i : grid1.Coords) (x0 x1 : Vec F S6x1024 .f32) (x2 : Vec F S1x1024 .f32) (a : Vec F S1x1 .f32) : Vec F S1x1 .f32 :=
  k1_pay2 x0 x1 x2 (if isFirst1 i then (k1_pay1 (F := F) : Vec F S1x1 .f32) else a)

/-- What the output buffer holds after the body at point `i`: the accumulator spread over the block at a last
    tile, what it held otherwise. -/
def outNext1 (i : grid1.Coords) (x0 x1 : Vec F S6x1024 .f32) (x2 : Vec F S1x1024 .f32) (a : Vec F S1x1 .f32)
    (xo : Vec F S1x8x128 .f32) : Vec F S1x8x128 .f32 :=
  if isLast1 i then (k1_pay3 (accNext1 i x0 x1 x2 a) : Vec F S1x8x128 .f32) else xo

theorem accNext1_first {i : grid1.Coords} (h : isFirst1 i) (x0 x1 : Vec F S6x1024 .f32) (x2 : Vec F S1x1024 .f32) (a : Vec F S1x1 .f32) :
    accNext1 i x0 x1 x2 a = k1_pay2 x0 x1 x2 (k1_pay1 (F := F)) := by unfold accNext1; rw [if_pos h]
theorem accNext1_later {i : grid1.Coords} (h : ¬ isFirst1 i) (x0 x1 : Vec F S6x1024 .f32) (x2 : Vec F S1x1024 .f32) (a : Vec F S1x1 .f32) :
    accNext1 i x0 x1 x2 a = k1_pay2 x0 x1 x2 a := by unfold accNext1; rw [if_neg h]
theorem outNext1_last {i : grid1.Coords} (h : isLast1 i) (x0 x1 : Vec F S6x1024 .f32) (x2 : Vec F S1x1024 .f32) (a : Vec F S1x1 .f32)
    (xo : Vec F S1x8x128 .f32) : outNext1 i x0 x1 x2 a xo = k1_pay3 (accNext1 i x0 x1 x2 a) := by unfold outNext1; rw [if_pos h]
theorem outNext1_idle {i : grid1.Coords} (h : ¬ isLast1 i) (x0 x1 : Vec F S6x1024 .f32) (x2 : Vec F S1x1024 .f32) (a : Vec F S1x1 .f32)
    (xo : Vec F S1x8x128 .f32) : outNext1 i x0 x1 x2 a xo = xo := by unfold outNext1; rw [if_neg h]

set_option maxHeartbeats 4000000 in
/-- THE BODY'S TRIPLE at any grid point: the inputs come back as they were, the accumulator at `accNext1`, the
    output buffer at `outNext1`. The four combinations of the two conditions are run one by one; in each, what a
    buffer holds after its stores is read back as the last whole-block store's value, and a load that follows a
    whole-block store reads that store's value. -/
theorem body1 (c : Dev nD) (E : Set ℕ) (i : grid1.Coords)
    (arg2 : Memref sig .tc .vmem S6x1024 .f32) (harg2 : arg2.IsWhole) (arg3 : Memref sig .tc .vmem S6x1024 .f32) (harg3 : arg3.IsWhole)
    (arg4 : Memref sig .tc .vmem S1x1024 .f32) (harg4 : arg4.IsWhole) (arg5 : Memref sig .tc .vmem S1x8x128 .f32) (harg5 : arg5.IsWhole)
    (arg6 : Memref sig .tc .vmem S1x1 .f32) (harg6 : arg6.IsWhole)
    (x0 x1 : Vec F S6x1024 .f32) (x2 : Vec F S1x1024 .f32) (xo : Vec F S1x8x128 .f32) (a : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (outNext1 i x0 x1 x2 a xo) ∗ owns (c : Thread nD τ) arg6 fullShare (accNext1 i x0 x1 x2 a)) -∗ K ⟨⟩))
      ⊢ wp frame (wpE (defs₀ (F := F)) Variants.none c none) E (cc1__lap_kernel i arg2 harg2 arg3 harg3 arg4 harg4 arg5 harg5 arg6 harg6) K := by
  simp only [cc1__lap_kernel_eq_skeleton]; unfold cc1__lap_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2; subst hfo; subst hfs
  by_cases hF : isFirst1 i <;> by_cases hL : isLast1 i
  all_goals
    sl_exec (disch := first | exact hF | exact hL)
    sl_step
    iapply Hk
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [HO]
    · iexists _; isplitr
      swap; · iexact HO
      ipureintro
      sl_unfold_words
      first
        | (rw [outNext1_idle hL])
        | (rw [outNext1_last hL]
           first
             | (rw [accNext1_first hF])
             | (rw [accNext1_later hF])
           simp only [read_writes_out, read_writes_acc, readCov_acc, readAt_acc, readAt_in6, readAt_in1,
             read_writes_out', read_writes_acc', readCov_acc', readAt_acc', readAt_in6', readAt_in1'])
    iexists _; isplitr
    swap; · iexact HS
    ipureintro
    sl_unfold_words
    first
      | (rw [accNext1_first hF])
      | (rw [accNext1_later hF])
    simp only [read_writes_acc, readCov_acc, readAt_acc, readAt_in6, readAt_in1,
      read_writes_acc', readCov_acc', readAt_acc', readAt_in6', readAt_in1']

end Cert.KernelIdeal.Lap

end
-- ==== Proof.KiAcc1.lean ====
/-
  What the second launch's accumulator holds after each tile, as a recursion on the tile number.

  The grid is two groups of 977 tiles, numbered 0 … 1953 in row-major order, so tile `n` is the first of its group
  when `n % 977 = 0` and the last when `n % 977 = 976` (both decided over the grid from the body's own scalar
  chains). `blk1 V c w n` is window `w`'s block at tile `n` read off its array as the launch finds it (`V`), and
  `acc1 V c n` is the accumulator after tile `n`: the tile's stored value over the three input blocks and over the
  zero just stored (first tile of a group) or what the tile before left.
-/
import proofs.«428723_j14027363188886_4_alg».proof.Proof.KiBody1
import proofs.«428723_j14027363188886_4_alg».proof.Proof.Gen.KernelIdeal.Skeleton
import proofs.«428723_j14027363188886_4_alg».proof.Proof.Gen.KernelIdeal.Launch
import proofs.«428723_j14027363188886_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Lap

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

/-- The launch resets at a group's first tile: decided over the 1954 points. -/
theorem isFirst1_iff : ∀ t : Fin cfg1.N, isFirst1 (grid1.coords t) ↔ t.val % 977 = 0 :=
  (by decide +kernel : ∀ t : Fin grid1.N, isFirst1 (grid1.coords t) ↔ t.val % 977 = 0)
/-- It writes the output at a group's last tile: decided over the 1954 points. -/
theorem isLast1_iff : ∀ t : Fin cfg1.N, isLast1 (grid1.coords t) ↔ t.val % 977 = 976 :=
  (by decide +kernel : ∀ t : Fin grid1.N, isLast1 (grid1.coords t) ↔ t.val % 977 = 976)

variable (V : (c : Dev nD) → (b : Ref sig .tc) → Buf (Elt F) ((c : Thread nD τ).loc b))

/-- Window `w`'s block at tile `t`, read off its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at tile `t` at their literal types: neighbour sums, self coordinates, counts. -/
abbrev nbrBlk1 (c : Dev nD) (t : Fin cfg1.N) : Vec F S6x1024 .f32 := blk1 V c 0 t
abbrev crdBlk1 (c : Dev nD) (t : Fin cfg1.N) : Vec F S6x1024 .f32 := blk1 V c 1 t
abbrev cntBlk1 (c : Dev nD) (t : Fin cfg1.N) : Vec F S1x1024 .f32 := blk1 V c 2 t

/-- The accumulator after tile `n`. -/
def acc1 (c : Dev nD) : (n : ℕ) → n < cfg1.N → Vec F S1x1 .f32
  | 0, h => k1_pay2 (nbrBlk1 V c ⟨0, h⟩) (crdBlk1 V c ⟨0, h⟩) (cntBlk1 V c ⟨0, h⟩) (k1_pay1 (F := F))
  | n + 1, h => k1_pay2 (nbrBlk1 V c ⟨n + 1, h⟩) (crdBlk1 V c ⟨n + 1, h⟩) (cntBlk1 V c ⟨n + 1, h⟩)
      (if (n + 1) % 977 = 0 then (k1_pay1 (F := F) : Vec F S1x1 .f32) else acc1 c n (Nat.lt_of_succ_lt h))

/-- The recursion is the body's own step: the accumulator after tile `t` is `accNext1` at the tile's grid point of
    the tile's blocks and of ANY contents `a` that are the previous tile's accumulator when `t` is not the first
    tile of the run. -/
theorem acc1_step (c : Dev nD) (t : Fin cfg1.N) (a : Vec F S1x1 .f32)
    (ha : t.val ≠ 0 → a = acc1 V c (t.val - 1) (Nat.lt_of_le_of_lt (Nat.sub_le _ _) t.isLt)) :
    accNext1 (grid1.coords t) (nbrBlk1 V c t) (crdBlk1 V c t) (cntBlk1 V c t) a = acc1 V c t.val t.isLt := by
  obtain ⟨n, hn⟩ := t
  by_cases hF : isFirst1 (grid1.coords ⟨n, hn⟩)
  · rw [accNext1_first hF]
    have hm : n % 977 = 0 := (isFirst1_iff ⟨n, hn⟩).mp hF
    cases n with
    | zero => rfl
    | succ k => show _ = acc1 V c (k + 1) hn; rw [acc1, if_pos hm]
  · rw [accNext1_later hF]
    have hm : ¬ n % 977 = 0 := fun h => hF ((isFirst1_iff ⟨n, hn⟩).mpr h)
    cases n with
    | zero => exact absurd rfl hm
    | succ k =>
      show _ = acc1 V c (k + 1) hn
      rw [acc1, if_neg hm, ha (Nat.succ_ne_zero k)]
      rfl

end Cert.KernelIdeal.Lap

end
-- ==== Proof.KiDat1.lean ====
/-
  The second launch's proof data, its invariant, and the body obligation at every tile.

  The invariant before tile `n` holds the launch's accumulator scratch at SOME contents `d`, known to be what tile
  `n − 1` left (`acc1`) once a tile has run, beside the core's other scoped buffers and its generator register,
  which the body does not touch. Before the first tile that is the pipeline's class invariant with the scratch
  singled out (`Phi1_zero`), and after the last tile it gives the class invariant back (`Phi1_out`).
  After a tile the three input windows hold their blocks as fetched and the output window, at a group's last tile,
  the accumulator spread over the block; at the other tiles the output window is idle and its buffer goes back as
  it came.
-/
import proofs.«428723_j14027363188886_4_alg».proof.Proof.KiAcc1
import proofs.«428723_j14027363188886_4_alg».proof.Proof.Gen.KernelIdeal.Skeleton
import proofs.«428723_j14027363188886_4_alg».proof.Proof.Gen.KernelIdeal.Launch
import proofs.«428723_j14027363188886_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Lap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator's scratch buffer, whole. -/
abbrev scr1 : Memref sig .tc .vmem S1x1 .f32 := Memref.whole cc1_scratch0

/-- The core's scoped buffers that are neither this launch's staging buffers nor its scratch, each whole at some
    contents: the other launch's staging buffers and scratch. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant of the launch gives the accumulator's scratch, singled out, beside the rest … -/
theorem PhiA1_fwd (c : Dev nD) :
    (Pipeline.ΦA spec1 c : sProp 𝕄)
      ⊢ iprop(((∃ f : Buf (Elt F) ((c : Thread nD τ).loc cc1_scratch0), ((c : Thread nD τ).loc cc1_scratch0) ↦{fullShare} f) ∗ others1 (F := F) c) ∗ ∃ r, prngReg c r) := by
  unfold Pipeline.ΦA others1; rw [scopedRest1_eq]
  iintro ⟨⟨H1, H2, H3, H4, H5, H6, H7, H8, H9, HS⟩, Hp⟩
  isplitr [Hp]
  swap; · iexact Hp
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
/-- … and is made of them again. -/
theorem PhiA1_bwd (c : Dev nD) :
    iprop(((∃ f : Buf (Elt F) ((c : Thread nD τ).loc cc1_scratch0), ((c : Thread nD τ).loc cc1_scratch0) ↦{fullShare} f) ∗ others1 (F := F) c) ∗ ∃ r, prngReg c r)
      ⊢ (Pipeline.ΦA spec1 c : sProp 𝕄) := by
  unfold others1 Pipeline.ΦA; rw [scopedRest1_eq]
  iintro ⟨⟨HS, H1, H2, H3, H4, H5, H6, H7, H8, H9⟩, Hp⟩
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HS

/-- THE INVARIANT before tile `n`: the scratch at contents that are the previous tile's accumulator once a tile
    has run; the rest untouched. -/
def Phi1 (c : Dev nD) (n : ℕ) (hn : n ≤ cfg1.N) : sProp 𝕄 :=
  iprop(((∃ d : Vec F S1x1 .f32, ⌜∀ h : n ≠ 0, d = acc1 V c (n - 1) (by omega)⌝ ∗ owns (c : Thread nD τ) scr1 fullShare d) ∗ others1 (F := F) c) ∗ ∃ r, prngReg c r)

/-- Before the first tile the invariant is the class invariant. -/
theorem Phi1_zero (c : Dev nD) : (Pipeline.ΦA spec1 c : sProp 𝕄) ⊢ Phi1 V c 0 (Nat.zero_le _) := by
  refine (PhiA1_fwd c).trans ?_
  unfold Phi1 scr1; simp only [owns_whole]
  iintro ⟨⟨⟨%f, Hs⟩, Ho⟩, Hp⟩
  isplitr [Hp]
  swap; · iexact Hp
  isplitr [Ho]
  swap; · iexact Ho
  iexists f; isplitr
  · ipureintro; exact fun h => absurd rfl h
  · iexact Hs

/-- At any tile count it gives the class invariant back. -/
theorem Phi1_out (c : Dev nD) (n : ℕ) (hn : n ≤ cfg1.N) : Phi1 V c n hn ⊢ (Pipeline.ΦA spec1 c : sProp 𝕄) := by
  refine BIBase.Entails.trans ?_ (PhiA1_bwd c)
  unfold Phi1 scr1; simp only [owns_whole]
  iintro ⟨⟨⟨%d, -, Hs⟩, Ho⟩, Hp⟩
  isplitr [Hp]
  swap; · iexact Hp
  isplitr [Ho]
  swap; · iexact Ho
  iexists d; iexact Hs

/-- THE PROOF DATA of the launch on core `c`: the arrays as the launch finds them; after a tile the inputs at
    their blocks and the output at the accumulator spread over its block; the invariant `Phi1`; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (k1_pay3 (acc1 V c t.val t.isLt) : Vec F S1x8x128 .f32)
  Φ t := Phi1 V c t.val (Nat.le_of_lt_succ t.isLt)
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = (k1_pay3 (acc1 V c t.val t.isLt) : Vec F S1x8x128 .f32) := by dsimp only [dat1]

/-- An input window, fetched at every tile and uncut, is handed to the body at its block. -/
theorem dat1_before0 (c : Dev nD) (t : Fin cfg1.N) (d) : (dat1 V c).before 0 t d = blk1 V c 0 t :=
  ((dat1 V c).before_fetched 0 t (fetch1_0 t) d).trans (by unfold Dat.fetched Dat.blockOf blk1; rw [dat1_A]; rfl)
theorem dat1_before1 (c : Dev nD) (t : Fin cfg1.N) (d) : (dat1 V c).before 1 t d = blk1 V c 1 t :=
  ((dat1 V c).before_fetched 1 t (fetch1_1 t) d).trans (by unfold Dat.fetched Dat.blockOf blk1; rw [dat1_A]; rfl)
theorem dat1_before2 (c : Dev nD) (t : Fin cfg1.N) (d) : (dat1 V c).before 2 t d = blk1 V c 2 t :=
  ((dat1 V c).before_fetched 2 t (fetch1_2 t) d).trans (by unfold Dat.fetched Dat.blockOf blk1; rw [dat1_A]; rfl)

/-- The output window is idle exactly where the body does not write it: everywhere but a group's last tile. -/
theorem idle1_out_last (t : Fin cfg1.N) (h : isLast1 (grid1.coords t)) : idle1 3 (grid1.coords t) = false := by
  show (!(k1_cond2 (grid1.coords t) == 1#1)) = false
  rw [show k1_cond2 (grid1.coords t) = 1#1 from h]; rfl
theorem idle1_out_idle (t : Fin cfg1.N) (h : ¬ isLast1 (grid1.coords t)) : idle1 3 (grid1.coords t) = true := by
  show (!(k1_cond2 (grid1.coords t) == 1#1)) = true
  rw [Bool.not_eq_true', beq_eq_false_iff_ne]; exact h

/-- What the obligation says of the output window's buffer after the body: the library's case table, written
    out — idle and not written back: as it was handed over; otherwise: at `after`. -/
def outLeaves1 (c : Dev nD) (t : Fin cfg1.N) : sProp 𝕄 :=
  match cfg1.idle 3 (grid1.coords t) with
  | true =>
    match (cfg1.win 3).flush t with
    | false => iprop(∃ d, owns (c : Thread nD τ) (st1_3 t) fullShare ((dat1 V c).before 3 t d))
    | true => owns (c : Thread nD τ) (st1_3 t) fullShare ((dat1 V c).after 3 t)
  | false => owns (c : Thread nD τ) (st1_3 t) fullShare ((dat1 V c).after 3 t)

theorem outLeaves1_last (c : Dev nD) (t : Fin cfg1.N) (h : isLast1 (grid1.coords t)) :
    outLeaves1 V c t = owns (c : Thread nD τ) (st1_3 t) fullShare ((dat1 V c).after 3 t) := by
  have hi : idle1 3 (grid1.coords t) = false := idle1_out_last t h
  unfold outLeaves1
  split
  next heq => rw [show cfg1.idle 3 (grid1.coords t) = false from hi] at heq; exact absurd heq (by decide)
  next heq => rfl

theorem outLeaves1_idle (c : Dev nD) (t : Fin cfg1.N) (h : ¬ isLast1 (grid1.coords t)) :
    outLeaves1 V c t = iprop(∃ d, owns (c : Thread nD τ) (st1_3 t) fullShare ((dat1 V c).before 3 t d)) := by
  have hi : idle1 3 (grid1.coords t) = true := idle1_out_idle t h
  have hf : (win1 3).flush t = false := by
    rw [Bool.eq_false_iff]; intro hfl
    exact h ((isLast1_iff t).mpr ((flush1_3 t).mp hfl))
  unfold outLeaves1
  split
  next heq =>
    split
    next hfl => rfl
    next hfl => rw [show (cfg1.win 3).flush t = false from hf] at hfl; exact absurd hfl (by decide)
  next heq => rw [show cfg1.idle 3 (grid1.coords t) = true from hi] at heq; exact absurd heq (by decide)

set_option maxHeartbeats 1000000 in
/-- THE BODY AT A TILE. The invariant hands the body the accumulator at what the tile before left (at anything,
    at the very first tile); the inputs are at their blocks; the body's triple applies; the accumulator comes back at
    `accNext1`, which is `acc1` at this tile by the recursion's own equation, and the output window comes back at the
    accumulator spread over the block at a group's last tile, untouched otherwise. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ outLeaves1 V c t)) := by
  simp only [dat1_before0, dat1_before1, dat1_before2, dat1_after0, dat1_after1, dat1_after2]
  rw [show (dat1 V c).Φ t.castSucc = Phi1 V c t.val (Nat.le_of_lt t.isLt) from rfl,
    show (dat1 V c).Φ t.succ = Phi1 V c (t.val + 1) t.isLt from rfl,
    show (dat1 V c).owesAt () t.succ = (dat1 V c).owesAt () t.castSucc from rfl]
  unfold Phi1 bodyAt1
  iintro ⟨⟨⟨⟨%a, %ha, Hs⟩, Ho⟩, Hp⟩, Howe, ⟨%d0, H0⟩, ⟨%d1, H1⟩, ⟨%d2, H2⟩, ⟨%d3, H3⟩⟩
  iapply (body1 c Set.univ (grid1.coords t) _ _ _ _ _ _ _ _ _ _ (nbrBlk1 V c t) (crdBlk1 V c t) (cntBlk1 V c t)
    ((dat1 V c).before 3 t d3) a _)
  isplitl [H0]; · iexact H0
  isplitl [H1]; · iexact H1
  isplitl [H2]; · iexact H2
  isplitl [H3]; · iexact H3
  isplitl [Hs]; · iexact Hs
  iintro ⟨H0, H1, H2, H3, Hs⟩
  have hstep := acc1_step V c t a (fun h => ha h)
  isplitl [Hs Ho Hp]
  · isplitr [Hp]
    swap; · iexact Hp
    isplitr [Ho]
    swap; · iexact Ho
    iexists _; isplitr
    swap; · iexact Hs
    ipureintro
    exact fun _ => hstep
  isplitl [Howe]; · iexact Howe
  isplitl [H0]; · iexact H0
  isplitl [H1]; · iexact H1
  isplitl [H2]; · iexact H2
  by_cases hL : isLast1 (grid1.coords t)
  · rw [outLeaves1_last V c t hL, dat1_after3, ← hstep, ← outNext1_last hL]
    iexact H3
  · rw [outLeaves1_idle V c t hL]
    iexists d3
    rw [outNext1_idle hL]
    iexact H3

/-- The library's body obligation, at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Lap

end
-- ==== Proof.KiVals.lean ====
/-
  The two launches' entry contents, named: what core `c`'s buffers hold when the first launch is entered (after the
  seven host stretches before it) and when the second is (after the first launch's result and seven more stretches),
  read at the TensorCore's references.
-/
import proofs.«428723_j14027363188886_4_alg».proof.Proof.Gen.KernelIdeal.Regions

noncomputable section

namespace Cert.KernelIdeal.Lap

open Cert.KernelIdeal Cert.KernelIdeal.Gen Idealize.ShloMosaic Idealize.ShloMosaic.TcCoe Idealize.SL.Sem

variable {F : FTy → Type} [FloatOps F]

/-- Core `c`'s buffers when the first launch is entered. -/
abbrev VR7 (m : (ℓ : Loc nD τ sig) → Buf (Elt F) ℓ) : (c : Dev nD) → (b : Ref sig .tc) → Buf (Elt F) ((c : Thread nD τ).loc b) :=
  fun c b => V7 m c b
/-- Core `c`'s buffers when the second launch is entered, the first launch's result being `outs 8 main_v40`. -/
abbrev VR15 (m : (ℓ : Loc nD τ sig) → Buf (Elt F) ℓ) (outs : Outs (F := F)) : (c : Dev nD) → (b : Ref sig .tc) → Buf (Elt F) ((c : Thread nD τ).loc b) :=
  fun c b => V15 m outs c b

end Cert.KernelIdeal.Lap

end
-- ==== Proof.KiHost.lean ====
/-
  What the idealized kernel program's host operations compute around its two regions, read at an index: the three
  operands each region reads (two neighbour sums, two position arrays, and a count, transposed to rows and padded
  along the columns), the two neighbour sums as the reference's own host chain applied to the same arrays, and the
  scalar tails (each region's two partial sums added and divided by the node count, the two means averaged).
-/
import proofs.«428723_j14027363188886_4_alg».proof.Proof.Gen.KernelIdeal.Regions
import proofs.«428723_j14027363188886_4_alg».proof.Proof.Gen.ReferenceIdeal.Read
import Idealize.ShloMosaic.Lib.ValueIdx
import Idealize.ShloMosaic.Lib.ValueIdxRank1
import Idealize.ShloMosaic.Lib.Pipeline.Value
import Idealize.ShloMosaic.Lib.ValueLayout
import Idealize.ShloMosaic.Lib.IdealHost
import Idealize.ShloMosaic.PureOps.Ideal.Laws
import Idealize.ShloMosaic.Lib.StableHlo.Run

set_option maxRecDepth 4096

noncomputable section

namespace Cert.KernelIdeal.LapHost

open Cert.KernelIdeal Cert.KernelIdeal.Gen Idealize.ShloMosaic Idealize.ShloMosaic.ValueIdx Idealize.ShloMosaic.TcCoe Idealize.ShloMosaic.StableHlo

variable (m : (ℓ : Loc nD τ sig) → Buf (Elt Ideal) ℓ) (outs : Outs (F := Ideal)) (c : Dev nD)

/-! ## The tails: the mean of a region's two partial sums, and the two means combined -/

/-- What region 0 leaves in its result array on core `c`, as an array of extended reals. -/
abbrev out0 : S2x8x128.Idx → EReal := outs 8 main_v40 c
/-- What region 1 leaves in its result array on core `c`, as an array of extended reals. -/
abbrev out1 : S2x8x128.Idx → EReal := outs 16 main_v85 c

/-- Entry `k` of the pair cut out of a [2, 8, 128] array at its corner (·, 0, 0). -/
theorem corner_apply (x : S2x8x128.Idx → EReal) (k : Fin 2) :
    shapeCast S2 (extractStridedSlice S2x1x1 ![0, 0, 0] x slices_S2x8x128_S2x1x1_0_0_0) shapeCasts_S2x1x1_S2 (ix1 k)
      = x (ix3 k (0 : Fin 8) (0 : Fin 128)) := by
  refine (shapeCast_apply _ shapeCasts_S2x1x1_S2 (ix1 k) (ix3 k (0 : Fin 1) (0 : Fin 1)) ?_).trans ?_
  · rw [Shape.rowMajor_val_three, Shape.rowMajor_val_one]
    show (k.val * 1 + 0) * 1 + 0 = k.val
    omega
  · exact extractStridedSlice_apply ![0, 0, 0] x slices_S2x8x128_S2x1x1_0_0_0 (ix3 k (0 : Fin 1) (0 : Fin 1))
      (ix3 k (0 : Fin 8) (0 : Fin 128)) (fun a => match a with
        | ⟨0, _⟩ => by show k.val = 0 + k.val; omega
        | ⟨1, _⟩ => by show 0 = 0 + 0; omega
        | ⟨2, _⟩ => by show 0 = 0 + 0; omega)

/-- The host sum of the corner pair of a [2, 8, 128] array, from zero, divided by a constant. -/
theorem corner_mean (x : S2x8x128.Idx → EReal) (w : BitVec 32) :
    Host.divf (F := Ideal)
      (Host.reduceAdd (F := Ideal)
        (fun i => shapeCast S2 (extractStridedSlice S2x1x1 ![0, 0, 0] x slices_S2x8x128_S2x1x1_0_0_0) shapeCasts_S2x1x1_S2 i)
        (constant (F := Ideal) S_ .f32 0x00000000#32) reducesTo_S2_S_d0 h_S_)
      (constant (F := Ideal) S_ .f32 w) ix0
      = Ideal.div (x (ix3 (0 : Fin 2) (0 : Fin 8) (0 : Fin 128)) + x (ix3 (1 : Fin 2) (0 : Fin 8) (0 : Fin 128))) (Ideal.ofBits .f32 w) := by
  rw [hostDivf_apply, constant_apply, hostReduceAdd_apply, constant_apply,
    Ideal.hostReduceAdd_total reducesTo_S2_S_d0 (fun b => b.elim0), Ideal.ofBits_zero_f32, zero_add]
  refine congrArg (Ideal.div · _) ?_
  refine (Equiv.sum_comp (idxEquiv1 (n := 2)).symm _).symm.trans ?_
  refine (Fin.sum_univ_two _).trans ?_
  exact congrArg₂ (· + ·) (corner_apply x 0) (corner_apply x 1)

/-- The coarse mean: the two partial sums region 0 leaves at (0,0,0) and (1,0,0), added and divided by 500000. -/
theorem v44_eq :
    (V9 m outs c main_v44 : S_.Idx → EReal) ix0
      = Ideal.div (out0 outs c (ix3 (0 : Fin 2) (0 : Fin 8) (0 : Fin 128)) + out0 outs c (ix3 (1 : Fin 2) (0 : Fin 8) (0 : Fin 128)))
        (Ideal.ofBits .f32 0x48F42400#32) := by
  show StableHlo.after hostOps1 (V8 m outs c) (Proc.devRef .tc main_v44) ix0 = _
  after_results
  have e : (V8 m outs c (Proc.devRef .tc main_v40) : S2x8x128.Idx → EReal) = out0 outs c := Function.update_self ..
  rw [e]
  exact corner_mean _ _

/-- The coarse mean is still in its buffer when the fine region has run: no later host stretch, and neither region, writes it. -/
theorem V16_v44 : V16 m outs c main_v44 = V9 m outs c main_v44 := by
  rw [V16_of m outs c main_v44 (by decide), V15_of m outs c main_v44 (by decide), V14_of m outs c main_v44 (by decide),
    V13_of m outs c main_v44 (by decide), V12_of m outs c main_v44 (by decide), V11_of m outs c main_v44 (by decide),
    V10_of m outs c main_v44 (by decide)]

/-- The result: half the coarse mean plus half the fine mean, the fine mean being the two partial sums region 1 leaves
    at (0,0,0) and (1,0,0), added and divided by 2000000. -/
theorem v92_eq :
    (V17 m outs c main_v92 : S_.Idx → EReal) ix0
      = Ideal.ofBits .f32 0x3F000000#32
          * Ideal.div (out0 outs c (ix3 (0 : Fin 2) (0 : Fin 8) (0 : Fin 128)) + out0 outs c (ix3 (1 : Fin 2) (0 : Fin 8) (0 : Fin 128)))
              (Ideal.ofBits .f32 0x48F42400#32)
        + Ideal.ofBits .f32 0x3F000000#32
          * Ideal.div (out1 outs c (ix3 (0 : Fin 2) (0 : Fin 8) (0 : Fin 128)) + out1 outs c (ix3 (1 : Fin 2) (0 : Fin 8) (0 : Fin 128)))
              (Ideal.ofBits .f32 0x49F42400#32) := by
  show StableHlo.after hostOps2 (V16 m outs c) (Proc.devRef .tc main_v92) ix0 = _
  after_results
  have e : (V16 m outs c (Proc.devRef .tc main_v85) : S2x8x128.Idx → EReal) = out1 outs c := Function.update_self ..
  have e44 : (V16 m outs c (Proc.devRef .tc main_v44) : S_.Idx → EReal) = V9 m outs c main_v44 := V16_v44 m outs c
  rw [e, e44, addf_apply, mulf_apply, mulf_apply]
  show Ideal.ofBits .f32 0x3F000000#32 * _ + Ideal.ofBits .f32 0x3F000000#32 * _ = _
  refine congrArg₂ (· + ·) (congrArg (_ * ·) (v44_eq m outs c)) (congrArg (_ * ·) ?_)
  exact corner_mean _ _

/-! ## The coarse region's three operands read at an index -/

/-- The argument arrays on core `c`. -/
abbrev A0 : S500000x3.Idx → EReal := m ((c : Thread nD τ).loc main_arg0)
abbrev A1 : S500000x3.Idx → EReal := m ((c : Thread nD τ).loc main_arg1)
abbrev A2 : S2000000x3.Idx → EReal := m ((c : Thread nD τ).loc main_arg2)
abbrev A3 : S2000000x3.Idx → EReal := m ((c : Thread nD τ).loc main_arg3)
abbrev A4 : S500000x10.Idx → BitVec 32 := m ((c : Thread nD τ).loc main_arg4)
abbrev A5 : S2000000x10.Idx → BitVec 32 := m ((c : Thread nD τ).loc main_arg5)

section CoarseLayout
variable {α : Type}

/-- Two [500000, 3] arrays transposed and stacked as the six rows of a [6, 501760] array whose columns from 500000 on
    hold a scalar: left of column 500000, row `r` column `j` is the first array at (j, r) for r < 3, the second at (j, r - 3) otherwise. -/
theorem rows6c_lo (a b : S500000x3.Idx → α) (z : S_.Idx → α) (r : Fin 6) (j : Fin 501760) (hj : j.val < 500000) :
    concatenate S6x501760 1 [⟨S6x500000, concatenate S6x500000 0 [⟨S3x500000, transpose S3x500000 [1, 0] a transposes_S500000x3_S3x500000_1_0⟩,
        ⟨S3x500000, transpose S3x500000 [1, 0] b transposes_S500000x3_S3x500000_1_0⟩] concatenates_S3x500000_S3x500000_S6x500000_d0⟩,
      ⟨S6x1760, broadcastInDim S6x1760 ![] bcast_S_S6x1760 z⟩] concatenates_S6x500000_S6x1760_S6x501760_d1 (ix2 r j)
      = if h : r.val < 3 then a (ix2 (⟨j.val, hj⟩ : Fin 500000) (⟨r.val, h⟩ : Fin 3))
        else b (ix2 (⟨j.val, hj⟩ : Fin 500000) (⟨r.val - 3, by have := r.isLt; omega⟩ : Fin 3)) := by
  refine (concatenate_pair_apply_left (t := S6x501760) (s₁ := S6x500000) (s₂ := S6x1760) 1 _ _ concatenates_S6x500000_S6x1760_S6x501760_d1 (ix2 r j) rfl
    (ix2 r (⟨j.val, hj⟩ : Fin 500000)) (fun b => match b with | ⟨0, _⟩ => rfl | ⟨1, _⟩ => rfl)).trans ?_
  by_cases h : r.val < 3
  · rw [dif_pos h]
    refine (concatenate_pair_apply_left (t := S6x500000) (s₁ := S3x500000) (s₂ := S3x500000) 0 _ _ concatenates_S3x500000_S3x500000_S6x500000_d0 (ix2 r (⟨j.val, hj⟩ : Fin 500000)) rfl
      (ix2 (⟨r.val, h⟩ : Fin 3) (⟨j.val, hj⟩ : Fin 500000)) (fun b => match b with | ⟨0, _⟩ => rfl | ⟨1, _⟩ => rfl)).trans ?_
    exact transpose_apply [1, 0] a transposes_S500000x3_S3x500000_1_0 _ (ix2 (⟨j.val, hj⟩ : Fin 500000) (⟨r.val, h⟩ : Fin 3))
      (fun b => match b with | ⟨0, _⟩ => rfl | ⟨1, _⟩ => rfl)
  · rw [dif_neg h]
    have h3 : r.val - 3 < 3 := by have := r.isLt; omega
    refine (concatenate_pair_apply_right (t := S6x500000) (s₁ := S3x500000) (s₂ := S3x500000) 0 _ _ concatenates_S3x500000_S3x500000_S6x500000_d0 (ix2 r (⟨j.val, hj⟩ : Fin 500000)) rfl rfl
      (ix2 (⟨r.val - 3, h3⟩ : Fin 3) (⟨j.val, hj⟩ : Fin 500000))
      (by intro b hb; match b with | ⟨0, _⟩ => exact absurd rfl hb | ⟨1, _⟩ => rfl)
      (by show (r.val - 3) + 3 = r.val; omega)).trans ?_
    exact transpose_apply [1, 0] b transposes_S500000x3_S3x500000_1_0 _ (ix2 (⟨j.val, hj⟩ : Fin 500000) (⟨r.val - 3, h3⟩ : Fin 3))
      (fun b => match b with | ⟨0, _⟩ => rfl | ⟨1, _⟩ => rfl)

/-- The same array from column 500000 on is the scalar. -/
theorem rows6c_hi (x : S6x500000.Idx → α) (z : S_.Idx → α) (r : Fin 6) (j : Fin 501760) (hj : 500000 ≤ j.val) :
    concatenate S6x501760 1 [⟨S6x500000, x⟩, ⟨S6x1760, broadcastInDim S6x1760 ![] bcast_S_S6x1760 z⟩]
      concatenates_S6x500000_S6x1760_S6x501760_d1 (ix2 r j) = z ix0 := by
  obtain ⟨q, hq⟩ : ∃ q : Fin 1760, q.val + 500000 = j.val :=
    ⟨⟨j.val - 500000, by have := j.isLt; omega⟩, Nat.sub_add_cancel hj⟩
  refine (concatenate_pair_apply_right (t := S6x501760) (s₁ := S6x500000) (s₂ := S6x1760) 1 _ _ concatenates_S6x500000_S6x1760_S6x501760_d1 (ix2 r j) rfl rfl
    (ix2 r q)
    (by intro b hb; match b with | ⟨0, _⟩ => rfl | ⟨1, _⟩ => exact absurd rfl hb)
    hq).trans ?_
  exact broadcastInDim_scalar_apply bcast_S_S6x1760 z _

end CoarseLayout

/-- Column 9 of a [500000, 10] integer array as a row of floats, padded to 501760 columns by a scalar: left of column 500000. -/
theorem cntc_lo (x : S500000x10.Idx → BitVec 32) (z : S_.Idx → EReal) (j : Fin 501760) (hj : j.val < 500000) :
    concatenate S1x501760 1 [⟨S1x500000, broadcastInDim S1x500000 ![1] bcast_S500000_S1x500000_1
        (sitofp (F := Ideal) .f32 (fun i => shapeCast S500000 (extractStridedSlice S500000x1 ![0, 9] x slices_S500000x10_S500000x1_0_9) shapeCasts_S500000x1_S500000 i))⟩,
      ⟨S1x1760, broadcastInDim S1x1760 ![] bcast_S_S1x1760 z⟩] concatenates_S1x500000_S1x1760_S1x501760_d1 (ix2 (0 : Fin 1) j)
      = (((x (ix2 (⟨j.val, hj⟩ : Fin 500000) (9 : Fin 10))).toInt : ℝ) : EReal) := by
  refine (concatenate_pair_apply_left (t := S1x501760) (s₁ := S1x500000) (s₂ := S1x1760) 1 _ _ concatenates_S1x500000_S1x1760_S1x501760_d1 (ix2 (0 : Fin 1) j) rfl
    (ix2 (0 : Fin 1) (⟨j.val, hj⟩ : Fin 500000)) (fun b => match b with | ⟨0, _⟩ => rfl | ⟨1, _⟩ => rfl)).trans ?_
  refine (broadcastInDim_apply _ bcast_S500000_S1x500000_1 _ _ (ix1 (⟨j.val, hj⟩ : Fin 500000)) (fun a => match a with
    | ⟨0, _⟩ => by show j.val = if (500000 : Nat) = 1 then 0 else j.val; rw [if_neg (by decide)])).trans ?_
  rw [sitofp_apply]
  show (((shapeCast S500000 (extractStridedSlice S500000x1 ![0, 9] x slices_S500000x10_S500000x1_0_9) shapeCasts_S500000x1_S500000
    (ix1 (⟨j.val, hj⟩ : Fin 500000))).toInt : ℝ) : EReal) = _
  refine congrArg (fun w : BitVec 32 => ((w.toInt : ℝ) : EReal)) ?_
  refine (shapeCast_apply _ shapeCasts_S500000x1_S500000 _ (ix2 (⟨j.val, hj⟩ : Fin 500000) (0 : Fin 1)) ?_).trans ?_
  · rw [Shape.rowMajor_val_two, Shape.rowMajor_val_one]
    show j.val * 1 + 0 = j.val
    omega
  · exact extractStridedSlice_apply ![0, 9] x slices_S500000x10_S500000x1_0_9 _ (ix2 (⟨j.val, hj⟩ : Fin 500000) (9 : Fin 10))
      (fun a => match a with
        | ⟨0, _⟩ => by show j.val = 0 + j.val; omega
        | ⟨1, _⟩ => by show 9 = 9 + 0; omega)

/-- The same row from column 500000 on is the scalar. -/
theorem cntc_hi {α : Type} (x : S1x500000.Idx → α) (z : S_.Idx → α) (j : Fin 501760) (hj : 500000 ≤ j.val) :
    concatenate S1x501760 1 [⟨S1x500000, x⟩, ⟨S1x1760, broadcastInDim S1x1760 ![] bcast_S_S1x1760 z⟩]
      concatenates_S1x500000_S1x1760_S1x501760_d1 (ix2 (0 : Fin 1) j) = z ix0 := by
  obtain ⟨q, hq⟩ : ∃ q : Fin 1760, q.val + 500000 = j.val :=
    ⟨⟨j.val - 500000, by have := j.isLt; omega⟩, Nat.sub_add_cancel hj⟩
  refine (concatenate_pair_apply_right (t := S1x501760) (s₁ := S1x500000) (s₂ := S1x1760) 1 _ _ concatenates_S1x500000_S1x1760_S1x501760_d1 (ix2 (0 : Fin 1) j) rfl rfl
    (ix2 (0 : Fin 1) q)
    (by intro b hb; match b with | ⟨0, _⟩ => rfl | ⟨1, _⟩ => exact absurd rfl hb)
    hq).trans ?_
  exact broadcastInDim_scalar_apply bcast_S_S1x1760 z _

/-- The first neighbour sum is not touched by the last coarse host stretch. -/
theorem V7_v13 : (V7 m c main_v13 : S500000x3.Idx → EReal) = V6 m c main_v13 := V7_of m c main_v13 (by decide)

/-- The second neighbour sum is the last coarse host stretch's first result. -/
theorem V7_v23 : (V7 m c main_v23 : S500000x3.Idx → EReal)
    = Host.reduceAdd (F := Ideal) (V6 m c main_v22 : S500000x8x3.Idx → EReal) (constant (F := Ideal) S_ .f32 0x00000000#32)
        reducesTo_S500000x8x3_S500000x3_d1 h_S_ := by
  show StableHlo.after hostOps0_6 (V6 m c) (Proc.devRef .tc main_v23) = _
  generalize V6 m c = W
  after_results

/-- The argument arrays as the last coarse host stretch reads them. -/
theorem V6_arg0 : (V6 m c main_arg0 : S500000x3.Idx → EReal) = A0 m c :=
  (V6_of m c main_arg0 (by decide)).trans <| (V5_of m c main_arg0 (by decide)).trans <| (V4_of m c main_arg0 (by decide)).trans <|
    (V3_of m c main_arg0 (by decide)).trans <| (V2_of m c main_arg0 (by decide)).trans <| (V1_of m c main_arg0 (by decide))
theorem V6_arg1 : (V6 m c main_arg1 : S500000x3.Idx → EReal) = A1 m c :=
  (V6_of m c main_arg1 (by decide)).trans <| (V5_of m c main_arg1 (by decide)).trans <| (V4_of m c main_arg1 (by decide)).trans <|
    (V3_of m c main_arg1 (by decide)).trans <| (V2_of m c main_arg1 (by decide)).trans <| (V1_of m c main_arg1 (by decide))
theorem V6_arg4 : (V6 m c main_arg4 : S500000x10.Idx → BitVec 32) = A4 m c :=
  (V6_of m c main_arg4 (by decide)).trans <| (V5_of m c main_arg4 (by decide)).trans <| (V4_of m c main_arg4 (by decide)).trans <|
    (V3_of m c main_arg4 (by decide)).trans <| (V2_of m c main_arg4 (by decide)).trans <| (V1_of m c main_arg4 (by decide))

/-- Row `r`, column `j` of the coarse neighbour-sum operand, left of column 500000. -/
theorem v35_lo (r : Fin 6) (j : Fin 501760) (hj : j.val < 500000) :
    (V7 m c main_v35 : S6x501760.Idx → EReal) (ix2 r j)
      = if h : r.val < 3 then (V7 m c main_v13 : S500000x3.Idx → EReal) (ix2 (⟨j.val, hj⟩ : Fin 500000) (⟨r.val, h⟩ : Fin 3))
        else (V7 m c main_v23 : S500000x3.Idx → EReal) (ix2 (⟨j.val, hj⟩ : Fin 500000) (⟨r.val - 3, by have := r.isLt; omega⟩ : Fin 3)) := by
  rw [V7_v13, V7_v23]
  show StableHlo.after hostOps0_6 (V6 m c) (Proc.devRef .tc main_v35) (ix2 r j) = _
  generalize V6 m c = W
  after_results
  exact rows6c_lo _ _ _ r j hj

/-- The coarse neighbour-sum operand from column 500000 on is zero. -/
theorem v35_hi (r : Fin 6) (j : Fin 501760) (hj : 500000 ≤ j.val) :
    (V7 m c main_v35 : S6x501760.Idx → EReal) (ix2 r j) = (0 : EReal) := by
  show StableHlo.after hostOps0_6 (V6 m c) (Proc.devRef .tc main_v35) (ix2 r j) = _
  generalize V6 m c = W
  after_results
  refine (rows6c_hi _ _ r j hj).trans ?_
  exact Ideal.ofBits_zero_f32

/-- Row `r`, column `j` of the coarse position operand, left of column 500000. -/
theorem v37_lo (r : Fin 6) (j : Fin 501760) (hj : j.val < 500000) :
    (V7 m c main_v37 : S6x501760.Idx → EReal) (ix2 r j)
      = if h : r.val < 3 then A0 m c (ix2 (⟨j.val, hj⟩ : Fin 500000) (⟨r.val, h⟩ : Fin 3))
        else A1 m c (ix2 (⟨j.val, hj⟩ : Fin 500000) (⟨r.val - 3, by have := r.isLt; omega⟩ : Fin 3)) := by
  show StableHlo.after hostOps0_6 (V6 m c) (Proc.devRef .tc main_v37) (ix2 r j) = _
  have h0 := V6_arg0 m c
  have h1 := V6_arg1 m c
  generalize V6 m c = W at h0 h1 ⊢
  after_results
  rw [h0, h1]
  exact rows6c_lo _ _ _ r j hj

/-- The coarse position operand from column 500000 on is zero. -/
theorem v37_hi (r : Fin 6) (j : Fin 501760) (hj : 500000 ≤ j.val) :
    (V7 m c main_v37 : S6x501760.Idx → EReal) (ix2 r j) = (0 : EReal) := by
  show StableHlo.after hostOps0_6 (V6 m c) (Proc.devRef .tc main_v37) (ix2 r j) = _
  generalize V6 m c = W
  after_results
  refine (rows6c_hi _ _ r j hj).trans ?_
  exact Ideal.ofBits_zero_f32

/-- Column `j` of the coarse count operand, left of column 500000: the count column of the table, as a real. -/
theorem v39_lo (j : Fin 501760) (hj : j.val < 500000) :
    (V7 m c main_v39 : S1x501760.Idx → EReal) (ix2 (0 : Fin 1) j)
      = (((A4 m c (ix2 (⟨j.val, hj⟩ : Fin 500000) (9 : Fin 10))).toInt : ℝ) : EReal) := by
  show StableHlo.after hostOps0_6 (V6 m c) (Proc.devRef .tc main_v39) (ix2 (0 : Fin 1) j) = _
  have h4 := V6_arg4 m c
  generalize V6 m c = W at h4 ⊢
  after_results
  rw [h4]
  exact cntc_lo _ _ j hj

/-- The coarse count operand from column 500000 on is one. -/
theorem v39_hi (j : Fin 501760) (hj : 500000 ≤ j.val) :
    (V7 m c main_v39 : S1x501760.Idx → EReal) (ix2 (0 : Fin 1) j) = (1 : EReal) := by
  show StableHlo.after hostOps0_6 (V6 m c) (Proc.devRef .tc main_v39) (ix2 (0 : Fin 1) j) = _
  generalize V6 m c = W
  after_results
  refine (cntc_hi _ _ j hj).trans ?_
  exact Ideal.ofBits_one_f32

/-! ## The neighbour sums are the reference's: the two programs apply the same host operations to the same arrays -/

section SharedChainCoarse

/-- In the reference the second coordinate's chain recomputes the first's mask and masked index table. -/
theorem ref_v23 (x4 : S500000x10.Idx → BitVec 32) :
    Cert.ReferenceIdeal.Read.val_main_v23 (F := Ideal) x4 = Cert.ReferenceIdeal.Read.val_main_v2 (F := Ideal) x4 := rfl
theorem ref_v24 (x4 : S500000x10.Idx → BitVec 32) :
    Cert.ReferenceIdeal.Read.val_main_v24 (F := Ideal) x4 = Cert.ReferenceIdeal.Read.val_main_v3 (F := Ideal) x4 := rfl

theorem V1_v0 : (V1 m c main_v0 : S500000x8.Idx → BitVec 32) = Cert.ReferenceIdeal.Read.val_main_v0 (F := Ideal) (A4 m c) := by
  show StableHlo.after hostOps0 (V0 m c) (Proc.devRef .tc main_v0) = _
  after_results
  rfl
theorem V1_v2 : (V1 m c main_v2 : S500000x8.Idx → BitVec 1) = Cert.ReferenceIdeal.Read.val_main_v2 (F := Ideal) (A4 m c) := by
  show StableHlo.after hostOps0 (V0 m c) (Proc.devRef .tc main_v2) = _
  after_results
  rfl
theorem V1_c0 : (V1 m c main_c_0 : S_.Idx → BitVec 32) = Cert.ReferenceIdeal.Read.val_main_c_0 (F := Ideal) := by
  show StableHlo.after hostOps0 (V0 m c) (Proc.devRef .tc main_c_0) = _
  after_results
  rfl

theorem V2_v3 : (V2 m c main_v3 : S500000x8.Idx → BitVec 32) = Cert.ReferenceIdeal.Read.val_main_v3 (F := Ideal) (A4 m c) := by
  show StableHlo.after hostOps0_1 (V1 m c) (Proc.devRef .tc main_v3) = _
  have h0 := V1_v0 m c
  have h2 := V1_v2 m c
  have hc := V1_c0 m c
  generalize V1 m c = W at h0 h2 hc ⊢
  after_results
  rw [h0, h2, hc]
  rfl
theorem V2_v2 : (V2 m c main_v2 : S500000x8.Idx → BitVec 1) = Cert.ReferenceIdeal.Read.val_main_v2 (F := Ideal) (A4 m c) :=
  (V2_of m c main_v2 (by decide)).trans (V1_v2 m c)
theorem V2_arg0 : (V2 m c main_arg0 : S500000x3.Idx → EReal) = A0 m c :=
  (V2_of m c main_arg0 (by decide)).trans (V1_of m c main_arg0 (by decide))

theorem V3_v10 : (V3 m c main_v10 : S500000x8x3.Idx → EReal) = Cert.ReferenceIdeal.Read.val_main_v10 (F := Ideal) (A0 m c) (A4 m c) := by
  show StableHlo.after hostOps0_2 (V2 m c) (Proc.devRef .tc main_v10) = _
  have h3 := V2_v3 m c
  have ha := V2_arg0 m c
  generalize V2 m c = W at h3 ha ⊢
  after_results
  rw [h3, ha]
  rfl
theorem V3_v11 : (V3 m c main_v11 : S500000x8x1.Idx → BitVec 1) = Cert.ReferenceIdeal.Read.val_main_v11 (F := Ideal) (A4 m c) := by
  show StableHlo.after hostOps0_2 (V2 m c) (Proc.devRef .tc main_v11) = _
  have h2 := V2_v2 m c
  generalize V2 m c = W at h2 ⊢
  after_results
  rw [h2]
  rfl
theorem V3_cst : (V3 m c main_cst : S_.Idx → EReal) = Cert.ReferenceIdeal.Read.val_main_cst (F := Ideal) := by
  show StableHlo.after hostOps0_2 (V2 m c) (Proc.devRef .tc main_cst) = _
  generalize V2 m c = W
  after_results
  rfl
theorem V3_v3 : (V3 m c main_v3 : S500000x8.Idx → BitVec 32) = Cert.ReferenceIdeal.Read.val_main_v3 (F := Ideal) (A4 m c) :=
  (V3_of m c main_v3 (by decide)).trans (V2_v3 m c)
theorem V3_v2 : (V3 m c main_v2 : S500000x8.Idx → BitVec 1) = Cert.ReferenceIdeal.Read.val_main_v2 (F := Ideal) (A4 m c) :=
  (V3_of m c main_v2 (by decide)).trans (V2_v2 m c)

theorem V4_v12 : (V4 m c main_v12 : S500000x8x3.Idx → EReal) = Cert.ReferenceIdeal.Read.val_main_v12 (F := Ideal) (A0 m c) (A4 m c) := by
  show StableHlo.after hostOps0_3 (V3 m c) (Proc.devRef .tc main_v12) = _
  have h10 := V3_v10 m c
  have h11 := V3_v11 m c
  have hc := V3_cst m c
  generalize V3 m c = W at h10 h11 hc ⊢
  after_results
  rw [h10, h11, hc]
  rfl
theorem V4_v3 : (V4 m c main_v3 : S500000x8.Idx → BitVec 32) = Cert.ReferenceIdeal.Read.val_main_v3 (F := Ideal) (A4 m c) :=
  (V4_of m c main_v3 (by decide)).trans (V3_v3 m c)
theorem V4_v2 : (V4 m c main_v2 : S500000x8.Idx → BitVec 1) = Cert.ReferenceIdeal.Read.val_main_v2 (F := Ideal) (A4 m c) :=
  (V4_of m c main_v2 (by decide)).trans (V3_v2 m c)
theorem V4_arg1 : (V4 m c main_arg1 : S500000x3.Idx → EReal) = A1 m c :=
  (V4_of m c main_arg1 (by decide)).trans <| (V3_of m c main_arg1 (by decide)).trans <|
    (V2_of m c main_arg1 (by decide)).trans (V1_of m c main_arg1 (by decide))

theorem V5_v13 : (V5 m c main_v13 : S500000x3.Idx → EReal) = Cert.ReferenceIdeal.Read.val_main_v13 (F := Ideal) (A0 m c) (A4 m c) := by
  show StableHlo.after hostOps0_4 (V4 m c) (Proc.devRef .tc main_v13) = _
  have h12 := V4_v12 m c
  generalize V4 m c = W at h12 ⊢
  after_results
  rw [h12]
  rfl
theorem V5_v20 : (V5 m c main_v20 : S500000x8x3.Idx → EReal) = Cert.ReferenceIdeal.Read.val_main_v31 (F := Ideal) (A1 m c) (A4 m c) := by
  show StableHlo.after hostOps0_4 (V4 m c) (Proc.devRef .tc main_v20) = _
  have h3 := V4_v3 m c
  have ha := V4_arg1 m c
  generalize V4 m c = W at h3 ha ⊢
  after_results
  rw [h3, ha, ← ref_v24]
  rfl
theorem V5_v21 : (V5 m c main_v21 : S500000x8x1.Idx → BitVec 1) = Cert.ReferenceIdeal.Read.val_main_v32 (F := Ideal) (A4 m c) := by
  show StableHlo.after hostOps0_4 (V4 m c) (Proc.devRef .tc main_v21) = _
  have h2 := V4_v2 m c
  generalize V4 m c = W at h2 ⊢
  after_results
  rw [h2, ← ref_v23]
  rfl
theorem V5_cst6 : (V5 m c main_cst_6 : S_.Idx → EReal) = Cert.ReferenceIdeal.Read.val_main_cst_8 (F := Ideal) := by
  show StableHlo.after hostOps0_4 (V4 m c) (Proc.devRef .tc main_cst_6) = _
  generalize V4 m c = W
  after_results
  rfl

theorem V6_v22 : (V6 m c main_v22 : S500000x8x3.Idx → EReal) = Cert.ReferenceIdeal.Read.val_main_v33 (F := Ideal) (A1 m c) (A4 m c) := by
  show StableHlo.after hostOps0_5 (V5 m c) (Proc.devRef .tc main_v22) = _
  have h20 := V5_v20 m c
  have h21 := V5_v21 m c
  have hc := V5_cst6 m c
  generalize V5 m c = W at h20 h21 hc ⊢
  after_results
  rw [h20, h21, hc]
  rfl

/-- The first neighbour sum the coarse region reads is the reference's. -/
theorem v13_eq : (V7 m c main_v13 : S500000x3.Idx → EReal) = Cert.ReferenceIdeal.Read.val_main_v13 (F := Ideal) (A0 m c) (A4 m c) :=
  (V7_v13 m c).trans <| (V6_of m c main_v13 (by decide)).trans (V5_v13 m c)

/-- The second neighbour sum the coarse region reads is the reference's. -/
theorem v23_eq : (V7 m c main_v23 : S500000x3.Idx → EReal) = Cert.ReferenceIdeal.Read.val_main_v34 (F := Ideal) (A1 m c) (A4 m c) := by
  rw [V7_v23, V6_v22]
  rfl

end SharedChainCoarse

/-! ## The fine region's three operands read at an index -/

section FineLayout
variable {α : Type}

/-- Two [2000000, 3] arrays transposed and stacked as the six rows of a [6, 2000896] array whose columns from 2000000 on
    hold a scalar: left of column 2000000, row `r` column `j` is the first array at (j, r) for r < 3, the second at (j, r - 3) otherwise. -/
theorem rows6f_lo (a b : S2000000x3.Idx → α) (z : S_.Idx → α) (r : Fin 6) (j : Fin 2000896) (hj : j.val < 2000000) :
    concatenate S6x2000896 1 [⟨S6x2000000, concatenate S6x2000000 0 [⟨S3x2000000, transpose S3x2000000 [1, 0] a transposes_S2000000x3_S3x2000000_1_0⟩,
        ⟨S3x2000000, transpose S3x2000000 [1, 0] b transposes_S2000000x3_S3x2000000_1_0⟩] concatenates_S3x2000000_S3x2000000_S6x2000000_d0⟩,
      ⟨S6x896, broadcastInDim S6x896 ![] bcast_S_S6x896 z⟩] concatenates_S6x2000000_S6x896_S6x2000896_d1 (ix2 r j)
      = if h : r.val < 3 then a (ix2 (⟨j.val, hj⟩ : Fin 2000000) (⟨r.val, h⟩ : Fin 3))
        else b (ix2 (⟨j.val, hj⟩ : Fin 2000000) (⟨r.val - 3, by have := r.isLt; omega⟩ : Fin 3)) := by
  refine (concatenate_pair_apply_left (t := S6x2000896) (s₁ := S6x2000000) (s₂ := S6x896) 1 _ _ concatenates_S6x2000000_S6x896_S6x2000896_d1 (ix2 r j) rfl
    (ix2 r (⟨j.val, hj⟩ : Fin 2000000)) (fun b => match b with | ⟨0, _⟩ => rfl | ⟨1, _⟩ => rfl)).trans ?_
  by_cases h : r.val < 3
  · rw [dif_pos h]
    refine (concatenate_pair_apply_left (t := S6x2000000) (s₁ := S3x2000000) (s₂ := S3x2000000) 0 _ _ concatenates_S3x2000000_S3x2000000_S6x2000000_d0 (ix2 r (⟨j.val, hj⟩ : Fin 2000000)) rfl
      (ix2 (⟨r.val, h⟩ : Fin 3) (⟨j.val, hj⟩ : Fin 2000000)) (fun b => match b with | ⟨0, _⟩ => rfl | ⟨1, _⟩ => rfl)).trans ?_
    exact transpose_apply [1, 0] a transposes_S2000000x3_S3x2000000_1_0 _ (ix2 (⟨j.val, hj⟩ : Fin 2000000) (⟨r.val, h⟩ : Fin 3))
      (fun b => match b with | ⟨0, _⟩ => rfl | ⟨1, _⟩ => rfl)
  · rw [dif_neg h]
    have h3 : r.val - 3 < 3 := by have := r.isLt; omega
    refine (concatenate_pair_apply_right (t := S6x2000000) (s₁ := S3x2000000) (s₂ := S3x2000000) 0 _ _ concatenates_S3x2000000_S3x2000000_S6x2000000_d0 (ix2 r (⟨j.val, hj⟩ : Fin 2000000)) rfl rfl
      (ix2 (⟨r.val - 3, h3⟩ : Fin 3) (⟨j.val, hj⟩ : Fin 2000000))
      (by intro b hb; match b with | ⟨0, _⟩ => exact absurd rfl hb | ⟨1, _⟩ => rfl)
      (by show (r.val - 3) + 3 = r.val; omega)).trans ?_
    exact transpose_apply [1, 0] b transposes_S2000000x3_S3x2000000_1_0 _ (ix2 (⟨j.val, hj⟩ : Fin 2000000) (⟨r.val - 3, h3⟩ : Fin 3))
      (fun b => match b with | ⟨0, _⟩ => rfl | ⟨1, _⟩ => rfl)

/-- The same array from column 2000000 on is the scalar. -/
theorem rows6f_hi (x : S6x2000000.Idx → α) (z : S_.Idx → α) (r : Fin 6) (j : Fin 2000896) (hj : 2000000 ≤ j.val) :
    concatenate S6x2000896 1 [⟨S6x2000000, x⟩, ⟨S6x896, broadcastInDim S6x896 ![] bcast_S_S6x896 z⟩]
      concatenates_S6x2000000_S6x896_S6x2000896_d1 (ix2 r j) = z ix0 := by
  obtain ⟨q, hq⟩ : ∃ q : Fin 896, q.val + 2000000 = j.val :=
    ⟨⟨j.val - 2000000, by have := j.isLt; omega⟩, Nat.sub_add_cancel hj⟩
  refine (concatenate_pair_apply_right (t := S6x2000896) (s₁ := S6x2000000) (s₂ := S6x896) 1 _ _ concatenates_S6x2000000_S6x896_S6x2000896_d1 (ix2 r j) rfl rfl
    (ix2 r q)
    (by intro b hb; match b with | ⟨0, _⟩ => rfl | ⟨1, _⟩ => exact absurd rfl hb)
    hq).trans ?_
  exact broadcastInDim_scalar_apply bcast_S_S6x896 z _

end FineLayout

/-- Column 9 of a [2000000, 10] integer array as a row of floats, padded to 2000896 columns by a scalar: left of column 2000000. -/
theorem cntf_lo (x : S2000000x10.Idx → BitVec 32) (z : S_.Idx → EReal) (j : Fin 2000896) (hj : j.val < 2000000) :
    concatenate S1x2000896 1 [⟨S1x2000000, broadcastInDim S1x2000000 ![1] bcast_S2000000_S1x2000000_1
        (sitofp (F := Ideal) .f32 (fun i => shapeCast S2000000 (extractStridedSlice S2000000x1 ![0, 9] x slices_S2000000x10_S2000000x1_0_9) shapeCasts_S2000000x1_S2000000 i))⟩,
      ⟨S1x896, broadcastInDim S1x896 ![] bcast_S_S1x896 z⟩] concatenates_S1x2000000_S1x896_S1x2000896_d1 (ix2 (0 : Fin 1) j)
      = (((x (ix2 (⟨j.val, hj⟩ : Fin 2000000) (9 : Fin 10))).toInt : ℝ) : EReal) := by
  refine (concatenate_pair_apply_left (t := S1x2000896) (s₁ := S1x2000000) (s₂ := S1x896) 1 _ _ concatenates_S1x2000000_S1x896_S1x2000896_d1 (ix2 (0 : Fin 1) j) rfl
    (ix2 (0 : Fin 1) (⟨j.val, hj⟩ : Fin 2000000)) (fun b => match b with | ⟨0, _⟩ => rfl | ⟨1, _⟩ => rfl)).trans ?_
  refine (broadcastInDim_apply _ bcast_S2000000_S1x2000000_1 _ _ (ix1 (⟨j.val, hj⟩ : Fin 2000000)) (fun a => match a with
    | ⟨0, _⟩ => by show j.val = if (2000000 : Nat) = 1 then 0 else j.val; rw [if_neg (by decide)])).trans ?_
  rw [sitofp_apply]
  show (((shapeCast S2000000 (extractStridedSlice S2000000x1 ![0, 9] x slices_S2000000x10_S2000000x1_0_9) shapeCasts_S2000000x1_S2000000
    (ix1 (⟨j.val, hj⟩ : Fin 2000000))).toInt : ℝ) : EReal) = _
  refine congrArg (fun w : BitVec 32 => ((w.toInt : ℝ) : EReal)) ?_
  refine (shapeCast_apply _ shapeCasts_S2000000x1_S2000000 _ (ix2 (⟨j.val, hj⟩ : Fin 2000000) (0 : Fin 1)) ?_).trans ?_
  · rw [Shape.rowMajor_val_two, Shape.rowMajor_val_one]
    show j.val * 1 + 0 = j.val
    omega
  · exact extractStridedSlice_apply ![0, 9] x slices_S2000000x10_S2000000x1_0_9 _ (ix2 (⟨j.val, hj⟩ : Fin 2000000) (9 : Fin 10))
      (fun a => match a with
        | ⟨0, _⟩ => by show j.val = 0 + j.val; omega
        | ⟨1, _⟩ => by show 9 = 9 + 0; omega)

/-- The same row from column 2000000 on is the scalar. -/
theorem cntf_hi {α : Type} (x : S1x2000000.Idx → α) (z : S_.Idx → α) (j : Fin 2000896) (hj : 2000000 ≤ j.val) :
    concatenate S1x2000896 1 [⟨S1x2000000, x⟩, ⟨S1x896, broadcastInDim S1x896 ![] bcast_S_S1x896 z⟩]
      concatenates_S1x2000000_S1x896_S1x2000896_d1 (ix2 (0 : Fin 1) j) = z ix0 := by
  obtain ⟨q, hq⟩ : ∃ q : Fin 896, q.val + 2000000 = j.val :=
    ⟨⟨j.val - 2000000, by have := j.isLt; omega⟩, Nat.sub_add_cancel hj⟩
  refine (concatenate_pair_apply_right (t := S1x2000896) (s₁ := S1x2000000) (s₂ := S1x896) 1 _ _ concatenates_S1x2000000_S1x896_S1x2000896_d1 (ix2 (0 : Fin 1) j) rfl rfl
    (ix2 (0 : Fin 1) q)
    (by intro b hb; match b with | ⟨0, _⟩ => rfl | ⟨1, _⟩ => exact absurd rfl hb)
    hq).trans ?_
  exact broadcastInDim_scalar_apply bcast_S_S1x896 z _

/-- The fine argument arrays as the fine host stretches read them: no host stretch writes them, no region may change them. -/
theorem V8_arg5 : (V8 m outs c main_arg5 : S2000000x10.Idx → BitVec 32) = A5 m c :=
  (V8_of m outs c main_arg5 (by decide)).trans <|
    (V7_of m c main_arg5 (by decide)).trans <|
    (V6_of m c main_arg5 (by decide)).trans <|
    (V5_of m c main_arg5 (by decide)).trans <|
    (V4_of m c main_arg5 (by decide)).trans <|
    (V3_of m c main_arg5 (by decide)).trans <|
    (V2_of m c main_arg5 (by decide)).trans <|
    (V1_of m c main_arg5 (by decide))
theorem V14_arg2 : (V14 m outs c main_arg2 : S2000000x3.Idx → EReal) = A2 m c :=
  (V14_of m outs c main_arg2 (by decide)).trans <|
    (V13_of m outs c main_arg2 (by decide)).trans <|
    (V12_of m outs c main_arg2 (by decide)).trans <|
    (V11_of m outs c main_arg2 (by decide)).trans <|
    (V10_of m outs c main_arg2 (by decide)).trans <|
    (V9_of m outs c main_arg2 (by decide)).trans <|
    (V8_of m outs c main_arg2 (by decide)).trans <|
    (V7_of m c main_arg2 (by decide)).trans <|
    (V6_of m c main_arg2 (by decide)).trans <|
    (V5_of m c main_arg2 (by decide)).trans <|
    (V4_of m c main_arg2 (by decide)).trans <|
    (V3_of m c main_arg2 (by decide)).trans <|
    (V2_of m c main_arg2 (by decide)).trans <|
    (V1_of m c main_arg2 (by decide))
theorem V14_arg3 : (V14 m outs c main_arg3 : S2000000x3.Idx → EReal) = A3 m c :=
  (V14_of m outs c main_arg3 (by decide)).trans <|
    (V13_of m outs c main_arg3 (by decide)).trans <|
    (V12_of m outs c main_arg3 (by decide)).trans <|
    (V11_of m outs c main_arg3 (by decide)).trans <|
    (V10_of m outs c main_arg3 (by decide)).trans <|
    (V9_of m outs c main_arg3 (by decide)).trans <|
    (V8_of m outs c main_arg3 (by decide)).trans <|
    (V7_of m c main_arg3 (by decide)).trans <|
    (V6_of m c main_arg3 (by decide)).trans <|
    (V5_of m c main_arg3 (by decide)).trans <|
    (V4_of m c main_arg3 (by decide)).trans <|
    (V3_of m c main_arg3 (by decide)).trans <|
    (V2_of m c main_arg3 (by decide)).trans <|
    (V1_of m c main_arg3 (by decide))
theorem V14_arg5 : (V14 m outs c main_arg5 : S2000000x10.Idx → BitVec 32) = A5 m c :=
  (V14_of m outs c main_arg5 (by decide)).trans <|
    (V13_of m outs c main_arg5 (by decide)).trans <|
    (V12_of m outs c main_arg5 (by decide)).trans <|
    (V11_of m outs c main_arg5 (by decide)).trans <|
    (V10_of m outs c main_arg5 (by decide)).trans <|
    (V9_of m outs c main_arg5 (by decide)).trans <|
    (V8_of m outs c main_arg5 (by decide)).trans <|
    (V7_of m c main_arg5 (by decide)).trans <|
    (V6_of m c main_arg5 (by decide)).trans <|
    (V5_of m c main_arg5 (by decide)).trans <|
    (V4_of m c main_arg5 (by decide)).trans <|
    (V3_of m c main_arg5 (by decide)).trans <|
    (V2_of m c main_arg5 (by decide)).trans <|
    (V1_of m c main_arg5 (by decide))

/-- The first fine neighbour sum is not touched by the last fine host stretch. -/
theorem V15_v58 : (V15 m outs c main_v58 : S2000000x3.Idx → EReal) = V14 m outs c main_v58 := V15_of m outs c main_v58 (by decide)

/-- The second fine neighbour sum is the last fine host stretch's first result. -/
theorem V15_v68 : (V15 m outs c main_v68 : S2000000x3.Idx → EReal)
    = Host.reduceAdd (F := Ideal) (V14 m outs c main_v67 : S2000000x8x3.Idx → EReal) (constant (F := Ideal) S_ .f32 0x00000000#32)
        reducesTo_S2000000x8x3_S2000000x3_d1 h_S_ := by
  show StableHlo.after hostOps1_6 (V14 m outs c) (Proc.devRef .tc main_v68) = _
  generalize V14 m outs c = W
  after_results

/-- Row `r`, column `j` of the fine neighbour-sum operand, left of column 2000000. -/
theorem v80_lo (r : Fin 6) (j : Fin 2000896) (hj : j.val < 2000000) :
    (V15 m outs c main_v80 : S6x2000896.Idx → EReal) (ix2 r j)
      = if h : r.val < 3 then (V15 m outs c main_v58 : S2000000x3.Idx → EReal) (ix2 (⟨j.val, hj⟩ : Fin 2000000) (⟨r.val, h⟩ : Fin 3))
        else (V15 m outs c main_v68 : S2000000x3.Idx → EReal) (ix2 (⟨j.val, hj⟩ : Fin 2000000) (⟨r.val - 3, by have := r.isLt; omega⟩ : Fin 3)) := by
  rw [V15_v58, V15_v68]
  show StableHlo.after hostOps1_6 (V14 m outs c) (Proc.devRef .tc main_v80) (ix2 r j) = _
  generalize V14 m outs c = W
  after_results
  exact rows6f_lo _ _ _ r j hj

/-- The fine neighbour-sum operand from column 2000000 on is zero. -/
theorem v80_hi (r : Fin 6) (j : Fin 2000896) (hj : 2000000 ≤ j.val) :
    (V15 m outs c main_v80 : S6x2000896.Idx → EReal) (ix2 r j) = (0 : EReal) := by
  show StableHlo.after hostOps1_6 (V14 m outs c) (Proc.devRef .tc main_v80) (ix2 r j) = _
  generalize V14 m outs c = W
  after_results
  refine (rows6f_hi _ _ r j hj).trans ?_
  exact Ideal.ofBits_zero_f32

/-- Row `r`, column `j` of the fine position operand, left of column 2000000. -/
theorem v82_lo (r : Fin 6) (j : Fin 2000896) (hj : j.val < 2000000) :
    (V15 m outs c main_v82 : S6x2000896.Idx → EReal) (ix2 r j)
      = if h : r.val < 3 then A2 m c (ix2 (⟨j.val, hj⟩ : Fin 2000000) (⟨r.val, h⟩ : Fin 3))
        else A3 m c (ix2 (⟨j.val, hj⟩ : Fin 2000000) (⟨r.val - 3, by have := r.isLt; omega⟩ : Fin 3)) := by
  show StableHlo.after hostOps1_6 (V14 m outs c) (Proc.devRef .tc main_v82) (ix2 r j) = _
  have h2 := V14_arg2 m outs c
  have h3 := V14_arg3 m outs c
  generalize V14 m outs c = W at h2 h3 ⊢
  after_results
  rw [h2, h3]
  exact rows6f_lo _ _ _ r j hj

/-- The fine position operand from column 2000000 on is zero. -/
theorem v82_hi (r : Fin 6) (j : Fin 2000896) (hj : 2000000 ≤ j.val) :
    (V15 m outs c main_v82 : S6x2000896.Idx → EReal) (ix2 r j) = (0 : EReal) := by
  show StableHlo.after hostOps1_6 (V14 m outs c) (Proc.devRef .tc main_v82) (ix2 r j) = _
  generalize V14 m outs c = W
  after_results
  refine (rows6f_hi _ _ r j hj).trans ?_
  exact Ideal.ofBits_zero_f32

/-- Column `j` of the fine count operand, left of column 2000000: the count column of the table, as a real. -/
theorem v84_lo (j : Fin 2000896) (hj : j.val < 2000000) :
    (V15 m outs c main_v84 : S1x2000896.Idx → EReal) (ix2 (0 : Fin 1) j)
      = (((A5 m c (ix2 (⟨j.val, hj⟩ : Fin 2000000) (9 : Fin 10))).toInt : ℝ) : EReal) := by
  show StableHlo.after hostOps1_6 (V14 m outs c) (Proc.devRef .tc main_v84) (ix2 (0 : Fin 1) j) = _
  have h5 := V14_arg5 m outs c
  generalize V14 m outs c = W at h5 ⊢
  after_results
  rw [h5]
  exact cntf_lo _ _ j hj

/-- The fine count operand from column 2000000 on is one. -/
theorem v84_hi (j : Fin 2000896) (hj : 2000000 ≤ j.val) :
    (V15 m outs c main_v84 : S1x2000896.Idx → EReal) (ix2 (0 : Fin 1) j) = (1 : EReal) := by
  show StableHlo.after hostOps1_6 (V14 m outs c) (Proc.devRef .tc main_v84) (ix2 (0 : Fin 1) j) = _
  generalize V14 m outs c = W
  after_results
  refine (cntf_hi _ _ j hj).trans ?_
  exact Ideal.ofBits_one_f32

section SharedChainFine

/-- In the reference the second fine coordinate's chain recomputes the first's mask and masked index table. -/
theorem ref_v71 (x5 : S2000000x10.Idx → BitVec 32) :
    Cert.ReferenceIdeal.Read.val_main_v71 (F := Ideal) x5 = Cert.ReferenceIdeal.Read.val_main_v50 (F := Ideal) x5 := rfl
theorem ref_v72 (x5 : S2000000x10.Idx → BitVec 32) :
    Cert.ReferenceIdeal.Read.val_main_v72 (F := Ideal) x5 = Cert.ReferenceIdeal.Read.val_main_v51 (F := Ideal) x5 := rfl

theorem V9_v45 : (V9 m outs c main_v45 : S2000000x8.Idx → BitVec 32) = Cert.ReferenceIdeal.Read.val_main_v48 (F := Ideal) (A5 m c) := by
  show StableHlo.after hostOps1 (V8 m outs c) (Proc.devRef .tc main_v45) = _
  have h5 := V8_arg5 m outs c
  generalize V8 m outs c = W at h5 ⊢
  after_results
  rw [h5]
  rfl
theorem V9_v47 : (V9 m outs c main_v47 : S2000000x8.Idx → BitVec 1) = Cert.ReferenceIdeal.Read.val_main_v50 (F := Ideal) (A5 m c) := by
  show StableHlo.after hostOps1 (V8 m outs c) (Proc.devRef .tc main_v47) = _
  have h5 := V8_arg5 m outs c
  generalize V8 m outs c = W at h5 ⊢
  after_results
  rw [h5]
  rfl
theorem V9_c14 : (V9 m outs c main_c_14 : S_.Idx → BitVec 32) = Cert.ReferenceIdeal.Read.val_main_c_15 (F := Ideal) := by
  show StableHlo.after hostOps1 (V8 m outs c) (Proc.devRef .tc main_c_14) = _
  generalize V8 m outs c = W
  after_results
  rfl

theorem V10_v48 : (V10 m outs c main_v48 : S2000000x8.Idx → BitVec 32) = Cert.ReferenceIdeal.Read.val_main_v51 (F := Ideal) (A5 m c) := by
  show StableHlo.after hostOps1_1 (V9 m outs c) (Proc.devRef .tc main_v48) = _
  have h0 := V9_v45 m outs c
  have h2 := V9_v47 m outs c
  have hc := V9_c14 m outs c
  generalize V9 m outs c = W at h0 h2 hc ⊢
  after_results
  rw [h0, h2, hc]
  rfl
theorem V10_v47 : (V10 m outs c main_v47 : S2000000x8.Idx → BitVec 1) = Cert.ReferenceIdeal.Read.val_main_v50 (F := Ideal) (A5 m c) :=
  (V10_of m outs c main_v47 (by decide)).trans (V9_v47 m outs c)
theorem V10_arg2 : (V10 m outs c main_arg2 : S2000000x3.Idx → EReal) = A2 m c :=
  (V10_of m outs c main_arg2 (by decide)).trans <| (V9_of m outs c main_arg2 (by decide)).trans <| (V8_of m outs c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))

theorem V11_v55 : (V11 m outs c main_v55 : S2000000x8x3.Idx → EReal) = Cert.ReferenceIdeal.Read.val_main_v58 (F := Ideal) (A2 m c) (A5 m c) := by
  show StableHlo.after hostOps1_2 (V10 m outs c) (Proc.devRef .tc main_v55) = _
  have h3 := V10_v48 m outs c
  have ha := V10_arg2 m outs c
  generalize V10 m outs c = W at h3 ha ⊢
  after_results
  rw [h3, ha]
  rfl
theorem V11_v56 : (V11 m outs c main_v56 : S2000000x8x1.Idx → BitVec 1) = Cert.ReferenceIdeal.Read.val_main_v59 (F := Ideal) (A5 m c) := by
  show StableHlo.after hostOps1_2 (V10 m outs c) (Proc.devRef .tc main_v56) = _
  have h2 := V10_v47 m outs c
  generalize V10 m outs c = W at h2 ⊢
  after_results
  rw [h2]
  rfl
theorem V11_cst17 : (V11 m outs c main_cst_17 : S_.Idx → EReal) = Cert.ReferenceIdeal.Read.val_main_cst_18 (F := Ideal) := by
  show StableHlo.after hostOps1_2 (V10 m outs c) (Proc.devRef .tc main_cst_17) = _
  generalize V10 m outs c = W
  after_results
  rfl
theorem V11_v48 : (V11 m outs c main_v48 : S2000000x8.Idx → BitVec 32) = Cert.ReferenceIdeal.Read.val_main_v51 (F := Ideal) (A5 m c) :=
  (V11_of m outs c main_v48 (by decide)).trans (V10_v48 m outs c)
theorem V11_v47 : (V11 m outs c main_v47 : S2000000x8.Idx → BitVec 1) = Cert.ReferenceIdeal.Read.val_main_v50 (F := Ideal) (A5 m c) :=
  (V11_of m outs c main_v47 (by decide)).trans (V10_v47 m outs c)

theorem V12_v57 : (V12 m outs c main_v57 : S2000000x8x3.Idx → EReal) = Cert.ReferenceIdeal.Read.val_main_v60 (F := Ideal) (A2 m c) (A5 m c) := by
  show StableHlo.after hostOps1_3 (V11 m outs c) (Proc.devRef .tc main_v57) = _
  have h10 := V11_v55 m outs c
  have h11 := V11_v56 m outs c
  have hc := V11_cst17 m outs c
  generalize V11 m outs c = W at h10 h11 hc ⊢
  after_results
  rw [h10, h11, hc]
  rfl
theorem V12_v48 : (V12 m outs c main_v48 : S2000000x8.Idx → BitVec 32) = Cert.ReferenceIdeal.Read.val_main_v51 (F := Ideal) (A5 m c) :=
  (V12_of m outs c main_v48 (by decide)).trans (V11_v48 m outs c)
theorem V12_v47 : (V12 m outs c main_v47 : S2000000x8.Idx → BitVec 1) = Cert.ReferenceIdeal.Read.val_main_v50 (F := Ideal) (A5 m c) :=
  (V12_of m outs c main_v47 (by decide)).trans (V11_v47 m outs c)
theorem V12_arg3 : (V12 m outs c main_arg3 : S2000000x3.Idx → EReal) = A3 m c :=
  (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))

theorem V13_v58 : (V13 m outs c main_v58 : S2000000x3.Idx → EReal) = Cert.ReferenceIdeal.Read.val_main_v61 (F := Ideal) (A2 m c) (A5 m c) := by
  show StableHlo.after hostOps1_4 (V12 m outs c) (Proc.devRef .tc main_v58) = _
  have h12 := V12_v57 m outs c
  generalize V12 m outs c = W at h12 ⊢
  after_results
  rw [h12]
  rfl
theorem V13_v65 : (V13 m outs c main_v65 : S2000000x8x3.Idx → EReal) = Cert.ReferenceIdeal.Read.val_main_v79 (F := Ideal) (A3 m c) (A5 m c) := by
  show StableHlo.after hostOps1_4 (V12 m outs c) (Proc.devRef .tc main_v65) = _
  have h3 := V12_v48 m outs c
  have ha := V12_arg3 m outs c
  generalize V12 m outs c = W at h3 ha ⊢
  after_results
  rw [h3, ha, ← ref_v72]
  rfl
theorem V13_v66 : (V13 m outs c main_v66 : S2000000x8x1.Idx → BitVec 1) = Cert.ReferenceIdeal.Read.val_main_v80 (F := Ideal) (A5 m c) := by
  show StableHlo.after hostOps1_4 (V12 m outs c) (Proc.devRef .tc main_v66) = _
  have h2 := V12_v47 m outs c
  generalize V12 m outs c = W at h2 ⊢
  after_results
  rw [h2, ← ref_v71]
  rfl
theorem V13_cst21 : (V13 m outs c main_cst_21 : S_.Idx → EReal) = Cert.ReferenceIdeal.Read.val_main_cst_24 (F := Ideal) := by
  show StableHlo.after hostOps1_4 (V12 m outs c) (Proc.devRef .tc main_cst_21) = _
  generalize V12 m outs c = W
  after_results
  rfl

theorem V14_v67 : (V14 m outs c main_v67 : S2000000x8x3.Idx → EReal) = Cert.ReferenceIdeal.Read.val_main_v81 (F := Ideal) (A3 m c) (A5 m c) := by
  show StableHlo.after hostOps1_5 (V13 m outs c) (Proc.devRef .tc main_v67) = _
  have h20 := V13_v65 m outs c
  have h21 := V13_v66 m outs c
  have hc := V13_cst21 m outs c
  generalize V13 m outs c = W at h20 h21 hc ⊢
  after_results
  rw [h20, h21, hc]
  rfl

/-- The first neighbour sum the fine region reads is the reference's: in particular it does not depend on what the coarse region left. -/
theorem v58_eq : (V15 m outs c main_v58 : S2000000x3.Idx → EReal) = Cert.ReferenceIdeal.Read.val_main_v61 (F := Ideal) (A2 m c) (A5 m c) :=
  (V15_v58 m outs c).trans <| (V14_of m outs c main_v58 (by decide)).trans (V13_v58 m outs c)

/-- The second neighbour sum the fine region reads is the reference's: in particular it does not depend on what the coarse region left. -/
theorem v68_eq : (V15 m outs c main_v68 : S2000000x3.Idx → EReal) = Cert.ReferenceIdeal.Read.val_main_v82 (F := Ideal) (A3 m c) (A5 m c) := by
  rw [V15_v68, V14_v67]
  rfl

/-- The fine region's three operands do not depend on what the coarse region left in its result array. -/
theorem v80_outs (outs' : Outs (F := Ideal)) :
    (V15 m outs c main_v80 : S6x2000896.Idx → EReal) = V15 m outs' c main_v80 := by
  funext i
  obtain ⟨r, j, rfl⟩ : ∃ (r : Fin 6) (j : Fin 2000896), i = ix2 r j := ⟨i 0, i 1, eq_ix2 i⟩
  by_cases hj : j.val < 2000000
  · rw [v80_lo m outs c r j hj, v80_lo m outs' c r j hj, v58_eq, v58_eq, v68_eq, v68_eq]
  · rw [v80_hi m outs c r j (by omega), v80_hi m outs' c r j (by omega)]
theorem v82_outs (outs' : Outs (F := Ideal)) :
    (V15 m outs c main_v82 : S6x2000896.Idx → EReal) = V15 m outs' c main_v82 := by
  funext i
  obtain ⟨r, j, rfl⟩ : ∃ (r : Fin 6) (j : Fin 2000896), i = ix2 r j := ⟨i 0, i 1, eq_ix2 i⟩
  by_cases hj : j.val < 2000000
  · rw [v82_lo m outs c r j hj, v82_lo m outs' c r j hj]
  · rw [v82_hi m outs c r j (by omega), v82_hi m outs' c r j (by omega)]
theorem v84_outs (outs' : Outs (F := Ideal)) :
    (V15 m outs c main_v84 : S1x2000896.Idx → EReal) = V15 m outs' c main_v84 := by
  funext i
  obtain ⟨r, j, rfl⟩ : ∃ (r : Fin 1) (j : Fin 2000896), i = ix2 r j := ⟨i 0, i 1, eq_ix2 i⟩
  obtain rfl : r = 0 := Subsingleton.elim _ _
  by_cases hj : j.val < 2000000
  · rw [v84_lo m outs c j hj, v84_lo m outs' c j hj]
  · rw [v84_hi m outs c j (by omega), v84_hi m outs' c j (by omega)]

end SharedChainFine

end Cert.KernelIdeal.LapHost
-- ==== Proof.KiTile.lean ====
/-
  The three values the idealized kernel body stores, read at an index over the extended reals.

  The first is the zero 1x1 vector. The second is the carried 1x1 accumulator plus this tile's sum:
  with q l = 1 / max (cnt l) 1 the guarded scale of lane l (Ideal.div, the two float words being the
  float one), rows 0..2 of the two 6 x 1024 operands the first coordinate set and rows 3..5 the
  second, and lap r l = coords (r, l) - nbr (r, l) * q l, the tile's sum is
  ∑ l : Fin 1024, ∑ ch : Fin 3, (lap ch l - lap (ch + 3) l) * (lap ch l - lap (ch + 3) l),
  both reductions starting from the zero word. The third is the 1x1 accumulator repeated over a
  1 x 8 x 128 block. The two kernels' payloads are the same terms, so each statement is given twice.
-/
import proofs.«428723_j14027363188886_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.LapTile

open Cert.KernelIdeal Cert.KernelIdeal.Gen Idealize.ShloMosaic Idealize.ShloMosaic.ValueIdx

/-- The word 0x3F800000 denotes the extended real 1. -/
theorem one_f32 : Ideal.ofBits .f32 0x3F800000#32 = (1 : EReal) :=
  IdealRules.sign_bit.ideal_onePat .f32

/-! ## The first stored value: zero -/

theorem pay1_zero : k0_pay1 (F := Ideal) (ix2 0 0) = 0 := by
  unfold k0_pay1
  simp only [shapeCast_self]
  exact Ideal.ofBits_zero_f32

theorem k1_pay1_zero : k1_pay1 (F := Ideal) (ix2 0 0) = 0 := by
  unfold k1_pay1
  simp only [shapeCast_self]
  exact Ideal.ofBits_zero_f32

/-! ## The second stored value: the accumulator plus the tile's sum -/

/-- The scaled difference at row `r` and lane `l`: `coords (r, l) - nbr (r, l) * (1 / max (cnt l) 1)`. -/
def lapAt (nbr coords : Vec Ideal S6x1024 .f32) (cnt : Vec Ideal S1x1024 .f32) (r : Fin 6) (l : Fin 1024) : EReal :=
  coords (ix2 r l) - nbr (ix2 r l) * Ideal.div 1 (max (cnt (ix2 0 l)) 1)

/-- The scalar read out of a 1x1 vector at position (0, 0) is its one element. -/
theorem extractAt_zero_zero {α : Type} (x : S1x1.Idx → α) (h : ∀ a, (![0, 0] : Fin 2 → Nat) a < S1x1.size a) :
    extractAt ![0, 0] x h = x (ix2 0 0) := by
  unfold extractAt
  refine congrArg x (funext fun a => ?_)
  match a with
  | ⟨0, _⟩ => rfl
  | ⟨1, _⟩ => rfl

/-- The index that the sum over the lanes of a 1 x 1024 vector reads at lane `l` is (0, l). -/
theorem lift_lane (l : Fin 1024) : reduces_S1x1024_S1.lift (ix1 (0 : Fin 1)) l = ix2 (0 : Fin 1) l := by
  funext ax
  match ax with
  | ⟨0, _⟩ => exact Fin.ext rfl
  | ⟨1, _⟩ => exact Fin.ext rfl

/-- The index that the sum over the rows of a 3 x 1024 vector reads at row `ch`, lane `l`, is (ch, l). -/
theorem lift_row (ch : Fin 3) (l : Fin 1024) : reduces_S3x1024_S1024.lift (ix1 l) ch = ix2 ch l := by
  funext ax
  match ax with
  | ⟨0, _⟩ => exact Fin.ext rfl
  | ⟨1, _⟩ => exact Fin.ext rfl

/-- The scaled-difference vector read at a row and a lane is `lapAt` there. -/
theorem lap_apply (nbr coords : Vec Ideal S6x1024 .f32) (cnt : Vec Ideal S1x1024 .f32) (r : Fin 6) (l : Fin 1024) :
    subf (F := Ideal) coords (mulf nbr (broadcastTo S6x1024
        (divf (broadcast S1x1024 (Scalar.ofBits (F := Ideal) .f32 0x3F800000#32))
          (maximumf cnt (broadcast S1x1024 (Scalar.ofBits (F := Ideal) .f32 0x3F800000#32))))
        broadcasts_S1x1024_S6x1024)) (ix2 r l)
      = lapAt nbr coords cnt r l := by
  rw [subf_apply, mulf_apply, broadcastTo_1b_ab_apply, divf_apply, maximumf_apply]
  show _ - _ * Ideal.div (Ideal.ofBits .f32 0x3F800000#32) (max _ (Ideal.ofBits .f32 0x3F800000#32)) = _
  rw [one_f32]
  rfl

/-- The square of (rows 0..2 minus rows 3..5) of a 6 x 1024 vector, read at a channel and a lane. -/
theorem sq_apply (V : FVec Ideal S6x1024 .f32) (ch : Fin 3) (l : Fin 1024) :
    mulf (F := Ideal)
      (subf (extractStridedSlice S3x1024 ![0, 0] V slices_S6x1024_o0_0_S3x1024)
        (extractStridedSlice S3x1024 ![3, 0] V slices_S6x1024_o3_0_S3x1024))
      (subf (extractStridedSlice S3x1024 ![0, 0] V slices_S6x1024_o0_0_S3x1024)
        (extractStridedSlice S3x1024 ![3, 0] V slices_S6x1024_o3_0_S3x1024)) (ix2 ch l)
      = (V (ix2 (Fin.castLE (by omega) ch) l) - V (ix2 (Fin.natAdd 3 ch) l))
        * (V (ix2 (Fin.castLE (by omega) ch) l) - V (ix2 (Fin.natAdd 3 ch) l)) := by
  rw [mulf_apply, subf_apply,
    slice2_axis0_apply 0 V slices_S6x1024_o0_0_S3x1024 ch l (Fin.castLE (by omega) ch) (Nat.zero_add _).symm,
    slice2_axis0_apply 3 V slices_S6x1024_o3_0_S3x1024 ch l (Fin.natAdd 3 ch) rfl]

/-- The second stored value at its one index: the carried accumulator plus the sum, over the lanes and the
    three channels, of the squared difference of the two coordinate sets' scaled differences. -/
theorem pay2_apply (nbr coords : Vec Ideal S6x1024 .f32) (cnt : Vec Ideal S1x1024 .f32) (a : Vec Ideal S1x1 .f32) :
    k0_pay2 (F := Ideal) nbr coords cnt a (ix2 0 0)
      = a (ix2 0 0) + ∑ l : Fin 1024, ∑ ch : Fin 3,
          (lapAt nbr coords cnt (Fin.castLE (by omega) ch) l - lapAt nbr coords cnt (Fin.natAdd 3 ch) l)
          * (lapAt nbr coords cnt (Fin.castLE (by omega) ch) l - lapAt nbr coords cnt (Fin.natAdd 3 ch) l) := by
  unfold k0_pay2
  simp only [shapeCast_self]
  rw [addf_apply, broadcast_apply, extractAt_zero_zero]
  refine congrArg (a (ix2 0 0) + ·) ?_
  refine (shapeCast_a_1a_apply _ _ 0 0).trans ?_
  refine (Ideal.multiReduction_add_single _ 0x00000000#32 reduces_S1x1024_S1 (.inl rfl) rfl (ix1 0)).trans ?_
  refine Finset.sum_congr rfl fun (l : Fin 1024) _ => ?_
  refine (congrArg _ (lift_lane l)).trans ?_
  refine (shapeCast_a_1a_apply _ _ 0 l).trans ?_
  refine (Ideal.multiReduction_add_single _ 0x00000000#32 reduces_S3x1024_S1024 (.inl rfl) rfl (ix1 l)).trans ?_
  refine Finset.sum_congr rfl fun (ch : Fin 3) _ => ?_
  refine (congrArg _ (lift_row ch l)).trans ?_
  refine (sq_apply _ ch l).trans ?_
  rw [lap_apply, lap_apply]

/-- The same for the second kernel. -/
theorem k1_pay2_apply (nbr coords : Vec Ideal S6x1024 .f32) (cnt : Vec Ideal S1x1024 .f32) (a : Vec Ideal S1x1 .f32) :
    k1_pay2 (F := Ideal) nbr coords cnt a (ix2 0 0)
      = a (ix2 0 0) + ∑ l : Fin 1024, ∑ ch : Fin 3,
          (lapAt nbr coords cnt (Fin.castLE (by omega) ch) l - lapAt nbr coords cnt (Fin.natAdd 3 ch) l)
          * (lapAt nbr coords cnt (Fin.castLE (by omega) ch) l - lapAt nbr coords cnt (Fin.natAdd 3 ch) l) := by
  unfold k1_pay2
  simp only [shapeCast_self]
  rw [addf_apply, broadcast_apply, extractAt_zero_zero]
  refine congrArg (a (ix2 0 0) + ·) ?_
  refine (shapeCast_a_1a_apply _ _ 0 0).trans ?_
  refine (Ideal.multiReduction_add_single _ 0x00000000#32 reduces_S1x1024_S1 (.inl rfl) rfl (ix1 0)).trans ?_
  refine Finset.sum_congr rfl fun (l : Fin 1024) _ => ?_
  refine (congrArg _ (lift_lane l)).trans ?_
  refine (shapeCast_a_1a_apply _ _ 0 l).trans ?_
  refine (Ideal.multiReduction_add_single _ 0x00000000#32 reduces_S3x1024_S1024 (.inl rfl) rfl (ix1 l)).trans ?_
  refine Finset.sum_congr rfl fun (ch : Fin 3) _ => ?_
  refine (congrArg _ (lift_row ch l)).trans ?_
  refine (sq_apply _ ch l).trans ?_
  rw [lap_apply, lap_apply]

/-! ## The third stored value: the accumulator repeated over the block -/

theorem pay3_apply (v : Vec Ideal S1x1 .f32) (r : Fin 8) (l : Fin 128) :
    k0_pay3 (F := Ideal) v (ix3 0 r l) = v (ix2 0 0) := by
  unfold k0_pay3
  simp only [shapeCast_self]
  refine (shapeCast_ab_1ab_apply _ _ 0 r l).trans ?_
  refine broadcastTo_apply v _ (ix2 r l) (ix2 0 0) fun ax => ?_
  match ax with
  | ⟨0, _⟩ => rfl
  | ⟨1, _⟩ => rfl

theorem k1_pay3_apply (v : Vec Ideal S1x1 .f32) (r : Fin 8) (l : Fin 128) :
    k1_pay3 (F := Ideal) v (ix3 0 r l) = v (ix2 0 0) := by
  unfold k1_pay3
  simp only [shapeCast_self]
  refine (shapeCast_ab_1ab_apply _ _ 0 r l).trans ?_
  refine broadcastTo_apply v _ (ix2 r l) (ix2 0 0) fun ax => ?_
  match ax with
  | ⟨0, _⟩ => rfl
  | ⟨1, _⟩ => rfl

end Cert.KernelIdeal.LapTile

end
-- ==== Proof.KiAccVal0.lean ====
/-
  The first launch's input blocks read off their arrays, and the value of its accumulator over the extended reals.

  The grid is two groups of 245 tiles; tile `n` (row-major, `n = 245 g + t`) reads, in each of the three input
  arrays, block row 0 and block column `n`: columns `1024 n … 1024 n + 1023` of the 6 x 501760 neighbour sums and
  self coordinates and of the 1 x 501760 counts. Over the extended reals the tile's stored value is what was carried
  plus the tile's sum `tile0` (the lanes' and channels' squared differences of the scaled differences), and the
  carried value is zero at a group's first tile; so the accumulator after tile `n` is the sum of `tile0` from the
  first tile of `n`'s group up to `n`, and at a group's last tile it is the sum over the group's 245 tiles.
  Addition on the extended reals is used as a commutative monoid only.
-/
import proofs.«428723_j14027363188886_4_alg».proof.Proof.KiAcc0
import proofs.«428723_j14027363188886_4_alg».proof.Proof.KiTile
import Idealize.ShloMosaic.Lib.ValueIdx

set_option maxRecDepth 16384

noncomputable section

open scoped BigOperators

namespace Cert.KernelIdeal.Lap

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The input blocks read off their arrays -/

/-- The three input windows' printed index maps, decided over the 490 tiles: tile `t` reads block row 0 and
    block column `t` of each array. -/
theorem idx_facts0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

variable (V : (c : Dev nD) → (b : Ref sig .tc) → Buf (Elt F) ((c : Thread nD τ).loc b))

/-- Column `1024 t + l` is inside the padded arrays' 501760 columns. -/
theorem col_lt (t : Fin cfg0.N) (l : Fin 1024) : 1024 * t.val + l.val < 501760 := by
  have ht : t.val < 490 := Nat.lt_of_lt_of_eq t.isLt N_0
  have hl := l.isLt
  omega

/-- Tile `t`'s block of the neighbour sums is columns `1024 t … 1024 t + 1023` of the array. -/
theorem nbr_read (c : Dev nD) (t : Fin cfg0.N) (r : Fin 6) (l : Fin 1024) :
    nbrBlk0 V c t (ix2 r l) = (V c main_v35 : Vec F S6x501760 .f32) (ix2 r ⟨1024 * t.val + l.val, col_lt t l⟩) := by
  obtain ⟨e0, e1, -, -, -, -⟩ := idx_facts0 t
  show V c main_v35 (((cfg0.win 0).blk t).view.emb (ix2 r l)) = _
  refine congrArg (V c main_v35) (funext fun a => Fin.ext ?_)
  match a with
  | ⟨0, _⟩ => show win0_0.index t (0 : Fin 2) * 6 + 1 * r.val = r.val; omega
  | ⟨1, _⟩ => show win0_0.index t (1 : Fin 2) * 1024 + 1 * l.val = 1024 * t.val + l.val; omega

/-- Tile `t`'s block of the self coordinates is columns `1024 t … 1024 t + 1023` of the array. -/
theorem crd_read (c : Dev nD) (t : Fin cfg0.N) (r : Fin 6) (l : Fin 1024) :
    crdBlk0 V c t (ix2 r l) = (V c main_v37 : Vec F S6x501760 .f32) (ix2 r ⟨1024 * t.val + l.val, col_lt t l⟩) := by
  obtain ⟨-, -, e0, e1, -, -⟩ := idx_facts0 t
  show V c main_v37 (((cfg0.win 1).blk t).view.emb (ix2 r l)) = _
  refine congrArg (V c main_v37) (funext fun a => Fin.ext ?_)
  match a with
  | ⟨0, _⟩ => show win0_1.index t (0 : Fin 2) * 6 + 1 * r.val = r.val; omega
  | ⟨1, _⟩ => show win0_1.index t (1 : Fin 2) * 1024 + 1 * l.val = 1024 * t.val + l.val; omega

/-- Tile `t`'s block of the counts is columns `1024 t … 1024 t + 1023` of the one-row array. -/
theorem cnt_read (c : Dev nD) (t : Fin cfg0.N) (l : Fin 1024) :
    cntBlk0 V c t (ix2 0 l) = (V c main_v39 : Vec F S1x501760 .f32) (ix2 0 ⟨1024 * t.val + l.val, col_lt t l⟩) := by
  obtain ⟨-, -, -, -, e0, e1⟩ := idx_facts0 t
  show V c main_v39 (((cfg0.win 2).blk t).view.emb (ix2 0 l)) = _
  refine congrArg (V c main_v39) (funext fun a => Fin.ext ?_)
  match a with
  | ⟨0, _⟩ => show win0_2.index t (0 : Fin 2) * 1 + 1 * 0 = 0; omega
  | ⟨1, _⟩ => show win0_2.index t (1 : Fin 2) * 1024 + 1 * l.val = 1024 * t.val + l.val; omega

/-! ## The accumulator's value over the extended reals -/

section AtIdeal

variable (V : (c : Dev nD) → (b : Ref sig .tc) → Buf (Elt Ideal) ((c : Thread nD τ).loc b))

/-- Tile `s`'s sum: over its 1024 lanes and the three channels, the squared difference of the two coordinate
    sets' scaled differences, read off the tile's three input blocks; zero past the last tile. -/
def tile0 (c : Dev nD) (s : ℕ) : EReal :=
  if h : s < cfg0.N then
    ∑ l : Fin 1024, ∑ ch : Fin 3,
      (LapTile.lapAt (nbrBlk0 V c ⟨s, h⟩) (crdBlk0 V c ⟨s, h⟩) (cntBlk0 V c ⟨s, h⟩) (Fin.castLE (by omega) ch) l
        - LapTile.lapAt (nbrBlk0 V c ⟨s, h⟩) (crdBlk0 V c ⟨s, h⟩) (cntBlk0 V c ⟨s, h⟩) (Fin.natAdd 3 ch) l)
      * (LapTile.lapAt (nbrBlk0 V c ⟨s, h⟩) (crdBlk0 V c ⟨s, h⟩) (cntBlk0 V c ⟨s, h⟩) (Fin.castLE (by omega) ch) l
        - LapTile.lapAt (nbrBlk0 V c ⟨s, h⟩) (crdBlk0 V c ⟨s, h⟩) (cntBlk0 V c ⟨s, h⟩) (Fin.natAdd 3 ch) l)
  else 0

/-- The tile's stored value at its one index: what was carried plus the tile's sum. -/
theorem pay2_tile (c : Dev nD) (s : ℕ) (h : s < cfg0.N) (a : Vec Ideal S1x1 .f32) :
    k0_pay2 (F := Ideal) (nbrBlk0 V c ⟨s, h⟩) (crdBlk0 V c ⟨s, h⟩) (cntBlk0 V c ⟨s, h⟩) a (ix2 0 0)
      = a (ix2 0 0) + tile0 V c s := by
  rw [LapTile.pay2_apply, tile0, dif_pos h]

/-- THE ACCUMULATOR AFTER TILE `n`: the sum of the tiles' sums from the first tile of `n`'s group up to `n`. -/
theorem acc0_val (c : Dev nD) (n : ℕ) (hn : n < cfg0.N) :
    acc0 (F := Ideal) V c n hn (ix2 0 0) = ∑ s ∈ Finset.Icc (245 * (n / 245)) n, tile0 V c s := by
  induction n with
  | zero =>
    rw [acc0, pay2_tile, LapTile.pay1_zero, zero_add]
    show _ = ∑ s ∈ Finset.Icc (245 * (0 / 245)) 0, tile0 V c s
    rw [Nat.zero_div, Nat.mul_zero, Finset.Icc_self, Finset.sum_singleton]
  | succ k ih =>
    rw [acc0, pay2_tile]
    by_cases hm : (k + 1) % 245 = 0
    · rw [if_pos hm, LapTile.pay1_zero, zero_add]
      have hs : 245 * ((k + 1) / 245) = k + 1 := by omega
      rw [hs, Finset.Icc_self, Finset.sum_singleton]
    · rw [if_neg hm, ih (Nat.lt_of_succ_lt hn)]
      have hd : (k + 1) / 245 = k / 245 := by omega
      rw [hd, Finset.sum_Icc_succ_top (by omega : 245 * (k / 245) ≤ k + 1)]

/-- The last tile of group `g` is a tile. -/
theorem group_last_lt (g : Fin 2) : 245 * g.val + 244 < cfg0.N := by
  have hg := g.isLt
  show 245 * g.val + 244 < grid0.N
  rw [N_0]
  omega

/-- THE ACCUMULATOR AT A GROUP'S LAST TILE: the sum of the group's 245 tiles' sums. -/
theorem acc0_group (c : Dev nD) (g : Fin 2) :
    acc0 (F := Ideal) V c (245 * g.val + 244) (group_last_lt g) (ix2 0 0)
      = ∑ s ∈ Finset.Ico (245 * g.val) (245 * g.val + 245), tile0 V c s := by
  rw [acc0_val]
  have hd : 245 * ((245 * g.val + 244) / 245) = 245 * g.val := by omega
  rw [hd]
  refine Finset.sum_congr (Finset.ext fun x => ?_) fun _ _ => rfl
  rw [Finset.mem_Icc, Finset.mem_Ico]
  omega

end AtIdeal

end Cert.KernelIdeal.Lap

end
-- ==== Proof.KiAccVal1.lean ====
/-
  The second launch's input blocks read off their arrays, and the value of its accumulator over the extended reals.

  The grid is two groups of 977 tiles; tile `n` (row-major, `n = 977 g + t`) reads, in each of the three input
  arrays, block row 0 and block column `n`: columns `1024 n … 1024 n + 1023` of the 6 x 2000896 neighbour sums and
  self coordinates and of the 1 x 2000896 counts. Over the extended reals the tile's stored value is what was carried
  plus the tile's sum `tile1` (the lanes' and channels' squared differences of the scaled differences), and the
  carried value is zero at a group's first tile; so the accumulator after tile `n` is the sum of `tile1` from the
  first tile of `n`'s group up to `n`, and at a group's last tile it is the sum over the group's 977 tiles.
  Addition on the extended reals is used as a commutative monoid only.
-/
import proofs.«428723_j14027363188886_4_alg».proof.Proof.KiAcc1
import proofs.«428723_j14027363188886_4_alg».proof.Proof.KiTile
import Idealize.ShloMosaic.Lib.ValueIdx

set_option maxRecDepth 16384

noncomputable section

open scoped BigOperators

namespace Cert.KernelIdeal.Lap

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The input blocks read off their arrays -/

/-- The three input windows' printed index maps, decided over the 1954 tiles: tile `t` reads block row 0 and
    block column `t` of each array. -/
theorem idx_facts1 : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

variable (V : (c : Dev nD) → (b : Ref sig .tc) → Buf (Elt F) ((c : Thread nD τ).loc b))

/-- Column `1024 t + l` is inside the padded arrays' 2000896 columns. -/
theorem col_lt1 (t : Fin cfg1.N) (l : Fin 1024) : 1024 * t.val + l.val < 2000896 := by
  have ht : t.val < 1954 := Nat.lt_of_lt_of_eq t.isLt N_1
  have hl := l.isLt
  omega

/-- Tile `t`'s block of the neighbour sums is columns `1024 t … 1024 t + 1023` of the array. -/
theorem nbr_read1 (c : Dev nD) (t : Fin cfg1.N) (r : Fin 6) (l : Fin 1024) :
    nbrBlk1 V c t (ix2 r l) = (V c main_v80 : Vec F S6x2000896 .f32) (ix2 r ⟨1024 * t.val + l.val, col_lt1 t l⟩) := by
  obtain ⟨e0, e1, -, -, -, -⟩ := idx_facts1 t
  show V c main_v80 (((cfg1.win 0).blk t).view.emb (ix2 r l)) = _
  refine congrArg (V c main_v80) (funext fun a => Fin.ext ?_)
  match a with
  | ⟨0, _⟩ => show win1_0.index t (0 : Fin 2) * 6 + 1 * r.val = r.val; omega
  | ⟨1, _⟩ => show win1_0.index t (1 : Fin 2) * 1024 + 1 * l.val = 1024 * t.val + l.val; omega

/-- Tile `t`'s block of the self coordinates is columns `1024 t … 1024 t + 1023` of the array. -/
theorem crd_read1 (c : Dev nD) (t : Fin cfg1.N) (r : Fin 6) (l : Fin 1024) :
    crdBlk1 V c t (ix2 r l) = (V c main_v82 : Vec F S6x2000896 .f32) (ix2 r ⟨1024 * t.val + l.val, col_lt1 t l⟩) := by
  obtain ⟨-, -, e0, e1, -, -⟩ := idx_facts1 t
  show V c main_v82 (((cfg1.win 1).blk t).view.emb (ix2 r l)) = _
  refine congrArg (V c main_v82) (funext fun a => Fin.ext ?_)
  match a with
  | ⟨0, _⟩ => show win1_1.index t (0 : Fin 2) * 6 + 1 * r.val = r.val; omega
  | ⟨1, _⟩ => show win1_1.index t (1 : Fin 2) * 1024 + 1 * l.val = 1024 * t.val + l.val; omega

/-- Tile `t`'s block of the counts is columns `1024 t … 1024 t + 1023` of the one-row array. -/
theorem cnt_read1 (c : Dev nD) (t : Fin cfg1.N) (l : Fin 1024) :
    cntBlk1 V c t (ix2 0 l) = (V c main_v84 : Vec F S1x2000896 .f32) (ix2 0 ⟨1024 * t.val + l.val, col_lt1 t l⟩) := by
  obtain ⟨-, -, -, -, e0, e1⟩ := idx_facts1 t
  show V c main_v84 (((cfg1.win 2).blk t).view.emb (ix2 0 l)) = _
  refine congrArg (V c main_v84) (funext fun a => Fin.ext ?_)
  match a with
  | ⟨0, _⟩ => show win1_2.index t (0 : Fin 2) * 1 + 1 * 0 = 0; omega
  | ⟨1, _⟩ => show win1_2.index t (1 : Fin 2) * 1024 + 1 * l.val = 1024 * t.val + l.val; omega

/-! ## The accumulator's value over the extended reals -/

section AtIdeal

variable (V : (c : Dev nD) → (b : Ref sig .tc) → Buf (Elt Ideal) ((c : Thread nD τ).loc b))

/-- Tile `s`'s sum: over its 1024 lanes and the three channels, the squared difference of the two coordinate
    sets' scaled differences, read off the tile's three input blocks; zero past the last tile. -/
def tile1 (c : Dev nD) (s : ℕ) : EReal :=
  if h : s < cfg1.N then
    ∑ l : Fin 1024, ∑ ch : Fin 3,
      (LapTile.lapAt (nbrBlk1 V c ⟨s, h⟩) (crdBlk1 V c ⟨s, h⟩) (cntBlk1 V c ⟨s, h⟩) (Fin.castLE (by omega) ch) l
        - LapTile.lapAt (nbrBlk1 V c ⟨s, h⟩) (crdBlk1 V c ⟨s, h⟩) (cntBlk1 V c ⟨s, h⟩) (Fin.natAdd 3 ch) l)
      * (LapTile.lapAt (nbrBlk1 V c ⟨s, h⟩) (crdBlk1 V c ⟨s, h⟩) (cntBlk1 V c ⟨s, h⟩) (Fin.castLE (by omega) ch) l
        - LapTile.lapAt (nbrBlk1 V c ⟨s, h⟩) (crdBlk1 V c ⟨s, h⟩) (cntBlk1 V c ⟨s, h⟩) (Fin.natAdd 3 ch) l)
  else 0

/-- The tile's stored value at its one index: what was carried plus the tile's sum. -/
theorem pay2_tile1 (c : Dev nD) (s : ℕ) (h : s < cfg1.N) (a : Vec Ideal S1x1 .f32) :
    k1_pay2 (F := Ideal) (nbrBlk1 V c ⟨s, h⟩) (crdBlk1 V c ⟨s, h⟩) (cntBlk1 V c ⟨s, h⟩) a (ix2 0 0)
      = a (ix2 0 0) + tile1 V c s := by
  rw [LapTile.k1_pay2_apply, tile1, dif_pos h]

/-- THE ACCUMULATOR AFTER TILE `n`: the sum of the tiles' sums from the first tile of `n`'s group up to `n`. -/
theorem acc1_val (c : Dev nD) (n : ℕ) (hn : n < cfg1.N) :
    acc1 (F := Ideal) V c n hn (ix2 0 0) = ∑ s ∈ Finset.Icc (977 * (n / 977)) n, tile1 V c s := by
  induction n with
  | zero =>
    rw [acc1, pay2_tile1, LapTile.k1_pay1_zero, zero_add]
    show _ = ∑ s ∈ Finset.Icc (977 * (0 / 977)) 0, tile1 V c s
    rw [Nat.zero_div, Nat.mul_zero, Finset.Icc_self, Finset.sum_singleton]
  | succ k ih =>
    rw [acc1, pay2_tile1]
    by_cases hm : (k + 1) % 977 = 0
    · rw [if_pos hm, LapTile.k1_pay1_zero, zero_add]
      have hs : 977 * ((k + 1) / 977) = k + 1 := by omega
      rw [hs, Finset.Icc_self, Finset.sum_singleton]
    · rw [if_neg hm, ih (Nat.lt_of_succ_lt hn)]
      have hd : (k + 1) / 977 = k / 977 := by omega
      rw [hd, Finset.sum_Icc_succ_top (by omega : 977 * (k / 977) ≤ k + 1)]

/-- The last tile of group `g` is a tile. -/
theorem group_last_lt1 (g : Fin 2) : 977 * g.val + 976 < cfg1.N := by
  have hg := g.isLt
  show 977 * g.val + 976 < grid1.N
  rw [N_1]
  omega

/-- THE ACCUMULATOR AT A GROUP'S LAST TILE: the sum of the group's 977 tiles' sums. -/
theorem acc1_group (c : Dev nD) (g : Fin 2) :
    acc1 (F := Ideal) V c (977 * g.val + 976) (group_last_lt1 g) (ix2 0 0)
      = ∑ s ∈ Finset.Ico (977 * g.val) (977 * g.val + 977), tile1 V c s := by
  rw [acc1_val]
  have hd : 977 * ((977 * g.val + 976) / 977) = 977 * g.val := by omega
  rw [hd]
  refine Finset.sum_congr (Finset.ext fun x => ?_) fun _ _ => rfl
  rw [Finset.mem_Icc, Finset.mem_Ico]
  omega

end AtIdeal

end Cert.KernelIdeal.Lap

end
-- ==== Proof.RefRead.lean ====
/-
  The idealized reference's result, read as sums over the nodes.

  For each mesh (coarse: 500000 nodes; fine: 2000000 nodes) the reference forms, per node `i` and channel `ch`, the
  Laplacian coordinate `x i ch − nb i ch / cnt i` of the input and of the prediction, where `nb` is the sum of the
  gathered neighbours (kept here as an opaque function of the arrays) and `cnt i` is the signed reading of column 9 of
  the node's row of the neighbour table. It squares the difference of the two Laplacian coordinates, sums the squares
  over the three channels and then over all nodes, divides by the number of nodes and halves. The result is the sum of
  the two halves.

  Three facts are read off the reference's stages, one element at a time:
  * `cnt_*`: a count is the signed integer in column 9, as an extended real;
  * `sum_c` / `sum_f`: the scalar a mesh's two float sums produce is the double sum over nodes and channels of the
    squared difference (each float sum is "initial value plus the sum", and the initial value is the zero word);
  * `result_eq`: the result is half the coarse sum over 500000 plus half the fine sum over 2000000, the three float
    literals kept as their 32-bit words.
-/
import proofs.«428723_j14027363188886_4_alg».proof.Proof.Gen.ReferenceIdeal.Read
import Idealize.ShloMosaic.Lib.ValueIdx
import Idealize.ShloMosaic.Lib.ValueIdxRank1
import Idealize.ShloMosaic.PureOps.Ideal.Laws

noncomputable section

open scoped BigOperators

namespace Cert.ReferenceIdeal.LapRef

open Cert.ReferenceIdeal Cert.ReferenceIdeal.Read Idealize.ShloMosaic Idealize.ShloMosaic.ValueIdx

/-! ## Sums over a rank-1 index set are sums over its coordinate -/

/-- A sum over the indices of a one-axis shape is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-! ## The index maps of the layout stages, at a node and a channel -/

/-- Coarse, first count: row `i`, the single column of the slice starting at column 9, is entry `(i, 9)`. -/
theorem idx_cnt_c16 (i : Fin 500000) : idx_main_v14 (idx_main_v15 (ix1 i)) = ix2 i 9 :=
  funext fun a => Fin.ext (by
    match a with
    | ⟨0, _⟩ => show i.val / 1 = i.val; omega
    | ⟨1, _⟩ => rfl)

/-- Coarse, second count: the same entry. -/
theorem idx_cnt_c37 (i : Fin 500000) : idx_main_v35 (idx_main_v36 (ix1 i)) = ix2 i 9 :=
  funext fun a => Fin.ext (by
    match a with
    | ⟨0, _⟩ => show i.val / 1 = i.val; omega
    | ⟨1, _⟩ => rfl)

/-- Fine, first count. -/
theorem idx_cnt_f64 (i : Fin 2000000) : idx_main_v62 (idx_main_v63 (ix1 i)) = ix2 i 9 :=
  funext fun a => Fin.ext (by
    match a with
    | ⟨0, _⟩ => show i.val / 1 = i.val; omega
    | ⟨1, _⟩ => rfl)

/-- Fine, second count. -/
theorem idx_cnt_f85 (i : Fin 2000000) : idx_main_v83 (idx_main_v84 (ix1 i)) = ix2 i 9 :=
  funext fun a => Fin.ext (by
    match a with
    | ⟨0, _⟩ => show i.val / 1 = i.val; omega
    | ⟨1, _⟩ => rfl)

/-- Coarse: the count broadcast along the channels reads node `i`'s count at every channel (first Laplacian). -/
theorem idx_bc_c18 (i : Fin 500000) (ch : Fin 3) : idx_main_v17 (idx_main_v18 (ix2 i ch)) = ix1 i :=
  funext fun a => Fin.ext (by match a with | ⟨0, _⟩ => rfl)

/-- Coarse: the same for the second Laplacian. -/
theorem idx_bc_c39 (i : Fin 500000) (ch : Fin 3) : idx_main_v38 (idx_main_v39 (ix2 i ch)) = ix1 i :=
  funext fun a => Fin.ext (by match a with | ⟨0, _⟩ => rfl)

/-- Fine: the count broadcast along the channels (first Laplacian). -/
theorem idx_bc_f66 (i : Fin 2000000) (ch : Fin 3) : idx_main_v65 (idx_main_v66 (ix2 i ch)) = ix1 i :=
  funext fun a => Fin.ext (by match a with | ⟨0, _⟩ => rfl)

/-- Fine: the same for the second Laplacian. -/
theorem idx_bc_f87 (i : Fin 2000000) (ch : Fin 3) : idx_main_v86 (idx_main_v87 (ix2 i ch)) = ix1 i :=
  funext fun a => Fin.ext (by match a with | ⟨0, _⟩ => rfl)

/-- Coarse: the channel sum at node `i` reads entry `(i, ch)`. -/
theorem idx_ch_c44 (i : Fin 500000) (ch : Fin 3) : idx_main_v44 (ix1 i) ch = ix2 i ch :=
  funext fun a => Fin.ext (by match a with | ⟨0, _⟩ => rfl | ⟨1, _⟩ => rfl)

/-- Fine: the channel sum at node `i` reads entry `(i, ch)`. -/
theorem idx_ch_f92 (i : Fin 2000000) (ch : Fin 3) : idx_main_v92 (ix1 i) ch = ix2 i ch :=
  funext fun a => Fin.ext (by match a with | ⟨0, _⟩ => rfl | ⟨1, _⟩ => rfl)

/-! ## The counts -/

/-- Coarse, first Laplacian: the count of node `i` is the signed integer in column 9 of its row. -/
theorem cnt_c (x4 : (⟨S500000x10, .i32⟩ : BufTy).Contents (Elt Ideal)) (i : Fin 500000) :
    val_main_v16 (F := Ideal) x4 (ix1 i) = (((x4 (ix2 i 9)).toInt : ℝ) : EReal) := by
  rw [val_main_v16_apply, val_main_v15_apply, val_main_v14_apply, idx_cnt_c16]
  rfl

/-- Coarse, second Laplacian: the same count. -/
theorem cnt_c' (x4 : (⟨S500000x10, .i32⟩ : BufTy).Contents (Elt Ideal)) (i : Fin 500000) :
    val_main_v37 (F := Ideal) x4 (ix1 i) = (((x4 (ix2 i 9)).toInt : ℝ) : EReal) := by
  rw [val_main_v37_apply, val_main_v36_apply, val_main_v35_apply, idx_cnt_c37]
  rfl

/-- Fine, first Laplacian. -/
theorem cnt_f (x5 : (⟨S2000000x10, .i32⟩ : BufTy).Contents (Elt Ideal)) (i : Fin 2000000) :
    val_main_v64 (F := Ideal) x5 (ix1 i) = (((x5 (ix2 i 9)).toInt : ℝ) : EReal) := by
  rw [val_main_v64_apply, val_main_v63_apply, val_main_v62_apply, idx_cnt_f64]
  rfl

/-- Fine, second Laplacian. -/
theorem cnt_f' (x5 : (⟨S2000000x10, .i32⟩ : BufTy).Contents (Elt Ideal)) (i : Fin 2000000) :
    val_main_v85 (F := Ideal) x5 (ix1 i) = (((x5 (ix2 i 9)).toInt : ℝ) : EReal) := by
  rw [val_main_v85_apply, val_main_v84_apply, val_main_v83_apply, idx_cnt_f85]
  rfl

/-! ## One mesh's scalar: the double sum of the squared differences -/

/-- Coarse: the squared difference of the two Laplacian coordinates at node `i`, channel `ch`. -/
theorem sq_c (x0 x1 : (⟨S500000x3, .f32⟩ : BufTy).Contents (Elt Ideal))
    (x4 : (⟨S500000x10, .i32⟩ : BufTy).Contents (Elt Ideal)) (i : Fin 500000) (ch : Fin 3) :
    val_main_v43 (F := Ideal) x0 x1 x4 (ix2 i ch) =
      ((x0 (ix2 i ch) - Ideal.div (val_main_v13 (F := Ideal) x0 x4 (ix2 i ch)) (val_main_v16 (F := Ideal) x4 (ix1 i)))
        - (x1 (ix2 i ch) - Ideal.div (val_main_v34 (F := Ideal) x1 x4 (ix2 i ch)) (val_main_v37 (F := Ideal) x4 (ix1 i))))
      * ((x0 (ix2 i ch) - Ideal.div (val_main_v13 (F := Ideal) x0 x4 (ix2 i ch)) (val_main_v16 (F := Ideal) x4 (ix1 i)))
        - (x1 (ix2 i ch) - Ideal.div (val_main_v34 (F := Ideal) x1 x4 (ix2 i ch)) (val_main_v37 (F := Ideal) x4 (ix1 i)))) := by
  rw [val_main_v43_apply, val_main_v42_apply, val_main_v20_apply, val_main_v41_apply, val_main_v19_apply,
    val_main_v40_apply, val_main_v18_apply, val_main_v39_apply, val_main_v17_apply, val_main_v38_apply,
    idx_bc_c18, idx_bc_c39]
  rfl

/-- Fine: the squared difference of the two Laplacian coordinates at node `i`, channel `ch`. -/
theorem sq_f (x2 x3 : (⟨S2000000x3, .f32⟩ : BufTy).Contents (Elt Ideal))
    (x5 : (⟨S2000000x10, .i32⟩ : BufTy).Contents (Elt Ideal)) (i : Fin 2000000) (ch : Fin 3) :
    val_main_v91 (F := Ideal) x2 x3 x5 (ix2 i ch) =
      ((x2 (ix2 i ch) - Ideal.div (val_main_v61 (F := Ideal) x2 x5 (ix2 i ch)) (val_main_v64 (F := Ideal) x5 (ix1 i)))
        - (x3 (ix2 i ch) - Ideal.div (val_main_v82 (F := Ideal) x3 x5 (ix2 i ch)) (val_main_v85 (F := Ideal) x5 (ix1 i))))
      * ((x2 (ix2 i ch) - Ideal.div (val_main_v61 (F := Ideal) x2 x5 (ix2 i ch)) (val_main_v64 (F := Ideal) x5 (ix1 i)))
        - (x3 (ix2 i ch) - Ideal.div (val_main_v82 (F := Ideal) x3 x5 (ix2 i ch)) (val_main_v85 (F := Ideal) x5 (ix1 i)))) := by
  rw [val_main_v91_apply, val_main_v90_apply, val_main_v68_apply, val_main_v89_apply, val_main_v67_apply,
    val_main_v88_apply, val_main_v66_apply, val_main_v87_apply, val_main_v65_apply, val_main_v86_apply,
    idx_bc_f66, idx_bc_f87]
  rfl

/-- Coarse: the scalar the two float sums produce is the sum over the nodes, and over the three channels, of the
    squared difference of the two Laplacian coordinates. Both initial values are the zero word. -/
theorem sum_c (x0 x1 : (⟨S500000x3, .f32⟩ : BufTy).Contents (Elt Ideal))
    (x4 : (⟨S500000x10, .i32⟩ : BufTy).Contents (Elt Ideal)) :
    val_main_v45 (F := Ideal) x0 x1 x4 ix0 = ∑ i : Fin 500000, ∑ ch : Fin 3,
      ((x0 (ix2 i ch) - Ideal.div (val_main_v13 (F := Ideal) x0 x4 (ix2 i ch)) (val_main_v16 (F := Ideal) x4 (ix1 i)))
        - (x1 (ix2 i ch) - Ideal.div (val_main_v34 (F := Ideal) x1 x4 (ix2 i ch)) (val_main_v37 (F := Ideal) x4 (ix1 i))))
      * ((x0 (ix2 i ch) - Ideal.div (val_main_v13 (F := Ideal) x0 x4 (ix2 i ch)) (val_main_v16 (F := Ideal) x4 (ix1 i)))
        - (x1 (ix2 i ch) - Ideal.div (val_main_v34 (F := Ideal) x1 x4 (ix2 i ch)) (val_main_v37 (F := Ideal) x4 (ix1 i)))) := by
  rw [val_main_v45_apply, val_main_cst_11_apply, Ideal.ofBits_def, Ideal.ofBits_zero_f32, zero_add, sum_idx1]
  refine Finset.sum_congr rfl fun i _ => ?_
  rw [val_main_v44_apply, val_main_cst_10_apply, Ideal.ofBits_def, Ideal.ofBits_zero_f32, zero_add]
  refine Finset.sum_congr rfl fun ch _ => ?_
  rw [idx_ch_c44, sq_c]

/-- Fine: the scalar the two float sums produce is the sum over the nodes, and over the three channels, of the
    squared difference of the two Laplacian coordinates. Both initial values are the zero word. -/
theorem sum_f (x2 x3 : (⟨S2000000x3, .f32⟩ : BufTy).Contents (Elt Ideal))
    (x5 : (⟨S2000000x10, .i32⟩ : BufTy).Contents (Elt Ideal)) :
    val_main_v93 (F := Ideal) x2 x3 x5 ix0 = ∑ i : Fin 2000000, ∑ ch : Fin 3,
      ((x2 (ix2 i ch) - Ideal.div (val_main_v61 (F := Ideal) x2 x5 (ix2 i ch)) (val_main_v64 (F := Ideal) x5 (ix1 i)))
        - (x3 (ix2 i ch) - Ideal.div (val_main_v82 (F := Ideal) x3 x5 (ix2 i ch)) (val_main_v85 (F := Ideal) x5 (ix1 i))))
      * ((x2 (ix2 i ch) - Ideal.div (val_main_v61 (F := Ideal) x2 x5 (ix2 i ch)) (val_main_v64 (F := Ideal) x5 (ix1 i)))
        - (x3 (ix2 i ch) - Ideal.div (val_main_v82 (F := Ideal) x3 x5 (ix2 i ch)) (val_main_v85 (F := Ideal) x5 (ix1 i)))) := by
  rw [val_main_v93_apply, val_main_cst_27_apply, Ideal.ofBits_def, Ideal.ofBits_zero_f32, zero_add, sum_idx1]
  refine Finset.sum_congr rfl fun i _ => ?_
  rw [val_main_v92_apply, val_main_cst_26_apply, Ideal.ofBits_def, Ideal.ofBits_zero_f32, zero_add]
  refine Finset.sum_congr rfl fun ch _ => ?_
  rw [idx_ch_f92, sq_f]

/-! ## The result -/

/-- The reference's result: one half times the coarse scalar over 500000, plus one half times the fine scalar over
    2000000; the literals one half, 500000 and 2000000 are kept as their 32-bit words. -/
theorem result_eq (x0 x1 : (⟨S500000x3, .f32⟩ : BufTy).Contents (Elt Ideal))
    (x2 x3 : (⟨S2000000x3, .f32⟩ : BufTy).Contents (Elt Ideal))
    (x4 : (⟨S500000x10, .i32⟩ : BufTy).Contents (Elt Ideal))
    (x5 : (⟨S2000000x10, .i32⟩ : BufTy).Contents (Elt Ideal)) :
    val_main_v96 (F := Ideal) x0 x1 x2 x3 x4 x5 ix0 =
      Ideal.ofBits .f32 0x3F000000#32
          * Ideal.div (val_main_v45 (F := Ideal) x0 x1 x4 ix0) (Ideal.ofBits .f32 0x48F42400#32)
        + Ideal.ofBits .f32 0x3F000000#32
          * Ideal.div (val_main_v93 (F := Ideal) x2 x3 x5 ix0) (Ideal.ofBits .f32 0x49F42400#32) := by
  rw [val_main_v96_apply, val_main_v47_apply, val_main_v95_apply, val_main_v46_apply, val_main_v94_apply,
    val_main_cst_13_apply, val_main_cst_29_apply, val_main_cst_12_apply, val_main_cst_28_apply]
  rfl

end Cert.ReferenceIdeal.LapRef

end
-- ==== Proof.LibTileSum.lean ====
/-
  Sums over tiled column ranges, over an arbitrary additive commutative monoid.

  A row of `T * L` columns is cut into `T` tiles of `L` lanes; a run of `T` consecutive tiles forms a group. The
  lemmas below say that summing tile by tile, group by group, or over a padded range whose padding is zero, gives
  the plain sum over the columns. Nothing here uses subtraction or cancellation in the monoid.
-/
import Mathlib.Algebra.BigOperators.Fin
import Mathlib.Algebra.BigOperators.Intervals
import Mathlib.Algebra.BigOperators.Group.Finset.Basic
import Mathlib.Order.Interval.Finset.Nat

open scoped BigOperators

namespace Cert.LibTileSum

variable {M : Type*} [AddCommMonoid M]

/-- A sum over the coordinate type `Fin n` is the sum over the range below `n`. -/
theorem sum_fin_range (n : ℕ) (f : ℕ → M) : ∑ i : Fin n, f i.val = ∑ j ∈ Finset.range n, f j :=
  (Finset.sum_range f).symm

/-- A sum over `T` tiles of `L` lanes each is the sum over the `T * L` columns: column `L * s + l` is lane `l` of
    tile `s`. -/
theorem sum_tiles (T L : ℕ) (f : ℕ → M) :
    ∑ s ∈ Finset.range T, ∑ l : Fin L, f (L * s + l.val) = ∑ j ∈ Finset.range (T * L), f j := by
  induction T with
  | zero => simp
  | succ T ih =>
    rw [Finset.sum_range_succ, ih, Nat.succ_mul, Finset.sum_range_add, Nat.mul_comm T L]
    congr 1
    exact sum_fin_range L fun l => f (L * T + l)

/-- Columns past the true extent `N` that hold zero do not change the sum over the padded extent `P`. -/
theorem sum_pad (N P : ℕ) (h : N ≤ P) (f : ℕ → M) (hz : ∀ j, N ≤ j → j < P → f j = 0) :
    ∑ j ∈ Finset.range P, f j = ∑ j ∈ Finset.range N, f j := by
  refine (Finset.sum_subset (Finset.range_mono h) fun j hj hn => ?_).symm
  rw [Finset.mem_range] at hj
  rw [Finset.mem_range, Nat.not_lt] at hn
  exact hz j hn hj

/-- The sums over `G` consecutive runs of `T` tiles add up to the sum over all `G * T` tiles. -/
theorem sum_groups (G T : ℕ) (f : ℕ → M) :
    ∑ g ∈ Finset.range G, ∑ s ∈ Finset.Ico (T * g) (T * g + T), f s = ∑ s ∈ Finset.range (G * T), f s := by
  induction G with
  | zero => simp
  | succ G ih =>
    rw [Finset.sum_range_succ, ih, Nat.succ_mul, Finset.sum_range_add, Finset.sum_Ico_eq_sum_range,
      Nat.add_sub_cancel_left, Nat.mul_comm T G]

/-- A run of `T > 0` tiles written with its last tile `T * g + (T - 1)` included is the half-open run up to
    `T * g + T`. -/
theorem sum_Icc_run (T g : ℕ) (hT : 0 < T) (f : ℕ → M) :
    ∑ s ∈ Finset.Icc (T * g) (T * g + (T - 1)), f s = ∑ s ∈ Finset.Ico (T * g) (T * g + T), f s := by
  refine Finset.sum_congr ?_ fun _ _ => rfl
  generalize T * g = a
  ext s
  rw [Finset.mem_Icc, Finset.mem_Ico]
  omega

end Cert.LibTileSum
-- ==== Proof.LapSpec.lean ====
/-
  The mathematics both programs compute, stated once over plain index functions on the extended reals.

  Per node `i` with self coordinates `a1 i, a2 i : Fin 3 → EReal` and scaled neighbour sums `u1 i, u2 i`,
  the Laplacian coordinates are `a − u`, and the node contributes the squared distance of the two Laplacian
  coordinates, summed over the three channels (`nodeSq`). A regulariser is the sum over the nodes divided by their
  number; the loss is half the coarse regulariser plus half the fine one.

  The two programs differ only in how a neighbour sum `s` is scaled by the node's neighbour count `c`: the reference
  divides, `s / c`; the kernel multiplies by a guarded reciprocal, `s · (1 / max c 1)`. For a count that is a real
  number at least one these are the same extended real for EVERY `s`, finite or not (`guard_scale`): the maximum is
  `c`, and division by a nonzero real is multiplication by its reciprocal.
-/
import Idealize.ShloMosaic.PureOps.Ideal
import Idealize.ShloMosaic.PureOps.Ideal.Laws

noncomputable section

namespace Cert.LapSpec

open Idealize.ShloMosaic

/-- One node's contribution: over the three channels, the square of the difference of the two Laplacian
    coordinates `a1 − u1` and `a2 − u2`. -/
def nodeSq (a1 a2 u1 u2 : Fin 3 → EReal) : EReal :=
  ∑ ch : Fin 3, ((a1 ch - u1 ch) - (a2 ch - u2 ch)) * ((a1 ch - u1 ch) - (a2 ch - u2 ch))

/-- The one (a real number read as an extended real) is at most a count that is at least one, so their maximum is the
    count. -/
theorem max_count_one {c : ℝ} (hc : 1 ≤ c) : max (c : EReal) 1 = (c : EReal) := by
  apply max_eq_left
  exact_mod_cast hc

/-- THE LAW THAT JOINS THE TWO SIDES. For a neighbour count `c ≥ 1`, scaling a neighbour sum `s` by the guarded
    reciprocal `1 / max c 1` is dividing it by `c` — for every extended real `s`. -/
theorem guard_scale (s : EReal) {c : ℝ} (hc : 1 ≤ c) :
    s * Ideal.div 1 (max (c : EReal) 1) = Ideal.div s (c : EReal) := by
  have hc0 : c ≠ 0 := by linarith
  rw [max_count_one hc, Ideal.div_coe hc0, Ideal.div_coe hc0, one_mul]

/-- A node of zero coordinates and zero neighbour sums, whatever finite scale its sums are given, contributes
    nothing: the padded columns of the kernel's tiles. -/
theorem nodeSq_zero : nodeSq (fun _ => 0) (fun _ => 0) (fun _ => 0) (fun _ => 0) = 0 := by
  simp [nodeSq]

end Cert.LapSpec

end
-- ==== Proof.KiBridge0.lean ====
/-
  The sum of the coarse region's tile sums is the reference's sum over the coarse nodes.

  Column `j` of the three padded operands the region reads carries, for `j < 500000`, node `j`'s two coordinate
  sets, its two neighbour sums and its neighbour count; from column 500000 on the coordinates and sums are zero and the
  count is one. A tile's sum is the sum over its 1024 columns of the column's term (the three channels' squared
  difference of the two scaled differences); a node's column term is the reference's node term because, for a count
  that is a real at least one, scaling by the guarded reciprocal is dividing by the count; a padded column's term is
  zero. Summing tile by tile is summing over the 501760 columns, of which only the first 500000 contribute.
  Addition on the extended reals is used as a commutative monoid only.
-/
import proofs.«428723_j14027363188886_4_alg».proof.Proof.KiHost
import proofs.«428723_j14027363188886_4_alg».proof.Proof.KiVals
import proofs.«428723_j14027363188886_4_alg».proof.Proof.KiAccVal0
import proofs.«428723_j14027363188886_4_alg».proof.Proof.KiTile
import proofs.«428723_j14027363188886_4_alg».proof.Proof.RefRead
import proofs.«428723_j14027363188886_4_alg».proof.Proof.LibTileSum
import proofs.«428723_j14027363188886_4_alg».proof.Proof.LapSpec

set_option maxRecDepth 16384

noncomputable section

open scoped BigOperators

namespace Cert.KernelIdeal.LapBridge

open Cert.KernelIdeal Cert.KernelIdeal.Gen Cert.KernelIdeal.LapHost
open Idealize.ShloMosaic Idealize.ShloMosaic.TcCoe Idealize.ShloMosaic.ValueIdx

variable (m : (ℓ : Loc nD τ sig) → Buf (Elt Ideal) ℓ) (c : Dev nD)

/-! ## The column term -/

/-- The three padded operands the coarse region reads, as arrays of extended reals. -/
abbrev nbr7 : S6x501760.Idx → EReal := V7 m c main_v35
abbrev crd7 : S6x501760.Idx → EReal := V7 m c main_v37
abbrev cnt7 : S1x501760.Idx → EReal := V7 m c main_v39

/-- The scaled difference at row `r` and column `jj`: coordinate minus neighbour sum times the guarded reciprocal of the count. -/
def lapCol0 (r : Fin 6) (jj : Fin 501760) : EReal :=
  crd7 m c (ix2 r jj) - nbr7 m c (ix2 r jj) * Ideal.div 1 (max (cnt7 m c (ix2 (0 : Fin 1) jj)) 1)

/-- Column `j`'s term: over the three channels, the squared difference of the two coordinate sets' scaled differences;
    zero past the last column. -/
def col0 (j : ℕ) : EReal :=
  if h : j < 501760 then
    ∑ ch : Fin 3,
      (lapCol0 m c (Fin.castLE (by omega) ch) ⟨j, h⟩ - lapCol0 m c (Fin.natAdd 3 ch) ⟨j, h⟩)
      * (lapCol0 m c (Fin.castLE (by omega) ch) ⟨j, h⟩ - lapCol0 m c (Fin.natAdd 3 ch) ⟨j, h⟩)
  else 0

/-- Node `i`'s term in the reference's sum. -/
def node0 (i : Fin 500000) : EReal :=
  ∑ ch : Fin 3,
    ((A0 m c (ix2 i ch) - Ideal.div (Cert.ReferenceIdeal.Read.val_main_v13 (F := Ideal) (A0 m c) (A4 m c) (ix2 i ch)) (Cert.ReferenceIdeal.Read.val_main_v16 (F := Ideal) (A4 m c) (ix1 i)))
      - (A1 m c (ix2 i ch) - Ideal.div (Cert.ReferenceIdeal.Read.val_main_v34 (F := Ideal) (A1 m c) (A4 m c) (ix2 i ch)) (Cert.ReferenceIdeal.Read.val_main_v37 (F := Ideal) (A4 m c) (ix1 i))))
    * ((A0 m c (ix2 i ch) - Ideal.div (Cert.ReferenceIdeal.Read.val_main_v13 (F := Ideal) (A0 m c) (A4 m c) (ix2 i ch)) (Cert.ReferenceIdeal.Read.val_main_v16 (F := Ideal) (A4 m c) (ix1 i)))
      - (A1 m c (ix2 i ch) - Ideal.div (Cert.ReferenceIdeal.Read.val_main_v34 (F := Ideal) (A1 m c) (A4 m c) (ix2 i ch)) (Cert.ReferenceIdeal.Read.val_main_v37 (F := Ideal) (A4 m c) (ix1 i))))

/-! ## A tile's sum is the sum of its columns' terms -/

/-- A tile's scaled difference at a row and a lane is the arrays' at the tile's column. -/
theorem lap_read (t : Fin cfg0.N) (r : Fin 6) (l : Fin 1024) :
    LapTile.lapAt (Lap.nbrBlk0 (Lap.VR7 m) c t) (Lap.crdBlk0 (Lap.VR7 m) c t) (Lap.cntBlk0 (Lap.VR7 m) c t) r l
      = lapCol0 m c r ⟨1024 * t.val + l.val, Lap.col_lt t l⟩ := by
  unfold LapTile.lapAt lapCol0
  rw [Lap.nbr_read, Lap.crd_read, Lap.cnt_read]

theorem tile0_cols (s : ℕ) (hs : s < 490) :
    Lap.tile0 (Lap.VR7 m) c s = ∑ l : Fin 1024, col0 m c (1024 * s + l.val) := by
  have h : s < cfg0.N := by show s < grid0.N; rw [N_0]; exact hs
  rw [Lap.tile0, dif_pos h]
  refine Finset.sum_congr rfl fun l _ => ?_
  have hcol : 1024 * s + l.val < 501760 := Lap.col_lt ⟨s, h⟩ l
  rw [col0, dif_pos hcol]
  refine Finset.sum_congr rfl fun ch _ => ?_
  rw [lap_read, lap_read]

/-! ## A node's column -/

section Node
variable (j : ℕ) (h : j < 501760) (hj : j < 500000) (ch : Fin 3)

theorem crd_lo0 : crd7 m c (ix2 (Fin.castLE (by omega : 3 ≤ 6) ch) ⟨j, h⟩) = A0 m c (ix2 (⟨j, hj⟩ : Fin 500000) ch) := by
  have hr : (Fin.castLE (by omega : 3 ≤ 6) ch).val < 3 := ch.isLt
  refine (v37_lo m c _ ⟨j, h⟩ hj).trans ?_
  rw [dif_pos hr]
  rfl

theorem crd_lo1 : crd7 m c (ix2 (Fin.natAdd 3 ch) ⟨j, h⟩) = A1 m c (ix2 (⟨j, hj⟩ : Fin 500000) ch) := by
  have hr : ¬ (Fin.natAdd 3 ch).val < 3 := by show ¬ (3 + ch.val < 3); omega
  refine (v37_lo m c _ ⟨j, h⟩ hj).trans ?_
  rw [dif_neg hr]
  exact congrArg (fun q : Fin 3 => A1 m c (ix2 (⟨j, hj⟩ : Fin 500000) q)) (Fin.ext (by show 3 + ch.val - 3 = ch.val; omega))

theorem nbr_lo0 : nbr7 m c (ix2 (Fin.castLE (by omega : 3 ≤ 6) ch) ⟨j, h⟩)
    = Cert.ReferenceIdeal.Read.val_main_v13 (F := Ideal) (A0 m c) (A4 m c) (ix2 (⟨j, hj⟩ : Fin 500000) ch) := by
  have hr : (Fin.castLE (by omega : 3 ≤ 6) ch).val < 3 := ch.isLt
  refine (v35_lo m c _ ⟨j, h⟩ hj).trans ?_
  rw [dif_pos hr, v13_eq]
  rfl

theorem nbr_lo1 : nbr7 m c (ix2 (Fin.natAdd 3 ch) ⟨j, h⟩)
    = Cert.ReferenceIdeal.Read.val_main_v34 (F := Ideal) (A1 m c) (A4 m c) (ix2 (⟨j, hj⟩ : Fin 500000) ch) := by
  have hr : ¬ (Fin.natAdd 3 ch).val < 3 := by show ¬ (3 + ch.val < 3); omega
  refine (v35_lo m c _ ⟨j, h⟩ hj).trans ?_
  rw [dif_neg hr, v23_eq]
  exact congrArg (fun q : Fin 3 => Cert.ReferenceIdeal.Read.val_main_v34 (F := Ideal) (A1 m c) (A4 m c) (ix2 (⟨j, hj⟩ : Fin 500000) q))
    (Fin.ext (by show 3 + ch.val - 3 = ch.val; omega))

theorem cnt_lo : cnt7 m c (ix2 (0 : Fin 1) ⟨j, h⟩) = (((A4 m c (ix2 (⟨j, hj⟩ : Fin 500000) (9 : Fin 10))).toInt : ℝ) : EReal) :=
  v39_lo m c ⟨j, h⟩ hj

end Node

/-- For a node whose count is at least one, the column's term is the reference's node term. -/
theorem col0_lo (hc : ∀ i : Fin 500000, 1 ≤ (A4 m c (ix2 i 9)).toInt) (j : ℕ) (hj : j < 500000) :
    col0 m c j = node0 m c ⟨j, hj⟩ := by
  have h : j < 501760 := by omega
  have hq : ∀ s : EReal, s * Ideal.div 1 (max ((((A4 m c (ix2 (⟨j, hj⟩ : Fin 500000) (9 : Fin 10))).toInt : ℝ) : EReal)) 1)
      = Ideal.div s ((((A4 m c (ix2 (⟨j, hj⟩ : Fin 500000) (9 : Fin 10))).toInt : ℝ) : EReal)) :=
    fun s => Cert.LapSpec.guard_scale s (by exact_mod_cast hc ⟨j, hj⟩)
  rw [col0, dif_pos h, node0]
  refine Finset.sum_congr rfl fun ch _ => ?_
  unfold lapCol0
  rw [crd_lo0 m c j h hj ch, crd_lo1 m c j h hj ch, nbr_lo0 m c j h hj ch, nbr_lo1 m c j h hj ch, cnt_lo m c j h hj,
    hq, hq, Cert.ReferenceIdeal.LapRef.cnt_c, Cert.ReferenceIdeal.LapRef.cnt_c']

/-! ## A padded column -/

/-- From column 500000 on the coordinates and the neighbour sums are zero, so the column's term is zero. -/
theorem col0_hi (j : ℕ) (h1 : 500000 ≤ j) (h : j < 501760) : col0 m c j = 0 := by
  have hcrd : ∀ r : Fin 6, crd7 m c (ix2 r ⟨j, h⟩) = 0 := fun r => v37_hi m c r ⟨j, h⟩ h1
  have hnbr : ∀ r : Fin 6, nbr7 m c (ix2 r ⟨j, h⟩) = 0 := fun r => v35_hi m c r ⟨j, h⟩ h1
  rw [col0, dif_pos h]
  refine Finset.sum_eq_zero fun ch _ => ?_
  unfold lapCol0
  rw [hcrd, hcrd, hnbr, hnbr, zero_mul, sub_zero, sub_zero, zero_mul]

/-! ## The sum over the tiles -/

/-- THE COARSE BRIDGE: the 490 tiles' sums add up to the reference's sum over the 500000 coarse nodes. -/
theorem sum_tiles0 (hc : ∀ i : Fin 500000, 1 ≤ (A4 m c (ix2 i 9)).toInt) :
    ∑ s ∈ Finset.range 490, Lap.tile0 (Lap.VR7 m) c s
      = Cert.ReferenceIdeal.Read.val_main_v45 (F := Ideal) (A0 m c) (A1 m c) (A4 m c) ix0 := by
  rw [Finset.sum_congr rfl fun s hs => tile0_cols m c s (Finset.mem_range.mp hs),
    Cert.LibTileSum.sum_tiles 490 1024 (col0 m c), show 490 * 1024 = 501760 from by norm_num,
    Cert.LibTileSum.sum_pad 500000 501760 (by norm_num) (col0 m c) (fun j h1 h => col0_hi m c j h1 h),
    ← Cert.LibTileSum.sum_fin_range 500000 (col0 m c),
    Finset.sum_congr rfl fun (i : Fin 500000) _ => col0_lo m c hc i.val i.isLt]
  exact (Cert.ReferenceIdeal.LapRef.sum_c (A0 m c) (A1 m c) (A4 m c)).symm

end Cert.KernelIdeal.LapBridge

end
-- ==== Proof.KiBridge1.lean ====
/-
  The sum of the fine region's tile sums is the reference's sum over the fine nodes.

  Column `j` of the three padded operands the region reads carries, for `j < 2000000`, node `j`'s two coordinate
  sets, its two neighbour sums and its neighbour count; from column 2000000 on the coordinates and sums are zero and the
  count is one. A tile's sum is the sum over its 1024 columns of the column's term (the three channels' squared
  difference of the two scaled differences); a node's column term is the reference's node term because, for a count
  that is a real at least one, scaling by the guarded reciprocal is dividing by the count; a padded column's term is
  zero. Summing tile by tile is summing over the 2000896 columns, of which only the first 2000000 contribute.
  Addition on the extended reals is used as a commutative monoid only.
-/
import proofs.«428723_j14027363188886_4_alg».proof.Proof.KiHost
import proofs.«428723_j14027363188886_4_alg».proof.Proof.KiVals
import proofs.«428723_j14027363188886_4_alg».proof.Proof.KiAccVal1
import proofs.«428723_j14027363188886_4_alg».proof.Proof.KiTile
import proofs.«428723_j14027363188886_4_alg».proof.Proof.RefRead
import proofs.«428723_j14027363188886_4_alg».proof.Proof.LibTileSum
import proofs.«428723_j14027363188886_4_alg».proof.Proof.LapSpec

set_option maxRecDepth 16384

noncomputable section

open scoped BigOperators

namespace Cert.KernelIdeal.LapBridge

open Cert.KernelIdeal Cert.KernelIdeal.Gen Cert.KernelIdeal.LapHost
open Idealize.ShloMosaic Idealize.ShloMosaic.TcCoe Idealize.ShloMosaic.ValueIdx

variable (m : (ℓ : Loc nD τ sig) → Buf (Elt Ideal) ℓ) (outs : Outs (F := Ideal)) (c : Dev nD)

/-! ## The column term -/

/-- The three padded operands the fine region reads, as arrays of extended reals. -/
abbrev nbr15 : S6x2000896.Idx → EReal := V15 m outs c main_v80
abbrev crd15 : S6x2000896.Idx → EReal := V15 m outs c main_v82
abbrev cnt15 : S1x2000896.Idx → EReal := V15 m outs c main_v84

/-- The scaled difference at row `r` and column `jj`: coordinate minus neighbour sum times the guarded reciprocal of the count. -/
def lapCol1 (r : Fin 6) (jj : Fin 2000896) : EReal :=
  crd15 m outs c (ix2 r jj) - nbr15 m outs c (ix2 r jj) * Ideal.div 1 (max (cnt15 m outs c (ix2 (0 : Fin 1) jj)) 1)

/-- Column `j`'s term: over the three channels, the squared difference of the two coordinate sets' scaled differences;
    zero past the last column. -/
def col1 (j : ℕ) : EReal :=
  if h : j < 2000896 then
    ∑ ch : Fin 3,
      (lapCol1 m outs c (Fin.castLE (by omega) ch) ⟨j, h⟩ - lapCol1 m outs c (Fin.natAdd 3 ch) ⟨j, h⟩)
      * (lapCol1 m outs c (Fin.castLE (by omega) ch) ⟨j, h⟩ - lapCol1 m outs c (Fin.natAdd 3 ch) ⟨j, h⟩)
  else 0

/-- Node `i`'s term in the reference's sum. -/
def node1 (i : Fin 2000000) : EReal :=
  ∑ ch : Fin 3,
    ((A2 m c (ix2 i ch) - Ideal.div (Cert.ReferenceIdeal.Read.val_main_v61 (F := Ideal) (A2 m c) (A5 m c) (ix2 i ch)) (Cert.ReferenceIdeal.Read.val_main_v64 (F := Ideal) (A5 m c) (ix1 i)))
      - (A3 m c (ix2 i ch) - Ideal.div (Cert.ReferenceIdeal.Read.val_main_v82 (F := Ideal) (A3 m c) (A5 m c) (ix2 i ch)) (Cert.ReferenceIdeal.Read.val_main_v85 (F := Ideal) (A5 m c) (ix1 i))))
    * ((A2 m c (ix2 i ch) - Ideal.div (Cert.ReferenceIdeal.Read.val_main_v61 (F := Ideal) (A2 m c) (A5 m c) (ix2 i ch)) (Cert.ReferenceIdeal.Read.val_main_v64 (F := Ideal) (A5 m c) (ix1 i)))
      - (A3 m c (ix2 i ch) - Ideal.div (Cert.ReferenceIdeal.Read.val_main_v82 (F := Ideal) (A3 m c) (A5 m c) (ix2 i ch)) (Cert.ReferenceIdeal.Read.val_main_v85 (F := Ideal) (A5 m c) (ix1 i))))

/-! ## A tile's sum is the sum of its columns' terms -/

/-- A tile's scaled difference at a row and a lane is the arrays' at the tile's column. -/
theorem lap_read1 (t : Fin cfg1.N) (r : Fin 6) (l : Fin 1024) :
    LapTile.lapAt (Lap.nbrBlk1 (Lap.VR15 m outs) c t) (Lap.crdBlk1 (Lap.VR15 m outs) c t) (Lap.cntBlk1 (Lap.VR15 m outs) c t) r l
      = lapCol1 m outs c r ⟨1024 * t.val + l.val, Lap.col_lt1 t l⟩ := by
  unfold LapTile.lapAt lapCol1
  rw [Lap.nbr_read1, Lap.crd_read1, Lap.cnt_read1]

theorem tile1_cols (s : ℕ) (hs : s < 1954) :
    Lap.tile1 (Lap.VR15 m outs) c s = ∑ l : Fin 1024, col1 m outs c (1024 * s + l.val) := by
  have h : s < cfg1.N := by show s < grid1.N; rw [N_1]; exact hs
  rw [Lap.tile1, dif_pos h]
  refine Finset.sum_congr rfl fun l _ => ?_
  have hcol : 1024 * s + l.val < 2000896 := Lap.col_lt1 ⟨s, h⟩ l
  rw [col1, dif_pos hcol]
  refine Finset.sum_congr rfl fun ch _ => ?_
  rw [lap_read1, lap_read1]

/-! ## A node's column -/

section Node
variable (j : ℕ) (h : j < 2000896) (hj : j < 2000000) (ch : Fin 3)

theorem fcrd_lo0 : crd15 m outs c (ix2 (Fin.castLE (by omega : 3 ≤ 6) ch) ⟨j, h⟩) = A2 m c (ix2 (⟨j, hj⟩ : Fin 2000000) ch) := by
  have hr : (Fin.castLE (by omega : 3 ≤ 6) ch).val < 3 := ch.isLt
  refine (v82_lo m outs c _ ⟨j, h⟩ hj).trans ?_
  rw [dif_pos hr]
  rfl

theorem fcrd_lo1 : crd15 m outs c (ix2 (Fin.natAdd 3 ch) ⟨j, h⟩) = A3 m c (ix2 (⟨j, hj⟩ : Fin 2000000) ch) := by
  have hr : ¬ (Fin.natAdd 3 ch).val < 3 := by show ¬ (3 + ch.val < 3); omega
  refine (v82_lo m outs c _ ⟨j, h⟩ hj).trans ?_
  rw [dif_neg hr]
  exact congrArg (fun q : Fin 3 => A3 m c (ix2 (⟨j, hj⟩ : Fin 2000000) q)) (Fin.ext (by show 3 + ch.val - 3 = ch.val; omega))

theorem fnbr_lo0 : nbr15 m outs c (ix2 (Fin.castLE (by omega : 3 ≤ 6) ch) ⟨j, h⟩)
    = Cert.ReferenceIdeal.Read.val_main_v61 (F := Ideal) (A2 m c) (A5 m c) (ix2 (⟨j, hj⟩ : Fin 2000000) ch) := by
  have hr : (Fin.castLE (by omega : 3 ≤ 6) ch).val < 3 := ch.isLt
  refine (v80_lo m outs c _ ⟨j, h⟩ hj).trans ?_
  rw [dif_pos hr, v58_eq]
  rfl

theorem fnbr_lo1 : nbr15 m outs c (ix2 (Fin.natAdd 3 ch) ⟨j, h⟩)
    = Cert.ReferenceIdeal.Read.val_main_v82 (F := Ideal) (A3 m c) (A5 m c) (ix2 (⟨j, hj⟩ : Fin 2000000) ch) := by
  have hr : ¬ (Fin.natAdd 3 ch).val < 3 := by show ¬ (3 + ch.val < 3); omega
  refine (v80_lo m outs c _ ⟨j, h⟩ hj).trans ?_
  rw [dif_neg hr, v68_eq]
  exact congrArg (fun q : Fin 3 => Cert.ReferenceIdeal.Read.val_main_v82 (F := Ideal) (A3 m c) (A5 m c) (ix2 (⟨j, hj⟩ : Fin 2000000) q))
    (Fin.ext (by show 3 + ch.val - 3 = ch.val; omega))

theorem fcnt_lo : cnt15 m outs c (ix2 (0 : Fin 1) ⟨j, h⟩) = (((A5 m c (ix2 (⟨j, hj⟩ : Fin 2000000) (9 : Fin 10))).toInt : ℝ) : EReal) :=
  v84_lo m outs c ⟨j, h⟩ hj

end Node

/-- For a node whose count is at least one, the column's term is the reference's node term. -/
theorem col1_lo (hc : ∀ i : Fin 2000000, 1 ≤ (A5 m c (ix2 i 9)).toInt) (j : ℕ) (hj : j < 2000000) :
    col1 m outs c j = node1 m c ⟨j, hj⟩ := by
  have h : j < 2000896 := by omega
  have hq : ∀ s : EReal, s * Ideal.div 1 (max ((((A5 m c (ix2 (⟨j, hj⟩ : Fin 2000000) (9 : Fin 10))).toInt : ℝ) : EReal)) 1)
      = Ideal.div s ((((A5 m c (ix2 (⟨j, hj⟩ : Fin 2000000) (9 : Fin 10))).toInt : ℝ) : EReal)) :=
    fun s => Cert.LapSpec.guard_scale s (by exact_mod_cast hc ⟨j, hj⟩)
  rw [col1, dif_pos h, node1]
  refine Finset.sum_congr rfl fun ch _ => ?_
  unfold lapCol1
  rw [fcrd_lo0 m outs c j h hj ch, fcrd_lo1 m outs c j h hj ch, fnbr_lo0 m outs c j h hj ch, fnbr_lo1 m outs c j h hj ch, fcnt_lo m outs c j h hj,
    hq, hq, Cert.ReferenceIdeal.LapRef.cnt_f, Cert.ReferenceIdeal.LapRef.cnt_f']

/-! ## A padded column -/

/-- From column 2000000 on the coordinates and the neighbour sums are zero, so the column's term is zero. -/
theorem col1_hi (j : ℕ) (h1 : 2000000 ≤ j) (h : j < 2000896) : col1 m outs c j = 0 := by
  have hcrd : ∀ r : Fin 6, crd15 m outs c (ix2 r ⟨j, h⟩) = 0 := fun r => v82_hi m outs c r ⟨j, h⟩ h1
  have hnbr : ∀ r : Fin 6, nbr15 m outs c (ix2 r ⟨j, h⟩) = 0 := fun r => v80_hi m outs c r ⟨j, h⟩ h1
  rw [col1, dif_pos h]
  refine Finset.sum_eq_zero fun ch _ => ?_
  unfold lapCol1
  rw [hcrd, hcrd, hnbr, hnbr, zero_mul, sub_zero, sub_zero, zero_mul]

/-! ## The sum over the tiles -/

/-- THE FINE BRIDGE: the 1954 tiles' sums add up to the reference's sum over the 2000000 fine nodes. -/
theorem sum_tiles1 (hc : ∀ i : Fin 2000000, 1 ≤ (A5 m c (ix2 i 9)).toInt) :
    ∑ s ∈ Finset.range 1954, Lap.tile1 (Lap.VR15 m outs) c s
      = Cert.ReferenceIdeal.Read.val_main_v93 (F := Ideal) (A2 m c) (A3 m c) (A5 m c) ix0 := by
  rw [Finset.sum_congr rfl fun s hs => tile1_cols m outs c s (Finset.mem_range.mp hs),
    Cert.LibTileSum.sum_tiles 1954 1024 (col1 m outs c), show 1954 * 1024 = 2000896 from by norm_num,
    Cert.LibTileSum.sum_pad 2000000 2000896 (by norm_num) (col1 m outs c) (fun j h1 h => col1_hi m outs c j h1 h),
    ← Cert.LibTileSum.sum_fin_range 2000000 (col1 m outs c),
    Finset.sum_congr rfl fun (i : Fin 2000000) _ => col1_lo m outs c hc i.val i.isLt]
  exact (Cert.ReferenceIdeal.LapRef.sum_f (A2 m c) (A3 m c) (A5 m c)).symm

end Cert.KernelIdeal.LapBridge

end
-- ==== Proof.KiValue.lean ====
/-
  The idealized kernel program's result is the reference's.

  Each region leaves, at the corner (g, 0, 0) of its [2, 8, 128] result for g = 0, 1, the accumulator of group g's
  last tile repeated over an 8 x 128 block, and that accumulator is the sum of the group's tiles' sums. The two
  groups' runs of tiles are consecutive, so the two corners add up to the sum over all tiles of the region, which is
  the reference's double sum over the nodes and channels once every count is at least one. The host tail then halves
  each region's mean and adds the halves with the same three float words as the reference, so the two results agree
  by congruence in the two sums; no float word is evaluated.
-/
import proofs.«428723_j14027363188886_4_alg».proof.Proof.KiHost
import proofs.«428723_j14027363188886_4_alg».proof.Proof.KiVals
import proofs.«428723_j14027363188886_4_alg».proof.Proof.KiAccVal0
import proofs.«428723_j14027363188886_4_alg».proof.Proof.KiAccVal1
import proofs.«428723_j14027363188886_4_alg».proof.Proof.KiTile
import proofs.«428723_j14027363188886_4_alg».proof.Proof.KiBridge0
import proofs.«428723_j14027363188886_4_alg».proof.Proof.KiBridge1
import proofs.«428723_j14027363188886_4_alg».proof.Proof.RefRead
import proofs.«428723_j14027363188886_4_alg».proof.Proof.LibTileSum

noncomputable section

open scoped BigOperators

namespace Cert.KernelIdeal.LapValue

open Cert.KernelIdeal Cert.KernelIdeal.Gen Cert.KernelIdeal.LapHost
open Idealize.ShloMosaic Idealize.ShloMosaic.ValueIdx Idealize.ShloMosaic.TcCoe Idealize.SL.Sem

variable (m : (ℓ : Loc nD τ sig) → Buf (Elt Ideal) ℓ) (outs : Outs (F := Ideal)) (c : Dev nD)

/-- Coarse region: the two corner entries add up to the reference's sum over the 500000 nodes. Group `g`'s corner is
    the accumulator after tile `245 g + 244`, the sum of tiles `245 g … 245 g + 244`; the two runs cover tiles
    `0 … 489`. -/
theorem coarse_pair
    (h8 : ∀ (g : Fin 2) (r : Fin 8) (l : Fin 128), (out0 outs c) (ix3 g r l)
      = (k0_pay3 (F := Ideal) (Lap.acc0 (Lap.VR7 m) c (245 * g.val + 244) (Lap.group_last_lt g)) : S1x8x128.Idx → EReal) (ix3 0 r l))
    (hc : ∀ i : Fin 500000, 1 ≤ (A4 m c (ix2 i 9)).toInt) :
    out0 outs c (ix3 (0 : Fin 2) (0 : Fin 8) (0 : Fin 128)) + out0 outs c (ix3 (1 : Fin 2) (0 : Fin 8) (0 : Fin 128))
      = Cert.ReferenceIdeal.Read.val_main_v45 (F := Ideal) (A0 m c) (A1 m c) (A4 m c) ix0 := by
  rw [h8 0 0 0, h8 1 0 0, LapTile.pay3_apply, LapTile.pay3_apply, Lap.acc0_group, Lap.acc0_group,
    ← LapBridge.sum_tiles0 m c hc]
  have h := Cert.LibTileSum.sum_groups 2 245 (Lap.tile0 (Lap.VR7 m) c)
  rw [Finset.sum_range_succ, Finset.sum_range_one] at h
  exact h

/-- Fine region: the two corner entries add up to the reference's sum over the 2000000 nodes. Group `g`'s corner is
    the accumulator after tile `977 g + 976`, the sum of tiles `977 g … 977 g + 976`; the two runs cover tiles
    `0 … 1953`. -/
theorem fine_pair
    (h16 : ∀ (g : Fin 2) (r : Fin 8) (l : Fin 128), (out1 outs c) (ix3 g r l)
      = (k1_pay3 (F := Ideal) (Lap.acc1 (Lap.VR15 m outs) c (977 * g.val + 976) (Lap.group_last_lt1 g)) : S1x8x128.Idx → EReal) (ix3 0 r l))
    (hf : ∀ i : Fin 2000000, 1 ≤ (A5 m c (ix2 i 9)).toInt) :
    out1 outs c (ix3 (0 : Fin 2) (0 : Fin 8) (0 : Fin 128)) + out1 outs c (ix3 (1 : Fin 2) (0 : Fin 8) (0 : Fin 128))
      = Cert.ReferenceIdeal.Read.val_main_v93 (F := Ideal) (A2 m c) (A3 m c) (A5 m c) ix0 := by
  rw [h16 0 0 0, h16 1 0 0, LapTile.k1_pay3_apply, LapTile.k1_pay3_apply, Lap.acc1_group, Lap.acc1_group,
    ← LapBridge.sum_tiles1 m outs c hf]
  have h := Cert.LibTileSum.sum_groups 2 977 (Lap.tile1 (Lap.VR15 m outs) c)
  rw [Finset.sum_range_succ, Finset.sum_range_one] at h
  exact h

/-- THE KERNEL PROGRAM'S VALUE. With each region's result holding its groups' last accumulators, and every count at
    least one, the scalar the kernel program returns is the reference's result on the same arrays. -/
theorem kernel_value
    (h8 : ∀ (g : Fin 2) (r : Fin 8) (l : Fin 128), (out0 outs c) (ix3 g r l)
      = (k0_pay3 (F := Ideal) (Lap.acc0 (Lap.VR7 m) c (245 * g.val + 244) (Lap.group_last_lt g)) : S1x8x128.Idx → EReal) (ix3 0 r l))
    (h16 : ∀ (g : Fin 2) (r : Fin 8) (l : Fin 128), (out1 outs c) (ix3 g r l)
      = (k1_pay3 (F := Ideal) (Lap.acc1 (Lap.VR15 m outs) c (977 * g.val + 976) (Lap.group_last_lt1 g)) : S1x8x128.Idx → EReal) (ix3 0 r l))
    (hc : ∀ i : Fin 500000, 1 ≤ (A4 m c (ix2 i 9)).toInt) (hf : ∀ i : Fin 2000000, 1 ≤ (A5 m c (ix2 i 9)).toInt) :
    (V17 m outs c main_v92 : S_.Idx → EReal) ix0
      = Cert.ReferenceIdeal.Read.val_main_v96 (F := Ideal) (A0 m c) (A1 m c) (A2 m c) (A3 m c) (A4 m c) (A5 m c) ix0 := by
  rw [LapHost.v92_eq m outs c, Cert.ReferenceIdeal.LapRef.result_eq, coarse_pair m outs c h8 hc,
    fine_pair m outs c h16 hf]

end Cert.KernelIdeal.LapValue

end
-- ==== Proof.KiOut0.lean ====
/-
  What the first launch's output array holds after the launch, read at an entry.

  The output array is [2, 8, 128]; its window's block is [1, 8, 128], placed at (g, 0, 0) for every tile of group g,
  and written back exactly at a group's last tile, tile 245 g + 244. At such a tile the block holds the accumulator
  after that tile spread over the block: one value at all 8 × 128 positions. So the array ends as ONE function of
  the index: entry (g, r, l) is the spread accumulator after tile 245 g + 244, read at (0, r, l). The two blocks
  written back — group 0's and group 1's — are the two leading-axis slabs of the array, so they cover it, and each
  is that function read through the block's rectangle (the block's leading coordinate is the group, since
  (245 g + 244) / 245 = g).

  The argument uses of the launch's proof data only what the output window holds after each tile, so it is stated
  once for any tile-indexed family of accumulators and any proof data whose output window holds the family's
  spread, and then read at the launch's own data.
-/
import proofs.«428723_j14027363188886_4_alg».proof.Proof.KiDat0
import proofs.«428723_j14027363188886_4_alg».proof.Proof.Gen.KernelIdeal.Skeleton
import proofs.«428723_j14027363188886_4_alg».proof.Proof.Gen.KernelIdeal.Launch
import proofs.«428723_j14027363188886_4_alg».proof.Proof.Gen.KernelIdeal.Points
import Idealize.ShloMosaic.Lib.Pipeline.FrameBody
import Idealize.ShloMosaic.Lib.Pipeline.Value
import Idealize.ShloMosaic.Lib.ValueIdx

noncomputable section

namespace Cert.KernelIdeal.Lap

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]

/-! ## The payload spread over the block -/

/-- The 1×1 shape has one index. -/
instance out0_subsingleton_S1x1 : Subsingleton S1x1.Idx :=
  ⟨fun p q => funext fun a => by
    match a with
    | ⟨0, _⟩ => exact Fin.ext (by have hp : (p 0).val < 1 := (p 0).isLt; have hq : (q 0).val < 1 := (q 0).isLt; show (p 0).val = (q 0).val; omega)
    | ⟨1, _⟩ => exact Fin.ext (by have hp : (p 1).val < 1 := (p 1).isLt; have hq : (q 1).val < 1 := (q 1).isLt; show (p 1).val = (q 1).val; omega)⟩

/-- The output payload is the accumulator's one entry at every index of the block. -/
theorem out0_pay3_const (a : Vec F S1x1 .f32) (j : S1x8x128.Idx) :
    (k0_pay3 a : Vec F S1x8x128 .f32) j = a (ix2 0 0) := by
  unfold k0_pay3 shapeCast broadcastTo
  exact congrArg a (Subsingleton.elim _ _)

/-! ## The schedule of the output window -/

/-- The last tile of group g is a tile of the grid. -/
theorem out0_lastTile_lt (g : Fin 2) : 245 * g.val + 244 < cfg0.N := by
  rw [show cfg0.N = 490 from N_0]; omega

/-- The output window's block index at every tile: the tile's group on the leading axis, zero on the other two. -/
theorem out0_idx : ∀ t : Fin cfg0.N, win0_3.index t (0 : Fin 3) = t.val / 245 ∧ win0_3.index t (1 : Fin 3) = 0
    ∧ win0_3.index t (2 : Fin 3) = 0 :=
  (by decide +kernel : ∀ t : Fin grid0.N, win0_3.index t (0 : Fin 3) = t.val / 245 ∧ win0_3.index t (1 : Fin 3) = 0
    ∧ win0_3.index t (2 : Fin 3) = 0)

/-- A tile-indexed family read at equal tile numbers. -/
theorem out0_acc_congr (acc : (n : ℕ) → n < cfg0.N → Vec F S1x1 .f32) {n n' : ℕ} (h : n = n') (hn : n < cfg0.N) (hn' : n' < cfg0.N) :
    acc n hn = acc n' hn' := by subst h; rfl

/-- WHAT THE ARRAY ENDS HOLDING, as one function of the index: entry (g, r, l) is the payload of the accumulator
    after group g's last tile, read at (0, r, l). -/
def out0_G (acc : (n : ℕ) → n < cfg0.N → Vec F S1x1 .f32) : S2x8x128.Idx → Elt F .f32 :=
  fun j => (k0_pay3 (acc (245 * (j 0).val + 244) (out0_lastTile_lt (j 0))) : Vec F S1x8x128 .f32) (ix3 0 (j 1 : Fin 8) (j 2 : Fin 128))

section General
variable (c : Dev nD) (dat : Dat τ (Elt F) Unit ℕ (UR sig nD τ) ℕ cfg0 c)
  (acc : (n : ℕ) → n < cfg0.N → Vec F S1x1 .f32)
  (hafter : ∀ t : Fin cfg0.N, dat.after 3 t = (k0_pay3 (acc t.val t.isLt) : Vec F S1x8x128 .f32))

include hafter in
/-- WHAT A TILE THAT WRITES BACK WRITES is its block of out0_G: the tile is its group's last, its block sits at the
    group's index on the leading axis, and the payload is constant over the block. -/
theorem out0_flushed (t : Fin cfg0.N) (hf : (cfg0.win 3).flush t = true) :
    dat.flushed 3 t = ((cfg0.win 3).blk t).view.read (Elt F) (out0_G acc) := by
  have hm : t.val % 245 = 244 := (flush0_3 t).mp hf
  obtain ⟨e0, -, -⟩ := out0_idx t
  show (cfg0.win 3).cut (grid0.coords t) (dat.after 3 t) = _
  rw [hafter]
  funext y
  show (k0_pay3 (acc t.val t.isLt) : Vec F S1x8x128 .f32) _ = out0_G acc (((cfg0.win 3).blk t).view.emb y)
  unfold out0_G
  rw [out0_pay3_const, out0_pay3_const]
  have hy : ((((cfg0.win 3).blk t).view.emb y) 0).val = win0_3.index t (0 : Fin 3) * 1 + 1 * (y 0).val := rfl
  have hy0 : (y 0).val < 1 := (y 0).isLt
  exact congrFun (out0_acc_congr acc (by rw [hy, e0]; omega) _ _) _

/-- An index of the array is in tile t's block iff each coordinate is in the block's range on its axis. -/
theorem out0_mem_blk (t : Fin cfg0.N) (i : S2x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v40).slice (win0_3.rect t)).set ↔ _
  rw [View.set_slice_whole, Rect.mem_set_unit]
  exact Iff.rfl

/-- Every entry of the array is in the block of a tile that writes back: entry (g, ·, ·) in group g's last tile's. -/
theorem out0_cover (i : S2x8x128.Idx) :
    ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 128 := (i 2).isLt
  refine ⟨⟨245 * (i 0).val + 244, out0_lastTile_lt (i 0)⟩, (flush0_3 _).mpr ?_, ?_⟩
  · show (245 * (i 0).val + 244) % 245 = 244
    omega
  · obtain ⟨e0, e1, e2⟩ := out0_idx ⟨245 * (i 0).val + 244, out0_lastTile_lt (i 0)⟩
    have e0' : win0_3.index ⟨245 * (i 0).val + 244, out0_lastTile_lt (i 0)⟩ (0 : Fin 3) = (i 0).val := by
      rw [e0]; show (245 * (i 0).val + 244) / 245 = (i 0).val; omega
    rw [out0_mem_blk]
    intro a
    match a with
    | ⟨0, _⟩ =>
      show win0_3.index _ (0 : Fin 3) * 1 ≤ (i 0).val ∧ (i 0).val < win0_3.index _ (0 : Fin 3) * 1 + 1
      rw [e0']; omega
    | ⟨1, _⟩ =>
      show win0_3.index _ (1 : Fin 3) * 8 ≤ (i 1).val ∧ (i 1).val < win0_3.index _ (1 : Fin 3) * 8 + 8
      rw [e1]; omega
    | ⟨2, _⟩ =>
      show win0_3.index _ (2 : Fin 3) * 128 ≤ (i 2).val ∧ (i 2).val < win0_3.index _ (2 : Fin 3) * 128 + 128
      rw [e2]; omega

include hafter in
/-- THE ARRAY AFTER THE LAUNCH is out0_G. -/
theorem out0_arr : dat.arrAt 3 cfg0.N = out0_G acc :=
  dat.arrAt_eq_of_cover 3 (out0_G acc) (out0_flushed c dat acc hafter) out0_cover

include hafter in
/-- Read at an entry. -/
theorem out0_final_of (g : Fin 2) (r : Fin 8) (l : Fin 128) :
    (dat.arrAt 3 cfg0.N : Vec F S2x8x128 .f32) (ix3 g r l)
      = (k0_pay3 (acc (245 * g.val + 244) (out0_lastTile_lt g)) : Vec F S1x8x128 .f32) (ix3 0 r l) := by
  rw [out0_arr c dat acc hafter]
  rfl

end General

/-! ## The launch's own data -/

section Launch0
variable (V : (c : Dev nD) → (b : Ref sig .tc) → Buf (Elt F) ((c : Thread nD τ).loc b))

/-- The first launch's output array after the launch, whole. -/
theorem out0_arr0 (c : Dev nD) : (dat0 V c).arrAt 3 cfg0.N = out0_G (acc0 V c) :=
  out0_arr c (dat0 V c) (acc0 V c) (dat0_after3 V c)

/-- THE FIRST LAUNCH'S OUTPUT, READ AT AN ENTRY: entry (g, r, l) is the spread of the accumulator after group g's
    last tile, read at (0, r, l). -/
theorem out0_final (c : Dev nD) (g : Fin 2) (r : Fin 8) (l : Fin 128) :
    ((dat0 V c).arrAt 3 cfg0.N : Vec F S2x8x128 .f32) (ix3 g r l)
      = (k0_pay3 (acc0 V c (245 * g.val + 244) (out0_lastTile_lt g)) : Vec F S1x8x128 .f32) (ix3 0 r l) :=
  out0_final_of c (dat0 V c) (acc0 V c) (dat0_after3 V c) g r l

end Launch0

end Cert.KernelIdeal.Lap

end
-- ==== Proof.KiOut1.lean ====
/-
  What the second launch's output array holds after the launch, read at an entry.

  The output array is [2, 8, 128]; its window's block is [1, 8, 128], placed at (g, 0, 0) for every tile of group g,
  and written back exactly at a group's last tile, tile 977 g + 976. At such a tile the block holds the accumulator
  after that tile spread over the block: one value at all 8 × 128 positions. So the array ends as ONE function of
  the index: entry (g, r, l) is the spread accumulator after tile 977 g + 976, read at (0, r, l). The two blocks
  written back — group 0's and group 1's — are the two leading-axis slabs of the array, so they cover it, and each
  is that function read through the block's rectangle (the block's leading coordinate is the group, since
  (977 g + 976) / 977 = g).

  The argument uses of the launch's proof data only what the output window holds after each tile, so it is stated
  once for any tile-indexed family of accumulators and any proof data whose output window holds the family's
  spread, and then read at the launch's own data.
-/
import proofs.«428723_j14027363188886_4_alg».proof.Proof.KiDat1
import proofs.«428723_j14027363188886_4_alg».proof.Proof.Gen.KernelIdeal.Skeleton
import proofs.«428723_j14027363188886_4_alg».proof.Proof.Gen.KernelIdeal.Launch
import proofs.«428723_j14027363188886_4_alg».proof.Proof.Gen.KernelIdeal.Points
import Idealize.ShloMosaic.Lib.Pipeline.FrameBody
import Idealize.ShloMosaic.Lib.Pipeline.Value
import Idealize.ShloMosaic.Lib.ValueIdx

noncomputable section

namespace Cert.KernelIdeal.Lap

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]

/-! ## The payload spread over the block -/

/-- The 1×1 shape has one index. -/
instance out1_subsingleton_S1x1 : Subsingleton S1x1.Idx :=
  ⟨fun p q => funext fun a => by
    match a with
    | ⟨0, _⟩ => exact Fin.ext (by have hp : (p 0).val < 1 := (p 0).isLt; have hq : (q 0).val < 1 := (q 0).isLt; show (p 0).val = (q 0).val; omega)
    | ⟨1, _⟩ => exact Fin.ext (by have hp : (p 1).val < 1 := (p 1).isLt; have hq : (q 1).val < 1 := (q 1).isLt; show (p 1).val = (q 1).val; omega)⟩

/-- The output payload is the accumulator's one entry at every index of the block. -/
theorem out1_pay3_const (a : Vec F S1x1 .f32) (j : S1x8x128.Idx) :
    (k1_pay3 a : Vec F S1x8x128 .f32) j = a (ix2 0 0) := by
  unfold k1_pay3 shapeCast broadcastTo
  exact congrArg a (Subsingleton.elim _ _)

/-! ## The schedule of the output window -/

/-- The last tile of group g is a tile of the grid. -/
theorem out1_lastTile_lt (g : Fin 2) : 977 * g.val + 976 < cfg1.N := by
  rw [show cfg1.N = 1954 from N_1]; omega

/-- The output window's block index at every tile: the tile's group on the leading axis, zero on the other two. -/
theorem out1_idx : ∀ t : Fin cfg1.N, win1_3.index t (0 : Fin 3) = t.val / 977 ∧ win1_3.index t (1 : Fin 3) = 0
    ∧ win1_3.index t (2 : Fin 3) = 0 :=
  (by decide +kernel : ∀ t : Fin grid1.N, win1_3.index t (0 : Fin 3) = t.val / 977 ∧ win1_3.index t (1 : Fin 3) = 0
    ∧ win1_3.index t (2 : Fin 3) = 0)

/-- A tile-indexed family read at equal tile numbers. -/
theorem out1_acc_congr (acc : (n : ℕ) → n < cfg1.N → Vec F S1x1 .f32) {n n' : ℕ} (h : n = n') (hn : n < cfg1.N) (hn' : n' < cfg1.N) :
    acc n hn = acc n' hn' := by subst h; rfl

/-- WHAT THE ARRAY ENDS HOLDING, as one function of the index: entry (g, r, l) is the payload of the accumulator
    after group g's last tile, read at (0, r, l). -/
def out1_G (acc : (n : ℕ) → n < cfg1.N → Vec F S1x1 .f32) : S2x8x128.Idx → Elt F .f32 :=
  fun j => (k1_pay3 (acc (977 * (j 0).val + 976) (out1_lastTile_lt (j 0))) : Vec F S1x8x128 .f32) (ix3 0 (j 1 : Fin 8) (j 2 : Fin 128))

section General
variable (c : Dev nD) (dat : Dat τ (Elt F) Unit ℕ (UR sig nD τ) ℕ cfg1 c)
  (acc : (n : ℕ) → n < cfg1.N → Vec F S1x1 .f32)
  (hafter : ∀ t : Fin cfg1.N, dat.after 3 t = (k1_pay3 (acc t.val t.isLt) : Vec F S1x8x128 .f32))

include hafter in
/-- WHAT A TILE THAT WRITES BACK WRITES is its block of out1_G: the tile is its group's last, its block sits at the
    group's index on the leading axis, and the payload is constant over the block. -/
theorem out1_flushed (t : Fin cfg1.N) (hf : (cfg1.win 3).flush t = true) :
    dat.flushed 3 t = ((cfg1.win 3).blk t).view.read (Elt F) (out1_G acc) := by
  have hm : t.val % 977 = 976 := (flush1_3 t).mp hf
  obtain ⟨e0, -, -⟩ := out1_idx t
  show (cfg1.win 3).cut (grid1.coords t) (dat.after 3 t) = _
  rw [hafter]
  funext y
  show (k1_pay3 (acc t.val t.isLt) : Vec F S1x8x128 .f32) _ = out1_G acc (((cfg1.win 3).blk t).view.emb y)
  unfold out1_G
  rw [out1_pay3_const, out1_pay3_const]
  have hy : ((((cfg1.win 3).blk t).view.emb y) 0).val = win1_3.index t (0 : Fin 3) * 1 + 1 * (y 0).val := rfl
  have hy0 : (y 0).val < 1 := (y 0).isLt
  exact congrFun (out1_acc_congr acc (by rw [hy, e0]; omega) _ _) _

/-- An index of the array is in tile t's block iff each coordinate is in the block's range on its axis. -/
theorem out1_mem_blk (t : Fin cfg1.N) (i : S2x8x128.Idx) :
    i ∈ ((cfg1.win 3).blk t).view.set ↔ ∀ a : Fin 3, win1_3.index t a * S1x8x128.size a ≤ (i a).val
      ∧ (i a).val < win1_3.index t a * S1x8x128.size a + S1x8x128.size a := by
  show i ∈ ((View.whole main_v85).slice (win1_3.rect t)).set ↔ _
  rw [View.set_slice_whole, Rect.mem_set_unit]
  exact Iff.rfl

/-- Every entry of the array is in the block of a tile that writes back: entry (g, ·, ·) in group g's last tile's. -/
theorem out1_cover (i : S2x8x128.Idx) :
    ∃ t : Fin cfg1.N, (cfg1.win 3).flush t = true ∧ i ∈ ((cfg1.win 3).blk t).view.set := by
  have h0 : (i 0).val < 2 := (i 0).isLt
  have h1 : (i 1).val < 8 := (i 1).isLt
  have h2 : (i 2).val < 128 := (i 2).isLt
  refine ⟨⟨977 * (i 0).val + 976, out1_lastTile_lt (i 0)⟩, (flush1_3 _).mpr ?_, ?_⟩
  · show (977 * (i 0).val + 976) % 977 = 976
    omega
  · obtain ⟨e0, e1, e2⟩ := out1_idx ⟨977 * (i 0).val + 976, out1_lastTile_lt (i 0)⟩
    have e0' : win1_3.index ⟨977 * (i 0).val + 976, out1_lastTile_lt (i 0)⟩ (0 : Fin 3) = (i 0).val := by
      rw [e0]; show (977 * (i 0).val + 976) / 977 = (i 0).val; omega
    rw [out1_mem_blk]
    intro a
    match a with
    | ⟨0, _⟩ =>
      show win1_3.index _ (0 : Fin 3) * 1 ≤ (i 0).val ∧ (i 0).val < win1_3.index _ (0 : Fin 3) * 1 + 1
      rw [e0']; omega
    | ⟨1, _⟩ =>
      show win1_3.index _ (1 : Fin 3) * 8 ≤ (i 1).val ∧ (i 1).val < win1_3.index _ (1 : Fin 3) * 8 + 8
      rw [e1]; omega
    | ⟨2, _⟩ =>
      show win1_3.index _ (2 : Fin 3) * 128 ≤ (i 2).val ∧ (i 2).val < win1_3.index _ (2 : Fin 3) * 128 + 128
      rw [e2]; omega

include hafter in
/-- THE ARRAY AFTER THE LAUNCH is out1_G. -/
theorem out1_arr : dat.arrAt 3 cfg1.N = out1_G acc :=
  dat.arrAt_eq_of_cover 3 (out1_G acc) (out1_flushed c dat acc hafter) out1_cover

include hafter in
/-- Read at an entry. -/
theorem out1_final_of (g : Fin 2) (r : Fin 8) (l : Fin 128) :
    (dat.arrAt 3 cfg1.N : Vec F S2x8x128 .f32) (ix3 g r l)
      = (k1_pay3 (acc (977 * g.val + 976) (out1_lastTile_lt g)) : Vec F S1x8x128 .f32) (ix3 0 r l) := by
  rw [out1_arr c dat acc hafter]
  rfl

end General

/-! ## The launch's own data -/

section Launch1
variable (V : (c : Dev nD) → (b : Ref sig .tc) → Buf (Elt F) ((c : Thread nD τ).loc b))

/-- The second launch's output array after the launch, whole. -/
theorem out1_arr1 (c : Dev nD) : (dat1 V c).arrAt 3 cfg1.N = out1_G (acc1 V c) :=
  out1_arr c (dat1 V c) (acc1 V c) (dat1_after3 V c)

/-- THE SECOND LAUNCH'S OUTPUT, READ AT AN ENTRY: entry (g, r, l) is the spread of the accumulator after group g's
    last tile, read at (0, r, l). -/
theorem out1_final (c : Dev nD) (g : Fin 2) (r : Fin 8) (l : Fin 128) :
    ((dat1 V c).arrAt 3 cfg1.N : Vec F S2x8x128 .f32) (ix3 g r l)
      = (k1_pay3 (acc1 V c (977 * g.val + 976) (out1_lastTile_lt g)) : Vec F S1x8x128 .f32) (ix3 0 r l) :=
  out1_final_of c (dat1 V c) (acc1 V c) (dat1_after3 V c) g r l

end Launch1

end Cert.KernelIdeal.Lap

end
-- ==== Proof.PreDecode.lean ====
/-
  What the certificate's precondition says of the six inputs, decoded from its printed predicate.

  The predicate is a conjunction of six "for all" statements, each printed as a reduction by "and" from the
  constant one: each of the four real-valued inputs has absolute value below +∞ at every entry, and column 9 of each
  of the two integer tables (a node's neighbour count), read signed, is at least the word 1 in every row. That the
  predicate is one everywhere therefore gives, entry by entry: every count in column 9 is a signed integer ≥ 1, and
  every real-valued entry is a real number (neither infinity).

  Each integer conjunct is read at one row i: the comparison at i compares the column slice, flattened, with the
  broadcast constant 1; the flattened slice at i is the table at (i, 9) (same row-major position, and the slice's
  offset on the column axis is 9); the broadcast constant at i is the word 1, whose signed value is 1.
-/
import proofs.«428723_j14027363188886_4_alg».proof.Pre_finite_inputs
import proofs.«428723_j14027363188886_4_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value
import Idealize.ShloMosaic.PureOps.Ideal.Laws

noncomputable section

namespace Cert.LapPre

open Idealize.ShloMosaic Idealize.ShloMosaic.ValueIdx
open Cert.Pre_finite_inputs

/-- The scalar shape has one index. -/
instance : Subsingleton S_.Idx := ⟨fun a b => funext fun d => d.elim0⟩

/-! ## One row of a count column -/

/-- Column 9 of an [n × 10] table of words, sliced out as an [n × 1] column, flattened to [n] and compared (signed, ≥)
    with the broadcast word 1: where the comparison holds at row i, the table's entry (i, 9) is a signed integer at
    least 1. -/
theorem col9_ge_one {n : Nat} (x : IVec ⟨2, ![n, 10]⟩ 32)
    (hs : (⟨2, ![n, 10]⟩ : Shape).Slices ![0, 9] ⟨2, ![n, 1]⟩)
    (hc : (⟨2, ![n, 1]⟩ : Shape).ShapeCasts ⟨1, ![n]⟩)
    (hb : S_.BroadcastsInDim ⟨1, ![n]⟩ (![] : Fin 0 → Fin 1)) (i : Fin n)
    (h : cmpi .sge (shapeCast ⟨1, ![n]⟩ (extractStridedSlice ⟨2, ![n, 1]⟩ ![0, 9] x hs) hc)
          (broadcastInDim ⟨1, ![n]⟩ ![] hb (constantI S_ 32 1#32)) (ix1 i) = 1#1) :
    1 ≤ (x (ix2 i 9)).toInt := by
  -- the comparison at row i is the comparison of the two words there
  have h' : IntOp.cmpi .sge (shapeCast ⟨1, ![n]⟩ (extractStridedSlice ⟨2, ![n, 1]⟩ ![0, 9] x hs) hc (ix1 i)) (1#32) = 1#1 := h
  rw [IntOp.cmpi_sge, show (1#32 : BitVec 32).toInt = 1 from by decide] at h'
  -- the flattened column at i is the column at (i, 0): the same row-major position
  have e1 : shapeCast ⟨1, ![n]⟩ (extractStridedSlice ⟨2, ![n, 1]⟩ ![0, 9] x hs) hc (ix1 i)
      = extractStridedSlice ⟨2, ![n, 1]⟩ ![0, 9] x hs (ix2 i (0 : Fin 1)) :=
    shapeCast_apply _ hc (ix1 i) (ix2 i (0 : Fin 1)) (by
      rw [Shape.rowMajor_val_two, Shape.rowMajor_val_one]
      show i.val * 1 + 0 = i.val
      omega)
  -- the column at (i, 0) is the table at (i, 9): the slice's offsets are (0, 9)
  have e2 : extractStridedSlice ⟨2, ![n, 1]⟩ ![0, 9] x hs (ix2 i (0 : Fin 1)) = x (ix2 i 9) :=
    extractStridedSlice_apply ![0, 9] x hs (ix2 i (0 : Fin 1)) (ix2 i 9) (fun a => by
      match a with
      | ⟨0, _⟩ => show i.val = 0 + i.val; omega
      | ⟨1, _⟩ => show (9 : Fin 10).val = 9 + 0; rfl)
  rw [e1, e2] at h'
  exact h'

/-! ## The conjunction, split -/

/-- The tail of the predicate (its last reduction over a real-valued input, and the two integer conjuncts) is one
    exactly when each conjunct is: the carried conjunction so far is one, the last real-valued comparison holds at
    every entry, and every row of either table has a count at least 1 in column 9. -/
theorem part1_split {F : FTy → Type} [FloatOps F] (a4 : IVec S500000x10 32) (a5 : IVec S2000000x10 32)
    (v13 : IVec S_ 1) (v16 : IVec S2000000x3 1) (h : fn_part1 (F := F) a4 a5 v13 v16 ix0 = 1#1) :
    (v13 ix0 = 1#1 ∧ ∀ j, v16 j = 1#1) ∧ (∀ i : Fin 500000, 1 ≤ (a4 (ix2 i 9)).toInt) ∧
      ∀ i : Fin 2000000, 1 ≤ (a5 (ix2 i 9)).toInt := by
  dsimp only [fn_part1] at h
  obtain ⟨h24, h29⟩ := IntOp.andi_eq_one.1 h
  obtain ⟨h18, h23⟩ := IntOp.andi_eq_one.1 h24
  obtain ⟨h13, h17⟩ := IntOp.andi_eq_one.1 h18
  refine ⟨⟨h13, fun j => Host.reduce_andi_all _ _ _ _ _ h17 j⟩, fun i => ?_, fun i => ?_⟩
  · exact col9_ge_one a4 _ _ _ i (Host.reduce_andi_all _ _ _ _ _ h23 (ix1 i))
  · exact col9_ge_one a5 _ _ _ i (Host.reduce_andi_all _ _ _ _ _ h29 (ix1 i))

/-! ## The counts -/

section Counts
variable {F : FTy → Type} [FloatOps F]
  {x0 x1 : FVec F S500000x3 .f32} {x2 x3 : FVec F S2000000x3 .f32} {x4 : IVec S500000x10 32} {x5 : IVec S2000000x10 32}

/-- Under the precondition every row of the coarse table has a neighbour count (column 9, read signed) at least 1. -/
theorem count_ge_one_c (h : Cert.Pre_finite_inputs.fn (F := F) x0 x1 x2 x3 x4 x5 = fun _ => 1#1) (i : Fin 500000) :
    1 ≤ (x4 (ValueIdx.ix2 i 9)).toInt := by
  have h0 := congrFun h ix0
  dsimp only [fn] at h0
  exact (part1_split _ _ _ _ h0).2.1 i

/-- Under the precondition every row of the fine table has a neighbour count (column 9, read signed) at least 1. -/
theorem count_ge_one_f (h : Cert.Pre_finite_inputs.fn (F := F) x0 x1 x2 x3 x4 x5 = fun _ => 1#1) (i : Fin 2000000) :
    1 ≤ (x5 (ValueIdx.ix2 i 9)).toInt := by
  have h0 := congrFun h ix0
  dsimp only [fn] at h0
  exact (part1_split _ _ _ _ h0).2.2 i

end Counts

/-! ## The real-valued inputs -/

/-- One value: an extended real whose absolute value (the larger of it and its negation) is below the extended real
    that the pattern of +∞ denotes is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [StableHlo.Predicate.ofBool_eq_one_iff, decide_eq_true_eq, max_lt_iff] at h
  obtain ⟨h1, h2⟩ := h
  induction x using EReal.rec with
  | bot => exact absurd h2 (by simp)
  | coe r => exact ⟨r, rfl⟩
  | top => exact absurd h1 (by simp)

/-- One array: where the printed comparison "absolute value below +∞" holds at an index, the entry there is a real
    number. -/
theorem real_of_cmp {s : Shape} (x : FVec Ideal s .f32) (hb : S_.BroadcastsInDim s (![] : Fin 0 → Fin s.rank)) (j : s.Idx)
    (h : cmpf .olt (Host.absf x) (broadcastInDim s ![] hb (constant S_ .f32 0x7F800000#32)) j = 1#1) :
    ∃ r : ℝ, x j = (r : EReal) :=
  real_of_abs_lt_inf (x j) h

section Finite
variable {x0 x1 : FVec Ideal S500000x3 .f32} {x2 x3 : FVec Ideal S2000000x3 .f32} {x4 : IVec S500000x10 32}
  {x5 : IVec S2000000x10 32}

/-- Under the precondition every entry of each of the four real-valued inputs is a real number. -/
theorem finite_all (h : Cert.Pre_finite_inputs.fn (F := Ideal) x0 x1 x2 x3 x4 x5 = fun _ => 1#1) :
    ((∀ j, ∃ r : ℝ, x0 j = (r : EReal)) ∧ ∀ j, ∃ r : ℝ, x1 j = (r : EReal)) ∧
      (∀ j, ∃ r : ℝ, x2 j = (r : EReal)) ∧ ∀ j, ∃ r : ℝ, x3 j = (r : EReal) := by
  have h0 := congrFun h ix0
  dsimp only [fn] at h0
  obtain ⟨⟨h13, h16⟩, -, -⟩ := part1_split _ _ _ _ h0
  obtain ⟨h8, h12⟩ := IntOp.andi_eq_one.1 h13
  obtain ⟨h3, h7⟩ := IntOp.andi_eq_one.1 h8
  exact ⟨⟨fun j => real_of_cmp x0 _ j (Host.reduce_andi_all _ _ _ _ _ h3 j),
      fun j => real_of_cmp x1 _ j (Host.reduce_andi_all _ _ _ _ _ h7 j)⟩,
    fun j => real_of_cmp x2 _ j (Host.reduce_andi_all _ _ _ _ _ h12 j),
    fun j => real_of_cmp x3 _ j (h16 j)⟩

/-- Every coordinate of a coarse node's first position is a real number. -/
theorem finite_c0 (h : Cert.Pre_finite_inputs.fn (F := Ideal) x0 x1 x2 x3 x4 x5 = fun _ => 1#1) (i : Fin 500000) (ch : Fin 3) :
    ∃ r : ℝ, x0 (ValueIdx.ix2 i ch) = (r : EReal) := (finite_all h).1.1 _

/-- Every coordinate of a coarse node's second position is a real number. -/
theorem finite_c1 (h : Cert.Pre_finite_inputs.fn (F := Ideal) x0 x1 x2 x3 x4 x5 = fun _ => 1#1) (i : Fin 500000) (ch : Fin 3) :
    ∃ r : ℝ, x1 (ValueIdx.ix2 i ch) = (r : EReal) := (finite_all h).1.2 _

/-- Every coordinate of a fine node's first position is a real number. -/
theorem finite_f2 (h : Cert.Pre_finite_inputs.fn (F := Ideal) x0 x1 x2 x3 x4 x5 = fun _ => 1#1) (i : Fin 2000000) (ch : Fin 3) :
    ∃ r : ℝ, x2 (ValueIdx.ix2 i ch) = (r : EReal) := (finite_all h).2.1 _

/-- Every coordinate of a fine node's second position is a real number. -/
theorem finite_f3 (h : Cert.Pre_finite_inputs.fn (F := Ideal) x0 x1 x2 x3 x4 x5 = fun _ => 1#1) (i : Fin 2000000) (ch : Fin 3) :
    ∃ r : ℝ, x3 (ValueIdx.ix2 i ch) = (r : EReal) := (finite_all h).2.2 _

end Finite

end Cert.LapPre

end
-- ==== Proof.KiAlg.lean ====
/-
  The idealized kernel program's result is the idealized reference's, on memories agreeing on the six arguments.

  The kernel program's run ends with the result buffer at the last valuation's value, which is
  `0.5 · (S₀ + S₁)/500000 + 0.5 · (T₀ + T₁)/2000000` with `S_g`, `T_g` the entries the two launches left at
  `[g, 0, 0]` of their output arrays. Each launch leaves there its accumulator after the last tile of group `g`
  (the write-backs read off the pipeline's fold), i.e. the sum of the group's tile sums; the tile sums of a launch add
  up to the reference's sum over that mesh's nodes when every neighbour count is at least one — the precondition —,
  because then scaling a neighbour sum by the guarded reciprocal IS dividing it by the count, and the padded columns
  contribute zero. The reference's run ends with its result at the same combination of the two node sums.
-/
import proofs.«428723_j14027363188886_4_alg».proof.Defs
import proofs.«428723_j14027363188886_4_alg».proof.Proof.KiRunMain
import proofs.«428723_j14027363188886_4_alg».proof.Proof.KiValue
import proofs.«428723_j14027363188886_4_alg».proof.Proof.KiOut0
import proofs.«428723_j14027363188886_4_alg».proof.Proof.KiOut1
import proofs.«428723_j14027363188886_4_alg».proof.Proof.PreDecode
import proofs.«428723_j14027363188886_4_alg».proof.Proof.Gen.ReferenceIdeal.Run
import proofs.«428723_j14027363188886_4_alg».proof.Proof.Gen.ReferenceIdeal.Read

noncomputable section

namespace Cert.Proof.LapAlg

open Cert.KernelIdeal Cert.KernelIdeal.Gen Cert.KernelIdeal.Lap Cert.KernelIdeal.LapHost
open Idealize.ShloMosaic Idealize.ShloMosaic.TcCoe Idealize.ShloMosaic.ValueIdx Idealize.SL.Sem

variable (m : (ℓ : Loc nD τ sig) → Buf (Elt Ideal) ℓ) (c : Dev nD)

/-- What the first launch left in its output array, entry by entry: the accumulator after the last tile of the
    entry's group. -/
theorem left0 (g : Fin 2) (r : Fin 8) (l : Fin 128) :
    (out0 (outsK m) c) (ix3 g r l)
      = (k0_pay3 (F := Ideal) (acc0 (VR7 m) c (245 * g.val + 244) (group_last_lt g)) : S1x8x128.Idx → EReal) (ix3 0 r l) :=
  (congrFun (W8_arr m c 3) (ix3 g r l)).trans (out0_final (VR7 m) c g r l)

/-- What the second launch left in its output array. -/
theorem left1 (g : Fin 2) (r : Fin 8) (l : Fin 128) :
    (out1 (outsK m) c) (ix3 g r l)
      = (k1_pay3 (F := Ideal) (acc1 (VR15 m (outsK m)) c (977 * g.val + 976) (group_last_lt1 g)) : S1x8x128.Idx → EReal) (ix3 0 r l) :=
  (congrFun (W16_arr m c 3) (ix3 g r l)).trans (out1_final (VR15 m (outsA m)) c g r l)

/-- THE TWO RESULTS ARE ONE: under the precondition (decoded: every neighbour count of both meshes is at least
    one) the kernel program's result buffer ends at the reference's result term of the same arguments. -/
theorem result_eq
    (hpre : Cert.Pre_finite_inputs.fn (F := Ideal) (A0 m c) (A1 m c) (A2 m c) (A3 m c) (A4 m c) (A5 m c) = fun _ => 1#1) :
    (V17 m (outsK m) c main_v92 : S_.Idx → EReal)
      = Cert.ReferenceIdeal.Read.val_main_v96 (F := Ideal) (A0 m c) (A1 m c) (A2 m c) (A3 m c) (A4 m c) (A5 m c) := by
  funext j
  rw [eq_ix0 j]
  exact Cert.KernelIdeal.LapValue.kernel_value m (outsK m) c (left0 m c) (left1 m c)
    (Cert.LapPre.count_ge_one_c hpre) (Cert.LapPre.count_ge_one_f hpre)

end Cert.Proof.LapAlg

end
-- ==== Proof.lean ====
/-
  The certificate of a Laplacian-regulariser loss kernel against its jnp reference.

  For each of two meshes (500000 and 2000000 nodes) every node `i` has two coordinate triples `x1 i`, `x2 i`, up to
  eight neighbour indices (negative: absent) and a neighbour count `c i`. With `s1 i`, `s2 i` the sums of the present
  neighbours' coordinates, the Laplacian coordinates are `x − s / c`, the mesh's regulariser is the mean over the nodes
  of the squared distance of the two Laplacian coordinates, and the loss is half the coarse regulariser plus half the
  fine one. The reference computes exactly that on the host. The kernel program computes the neighbour sums on the host
  by the same operations, lays coordinates, sums and counts out with the node axis on lanes, padded with zero columns
  of count one to two groups of whole 1024-lane tiles, and runs one launch per mesh: each tile scales the sums by
  `1 / max(c, 1)`, forms the squared distances, adds their sum to a 1×1 accumulator kept across the tiles of a group
  (reset at the group's first tile) and, at the group's last tile, spreads the accumulator over the group's output
  block; the host adds the two groups' entries, divides by the node count and combines the halves.

  Precondition: the four float inputs are finite and — added to the generated statement — every neighbour count of
  both meshes is at least one. Under it `s · (1 / max(c, 1)) = s / c` on every extended real, the padded columns
  contribute zero, and sums of tiles and groups regroup into the sum over the nodes, so the two results agree
  (`algebraic`). The three frames: the reference's run is generated; each kernel program's frame is the generated
  several-region frame at two launch records whose invariant owns the accumulator's scratch at the value the recursion
  over the tiles gives it. The idealization rewrote nothing, so `preserves` has no conjunct.
-/
import proofs.«428723_j14027363188886_4_alg».proof.Defs
import proofs.«428723_j14027363188886_4_alg».proof.Proof.Gen.Kernel
import proofs.«428723_j14027363188886_4_alg».proof.Proof.Gen.Kernel.Skeleton
import proofs.«428723_j14027363188886_4_alg».proof.Proof.Gen.Kernel.Launch
import proofs.«428723_j14027363188886_4_alg».proof.Proof.Gen.Kernel.Regions
import proofs.«428723_j14027363188886_4_alg».proof.Proof.Gen.Kernel.Points
import proofs.«428723_j14027363188886_4_alg».proof.Proof.Gen.KernelIdeal
import proofs.«428723_j14027363188886_4_alg».proof.Proof.Gen.KernelIdeal.Skeleton
import proofs.«428723_j14027363188886_4_alg».proof.Proof.Gen.KernelIdeal.Launch
import proofs.«428723_j14027363188886_4_alg».proof.Proof.Gen.KernelIdeal.Regions
import proofs.«428723_j14027363188886_4_alg».proof.Proof.Gen.KernelIdeal.Points
import proofs.«428723_j14027363188886_4_alg».proof.Proof.Gen.ReferenceIdeal
import proofs.«428723_j14027363188886_4_alg».proof.Proof.Gen.Pre_finite_inputs
import proofs.«428723_j14027363188886_4_alg».proof.Proof.Gen.ReferenceIdeal.Run
import proofs.«428723_j14027363188886_4_alg».proof.Proof.Gen.ReferenceIdeal.Read
import proofs.«428723_j14027363188886_4_alg».proof.Proof.KbRegions
import proofs.«428723_j14027363188886_4_alg».proof.Proof.KiRegions
import proofs.«428723_j14027363188886_4_alg».proof.Proof.KiRunMain
import proofs.«428723_j14027363188886_4_alg».proof.Proof.KiAlg
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m g _ => Cert.Kernel.Lap.frame (F := Bits) m g

/-- So does the idealized one. -/
theorem frame_ki : Cert.frame_KernelIdeal (hKernelIdeal := Cert.KernelIdeal.Gen.facts) (hPre_finite_inputs := Cert.Pre_finite_inputs.Gen.facts) :=
  fun m g _ => Cert.KernelIdeal.Lap.frame (F := Ideal) m g

/-- The reference's frame is its generated run with the result dropped. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Value.run (F := Ideal) m g)

/-- An unscoped TensorCore buffer of the idealized kernel program is among those its run names at the end. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- Both idealized programs run, from memories agreeing on the arguments, to equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Gen.V17 m (Cert.KernelIdeal.Lap.outsK m) c Cert.KernelIdeal.main_v92, ?_, ?_⟩
  · exact (θ_run Cert.KernelIdeal.defs _ _).mono (fun r h c =>
      ⟨h c _ (mem_uc Cert.KernelIdeal.main_v92 (by decide)),
       (h c _ (mem_uc Cert.KernelIdeal.main_arg0 (by decide))).trans (Cert.KernelIdeal.Gen.V17_main_arg0 m _ c),
       (h c _ (mem_uc Cert.KernelIdeal.main_arg1 (by decide))).trans (Cert.KernelIdeal.Gen.V17_main_arg1 m _ c),
       (h c _ (mem_uc Cert.KernelIdeal.main_arg2 (by decide))).trans (Cert.KernelIdeal.Gen.V17_main_arg2 m _ c),
       (h c _ (mem_uc Cert.KernelIdeal.main_arg3 (by decide))).trans (Cert.KernelIdeal.Gen.V17_main_arg3 m _ c),
       (h c _ (mem_uc Cert.KernelIdeal.main_arg4 (by decide))).trans (Cert.KernelIdeal.Gen.V17_main_arg4 m _ c),
       (h c _ (mem_uc Cert.KernelIdeal.main_arg5 (by decide))).trans (Cert.KernelIdeal.Gen.V17_main_arg5 m _ c)⟩)
      (Cert.KernelIdeal.Lap.run_main (F := Ideal) m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v96_eq, (hagree c).1, (hagree c).2.1, (hagree c).2.2.1, (hagree c).2.2.2.1,
      (hagree c).2.2.2.2.1, (hagree c).2.2.2.2.2]
    exact (Cert.Proof.LapAlg.result_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
